-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3 : Shape := ⟨3, ![32, 1024, 3]⟩
abbrev S32x3x3 : Shape := ⟨3, ![32, 3, 3]⟩
abbrev S_ : Shape := ⟨0, ![]⟩

class Facts : Prop where
  bcast_S_S32x1024x3 : S_.BroadcastsInDim S32x1024x3 (![] : Fin 0 → Fin S32x1024x3.rank)
  reducesTo_S32x1024x3_S_d0_1_2 : S32x1024x3.ReducesTo [0, 1, 2] S_
  h_S_ : 0 < S_.numel
  bcast_S_S32x3x3 : S_.BroadcastsInDim S32x3x3 (![] : Fin 0 → Fin S32x3x3.rank)
  reducesTo_S32x3x3_S_d0_1_2 : S32x3x3.ReducesTo [0, 1, 2] S_

variable [Facts]

def fn {F : FTy → Type} [FloatOps F] (main_arg0 : FVec F S32x1024x3 .f32) (main_arg1 : FVec F S32x3x3 .f32) : IVec S_ 1 :=
  let main_v0 : FVec F S32x1024x3 .f32 := Host.absf main_arg0
  let main_cst : FVec F S_ .f32 := constant S_ .f32 0x7F800000#32
  let main_v1 : FVec F S32x1024x3 .f32 := broadcastInDim S32x1024x3 ![] bcast_S_S32x1024x3 main_cst
  let main_v2 : IVec S32x1024x3 1 := cmpf .olt main_v0 main_v1
  let main_c : IVec S_ 1 := constantI S_ 1 1#1
  let main_v3 : IVec S_ 1 := (fun x v => Host.reduce IntOp.andi x v reducesTo_S32x1024x3_S_d0_1_2 h_S_) main_v2 main_c
  let main_v4 : FVec F S32x3x3 .f32 := Host.absf main_arg1
  let main_cst_0 : FVec F S_ .f32 := constant S_ .f32 0x7F800000#32
  let main_v5 : FVec F S32x3x3 .f32 := broadcastInDim S32x3x3 ![] bcast_S_S32x3x3 main_cst_0
  let main_v6 : IVec S32x3x3 1 := cmpf .olt main_v4 main_v5
  let main_c_1 : IVec S_ 1 := constantI S_ 1 1#1
  let main_v7 : IVec S_ 1 := (fun x v => Host.reduce IntOp.andi x v reducesTo_S32x3x3_S_d0_1_2 h_S_) main_v6 main_c_1
  let main_v8 : IVec S_ 1 := andi main_v3 main_v7
  main_v8
-- ==== Kernel.lean ====
abbrev S32x1024x3 : Shape := ⟨3, ![32, 1024, 3]⟩
abbrev S32x3x3 : Shape := ⟨3, ![32, 3, 3]⟩
abbrev S32x3x1024 : Shape := ⟨3, ![32, 3, 1024]⟩
abbrev S3 : Shape := ⟨1, ![3]⟩
abbrev S_ : Shape := ⟨0, ![]⟩
abbrev S3x1 : Shape := ⟨2, ![3, 1]⟩
abbrev S3x2 : Shape := ⟨2, ![3, 2]⟩
abbrev S32x3 : Shape := ⟨2, ![32, 3]⟩
abbrev S32x3x1x1 : Shape := ⟨4, ![32, 3, 1, 1]⟩
abbrev S32x3x1024x1024 : Shape := ⟨4, ![32, 3, 1024, 1024]⟩
abbrev S1x3x256 : Shape := ⟨3, ![1, 3, 256]⟩
abbrev S1x3x1024 : Shape := ⟨3, ![1, 3, 1024]⟩
abbrev S1x3x1x1 : Shape := ⟨4, ![1, 3, 1, 1]⟩
abbrev S1x3x256x1024 : Shape := ⟨4, ![1, 3, 256, 1024]⟩
abbrev S3x256 : Shape := ⟨2, ![3, 256]⟩
abbrev S3x1024 : Shape := ⟨2, ![3, 1024]⟩
abbrev S3x1x1 : Shape := ⟨3, ![3, 1, 1]⟩
abbrev S3x256x1 : Shape := ⟨3, ![3, 256, 1]⟩
abbrev S3x1x1024 : Shape := ⟨3, ![3, 1, 1024]⟩
abbrev S3x256x1024 : Shape := ⟨3, ![3, 256, 1024]⟩
abbrev S32x1024x1024x3 : Shape := ⟨4, ![32, 1024, 1024, 3]⟩

abbrev nBuf : Space → Nat
  | .hbm => 26
  | .vmem => 8
  | .smem => 0
  | _ => 0

abbrev bufTy : (tb : Table) → Fin (tcTables nBuf tb) → BufTy
  | .hbm, ⟨0, _⟩ => ⟨S32x1024x3, .f32⟩
  | .hbm, ⟨1, _⟩ => ⟨S32x3x3, .f32⟩
  | .hbm, ⟨2, _⟩ => ⟨S32x3x1024, .f32⟩
  | .hbm, ⟨3, _⟩ => ⟨S3, .i32⟩
  | .hbm, ⟨4, _⟩ => ⟨S3, .i32⟩
  | .hbm, ⟨5, _⟩ => ⟨S_, .i32⟩
  | .hbm, ⟨6, _⟩ => ⟨S3, .i32⟩
  | .hbm, ⟨7, _⟩ => ⟨S3, .i1⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S3x1, .i32⟩
  | .hbm, ⟨21, _⟩ => ⟨S3x2, .i32⟩
  | .hbm, ⟨22, _⟩ => ⟨S32x3, .f32⟩
  | .hbm, ⟨23, _⟩ => ⟨S32x3x1x1, .f32⟩
  | .hbm, ⟨24, _⟩ => ⟨S32x3x1024x1024, .f32⟩
  | .hbm, ⟨25, _⟩ => ⟨S32x1024x1024x3, .f32⟩
  | .local _ .vmem, ⟨0, _⟩ => ⟨S1x3x256, .f32⟩
  | .local _ .vmem, ⟨1, _⟩ => ⟨S1x3x256, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1x1, .f32⟩
  | .local _ .vmem, ⟨5, _⟩ => ⟨S1x3x1x1, .f32⟩
  | .local _ .vmem, ⟨6, _⟩ => ⟨S1x3x256x1024, .f32⟩
  | .local _ .vmem, ⟨7, _⟩ => ⟨S1x3x256x1024, .f32⟩
  | _, _ => ⟨S32x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S32x1024x3_S32x3x1024_0_2_1 : S32x1024x3.Transposes [0, 2, 1] S32x3x1024
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  bcast_S32x3_S32x3x1x1_0_1 : S32x3.BroadcastsInDim S32x3x1x1 (![0, 1] : Fin 2 → Fin S32x3x1x1.rank)
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  inb_S1x3x1x1_S1x3x1x1_0_0_0_0 : ∀ a, (![0, 0, 0, 0] : Fin 4 → Nat) a + S1x3x1x1.size a ≤ S1x3x1x1.size a
  h_S1x3x1x1 : 0 < S1x3x1x1.numel
  shapeCasts_S1x3x1x1_S3x1x1 : S1x3x1x1.ShapeCasts S3x1x1
  shapeCasts_S3x256_S3x256x1 : S3x256.ShapeCasts S3x256x1
  shapeCasts_S3x1024_S3x1x1024 : S3x1024.ShapeCasts S3x1x1024
  broadcasts_S3x256x1_S3x256x1024 : S3x256x1.Broadcasts S3x256x1024
  broadcasts_S3x1x1024_S3x256x1024 : S3x1x1024.Broadcasts S3x256x1024
  broadcasts_S3x1x1_S3x256x1024 : S3x1x1.Broadcasts S3x256x1024
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  shapeCasts_S1x3x256x1024_S3x256x1024 : S1x3x256x1024.ShapeCasts S3x256x1024
  shapeCasts_S3x256x1024_S1x3x256x1024 : S3x256x1024.ShapeCasts S1x3x256x1024
  transposes_S32x3x1024x1024_S32x1024x1024x3_0_2_3_1 : S32x3x1024x1024.Transposes [0, 2, 3, 1] S32x1024x1024x3
  gather_S32x3x3_S3x2_S32x3_0_12_n_n_12_1_3211_wf : GatherDims.WF S32x3x3 S3x2 S32x3 [0] [1, 2] [] [1, 2] [] 1 ![32, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S32x3x1024.size a
  hwx0_0 : ∀ i : grid0.Coords, EltTy.bits .f32 = 32 ∨ (Rect.block (s := S32x3x1024) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S32x3x1024.size a
  hwx0_1 : ∀ i : grid0.Coords, EltTy.bits .f32 = 32 ∨ (Rect.block (s := S32x3x1024) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1x1.size a ≤ S32x3x1x1.size a
  hwx0_2 : ∀ i : grid0.Coords, EltTy.bits .f32 = 32 ∨ (Rect.block (s := S32x3x1x1) S1x3x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x256x1024.size a ≤ S32x3x1024x1024.size a
  hwx0_3 : ∀ i : grid0.Coords, EltTy.bits .f32 = 32 ∨ (Rect.block (s := S32x3x1024x1024) S1x3x256x1024.size (cc0_transform_3 i) (hinb0_3 i)).WholeWords (EltTy.packing .f32)

variable [Facts₀]

def gather_S32x3x3_S3x2_S32x3_0_12_n_n_12_1_3211 : GatherDims S32x3x3 S3x2 S32x3 where
  offsetDims := [0]
  collapsedSliceDims := [1, 2]
  operandBatchingDims := []
  startIndicesBatchingDims := []
  startIndexMap := [1, 2]
  indexVectorDim := 1
  sliceSizes := ![32, 1, 1]
  wf := gather_S32x3x3_S3x2_S32x3_0_12_n_n_12_1_3211_wf

abbrev win0_0 : Pipeline.Window sig grid0 :=
  Pipeline.Window.ofSpec (Memref.whole main_v0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x3x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x3 : Shape := ⟨3, ![32, 1024, 3]⟩
abbrev S32x3x3 : Shape := ⟨3, ![32, 3, 3]⟩
abbrev S_ : Shape := ⟨0, ![]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S32x523776x3 : Shape := ⟨3, ![32, 523776, 3]⟩
abbrev S3 : Shape := ⟨1, ![3]⟩
abbrev S3x1 : Shape := ⟨2, ![3, 1]⟩
abbrev S3x2 : Shape := ⟨2, ![3, 2]⟩
abbrev S32x3 : Shape := ⟨2, ![32, 3]⟩
abbrev S32x1x3 : Shape := ⟨3, ![32, 1, 3]⟩
abbrev S32x1024x1024x3 : Shape := ⟨4, ![32, 1024, 1024, 3]⟩
abbrev S523776x2 : Shape := ⟨2, ![523776, 2]⟩

abbrev nBuf : Space → Nat
  | .hbm => 187
  | .vmem => 0
  | .smem => 0
  | _ => 0

abbrev hbmTy0_0 (i : Nat) : BufTy := match i % 128 with
  | 0 => ⟨S32x1024x3, .f32⟩
  | 1 => ⟨S32x3x3, .f32⟩
  | 2 => ⟨S_, .f32⟩
  | 3 => ⟨S1024x1024, .f32⟩
  | 4 => ⟨S1024x1024, .i32⟩
  | 5 => ⟨S_, .i32⟩
  | 6 => ⟨S1024x1024, .i32⟩
  | 7 => ⟨S1024x1024, .i32⟩
  | 8 => ⟨S1024x1024, .i32⟩
  | 9 => ⟨S1024x1024, .i1⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .i1⟩
  | 16 => ⟨S1048576, .i1⟩
  | 17 => ⟨S1048576, .i32⟩
  | 18 => ⟨S_, .i32⟩
  | 19 => ⟨S_, .i32⟩
  | 20 => ⟨S1048576, .i32⟩
  | 21 => ⟨S_, .i32⟩
  | 22 => ⟨S523776, .i32⟩
  | 23 => ⟨S_, .i32⟩
  | 24 => ⟨S_, .i32⟩
  | 25 => ⟨S1048576, .i32⟩
  | 26 => ⟨S1048576, .i32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S_, .i32⟩
  | 36 => ⟨S1048576, .i32⟩
  | 37 => ⟨S523776, .i32⟩
  | 38 => ⟨S_, .i32⟩
  | 39 => ⟨S_, .i32⟩
  | 40 => ⟨S523776, .i32⟩
  | 41 => ⟨S_, .i32⟩
  | 42 => ⟨S523776, .i32⟩
  | 43 => ⟨S523776, .i32⟩
  | 44 => ⟨S523776, .i32⟩
  | 45 => ⟨S_, .i32⟩
  | 46 => ⟨S523776, .i32⟩
  | 47 => ⟨S523776, .i1⟩
  | 48 => ⟨S523776, .i32⟩
  | 49 => ⟨S523776, .i32⟩
  | 50 => ⟨S_, .i32⟩
  | 51 => ⟨S523776, .i32⟩
  | 52 => ⟨S523776, .i1⟩
  | 53 => ⟨S523776, .i1⟩
  | 54 => ⟨S_, .i32⟩
  | 55 => ⟨S523776, .i32⟩
  | 56 => ⟨S523776, .i32⟩
  | 57 => ⟨S523776, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S523776, .i32⟩
  | 65 => ⟨S523776, .i32⟩
  | 66 => ⟨S_, .i32⟩
  | 67 => ⟨S523776, .i32⟩
  | 68 => ⟨S523776, .i1⟩
  | 69 => ⟨S_, .i32⟩
  | 70 => ⟨S523776, .i32⟩
  | 71 => ⟨S523776, .i1⟩
  | 72 => ⟨S_, .i32⟩
  | 73 => ⟨S_, .i1⟩
  | 74 => ⟨S523776, .i1⟩
  | 75 => ⟨S523776, .i1⟩
  | 76 => ⟨S523776, .i1⟩
  | 77 => ⟨S523776, .i32⟩
  | 78 => ⟨S523776, .i32⟩
  | 79 => ⟨S523776, .i32⟩
  | 80 => ⟨S_, .i32⟩
  | 81 => ⟨S523776, .i32⟩
  | 82 => ⟨S523776, .i32⟩
  | 83 => ⟨S523776, .i32⟩
  | 84 => ⟨S_, .i32⟩
  | 85 => ⟨S523776, .i32⟩
  | 86 => ⟨S523776, .i1⟩
  | 87 => ⟨S523776, .i32⟩
  | 88 => ⟨S523776, .i32⟩
  | 89 => ⟨S_, .i32⟩
  | 90 => ⟨S523776, .i32⟩
  | 91 => ⟨S523776, .i1⟩
  | 92 => ⟨S523776, .i1⟩
  | 93 => ⟨S_, .i32⟩
  | 94 => ⟨S523776, .i32⟩
  | 95 => ⟨S523776, .i32⟩
  | 96 => ⟨S523776, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S523776, .i32⟩
  | 104 => ⟨S523776, .i32⟩
  | 105 => ⟨S_, .i32⟩
  | 106 => ⟨S523776, .i32⟩
  | 107 => ⟨S523776, .i1⟩
  | 108 => ⟨S_, .i32⟩
  | 109 => ⟨S523776, .i32⟩
  | 110 => ⟨S523776, .i1⟩
  | 111 => ⟨S_, .i32⟩
  | 112 => ⟨S_, .i1⟩
  | 113 => ⟨S523776, .i1⟩
  | 114 => ⟨S523776, .i1⟩
  | 115 => ⟨S523776, .i1⟩
  | 116 => ⟨S523776, .i32⟩
  | 117 => ⟨S523776, .i32⟩
  | 118 => ⟨S523776, .i32⟩
  | 119 => ⟨S_, .i32⟩
  | 120 => ⟨S523776, .i32⟩
  | 121 => ⟨S523776, .i1⟩
  | 122 => ⟨S_, .i32⟩
  | 123 => ⟨S523776, .i32⟩
  | 124 => ⟨S523776, .i32⟩
  | 125 => ⟨S523776, .i32⟩
  | 126 => ⟨S523776x1, .i32⟩
  | 127 => ⟨S32x523776x3, .f32⟩
  | _ => ⟨S32x1024x3, .f32⟩

abbrev hbmTy0_1 (i : Nat) : BufTy := match i % 128 with
  | 0 => ⟨S_, .i32⟩
  | 1 => ⟨S523776, .i32⟩
  | 2 => ⟨S523776, .i1⟩
  | 3 => ⟨S_, .i32⟩
  | 4 => ⟨S523776, .i32⟩
  | 5 => ⟨S523776, .i32⟩
  | 6 => ⟨S523776, .i32⟩
  | 7 => ⟨S523776x1, .i32⟩
  | 8 => ⟨S32x523776x3, .f32⟩
  | 9 => ⟨S32x523776x3, .f32⟩
  | 10 => ⟨S3, .i32⟩
  | 11 => ⟨S3, .i32⟩
  | 12 => ⟨S_, .i32⟩
  | 13 => ⟨S3, .i32⟩
  | 14 => ⟨S3, .i1⟩
  | 15 => ⟨S_, .i32⟩
  | 16 => ⟨S3, .i32⟩
  | 17 => ⟨S3, .i32⟩
  | 18 => ⟨S3, .i32⟩
  | 19 => ⟨S_, .i32⟩
  | 20 => ⟨S3, .i32⟩
  | 21 => ⟨S3, .i1⟩
  | 22 => ⟨S_, .i32⟩
  | 23 => ⟨S3, .i32⟩
  | 24 => ⟨S3, .i32⟩
  | 25 => ⟨S3, .i32⟩
  | 26 => ⟨S3x1, .i32⟩
  | 27 => ⟨S3x1, .i32⟩
  | 28 => ⟨S3x2, .i32⟩
  | 29 => ⟨S32x3, .f32⟩
  | 30 => ⟨S32x1x3, .f32⟩
  | 31 => ⟨S32x523776x3, .f32⟩
  | 32 => ⟨S32x523776x3, .f32⟩
  | 33 => ⟨S32x523776x3, .f32⟩
  | 34 => ⟨S32x523776x3, .f32⟩
  | 35 => ⟨S32x523776x3, .f32⟩
  | 36 => ⟨S32x523776x3, .f32⟩
  | 37 => ⟨S_, .f32⟩
  | 38 => ⟨S32x1024x1024x3, .f32⟩
  | 39 => ⟨S_, .i32⟩
  | 40 => ⟨S523776, .i32⟩
  | 41 => ⟨S523776, .i1⟩
  | 42 => ⟨S_, .i32⟩
  | 43 => ⟨S523776, .i32⟩
  | 44 => ⟨S523776, .i32⟩
  | 45 => ⟨S523776, .i32⟩
  | 46 => ⟨S_, .i32⟩
  | 47 => ⟨S523776, .i32⟩
  | 48 => ⟨S523776, .i1⟩
  | 49 => ⟨S_, .i32⟩
  | 50 => ⟨S523776, .i32⟩
  | 51 => ⟨S523776, .i32⟩
  | 52 => ⟨S523776, .i32⟩
  | 53 => ⟨S523776x1, .i32⟩
  | 54 => ⟨S523776x1, .i32⟩
  | 55 => ⟨S523776x2, .i32⟩
  | 56 => ⟨S32x1024x1024x3, .f32⟩
  | 57 => ⟨S32x1024x1024x3, .f32⟩
  | 58 => ⟨S32x1024x1024x3, .f32⟩
  | _ => ⟨S32x1024x3, .f32⟩

abbrev hbmTy (i : Nat) : BufTy := match i / 128 with
  | 0 => hbmTy0_0 i
  | 1 => hbmTy0_1 i
  | _ => ⟨S32x1024x3, .f32⟩

abbrev bufTy : (tb : Table) → Fin (tcTables nBuf tb) → BufTy
  | .hbm, ⟨i, _⟩ => hbmTy i
  | _, _ => ⟨S32x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_4 : Ref sig .tc := ⟨.hbm, 35, rfl⟩
abbrev main_v13 : Ref sig .tc := ⟨.hbm, 36, rfl⟩
abbrev main_v14 : Ref sig .tc := ⟨.hbm, 37, rfl⟩
abbrev main_call3_call0_c : Ref sig .tc := ⟨.hbm, 38, rfl⟩
abbrev main_call3_call0_v0 : Ref sig .tc := ⟨.hbm, 39, rfl⟩
abbrev main_v15 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v16 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v17 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v18 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v19 : Ref sig .tc := ⟨.hbm, 118, rfl⟩
abbrev main_c_9 : Ref sig .tc := ⟨.hbm, 119, rfl⟩
abbrev main_v20 : Ref sig .tc := ⟨.hbm, 120, rfl⟩
abbrev main_v21 : Ref sig .tc := ⟨.hbm, 121, rfl⟩
abbrev main_c_10 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_c_11 : Ref sig .tc := ⟨.hbm, 128, rfl⟩
abbrev main_v27 : Ref sig .tc := ⟨.hbm, 129, rfl⟩
abbrev main_v28 : Ref sig .tc := ⟨.hbm, 130, rfl⟩
abbrev main_c_12 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_call8_v0 : Ref sig .tc := ⟨.hbm, 138, rfl⟩
abbrev main_call8_v1 : Ref sig .tc := ⟨.hbm, 139, rfl⟩
abbrev main_call8_c : Ref sig .tc := ⟨.hbm, 140, rfl⟩
abbrev main_call8_v2 : Ref sig .tc := ⟨.hbm, 141, rfl⟩
abbrev main_call8_v3 : Ref sig .tc := ⟨.hbm, 142, rfl⟩
abbrev main_call8_c_0 : Ref sig .tc := ⟨.hbm, 143, rfl⟩
abbrev main_call8_v4 : Ref sig .tc := ⟨.hbm, 144, rfl⟩
abbrev main_call8_v5 : Ref sig .tc := ⟨.hbm, 145, rfl⟩
abbrev main_call8_v6 : Ref sig .tc := ⟨.hbm, 146, rfl⟩
abbrev main_call8_c_1 : Ref sig .tc := ⟨.hbm, 147, rfl⟩
abbrev main_call8_v7 : Ref sig .tc := ⟨.hbm, 148, rfl⟩
abbrev main_call8_v8 : Ref sig .tc := ⟨.hbm, 149, rfl⟩
abbrev main_call8_c_2 : Ref sig .tc := ⟨.hbm, 150, rfl⟩
abbrev main_call8_v9 : Ref sig .tc := ⟨.hbm, 151, rfl⟩
abbrev main_call8_v10 : Ref sig .tc := ⟨.hbm, 152, rfl⟩
abbrev main_call8_v11 : Ref sig .tc := ⟨.hbm, 153, rfl⟩
abbrev main_call8_v12 : Ref sig .tc := ⟨.hbm, 154, rfl⟩
abbrev main_call8_v13 : Ref sig .tc := ⟨.hbm, 155, rfl⟩
abbrev main_call8_v14 : Ref sig .tc := ⟨.hbm, 156, rfl⟩
abbrev main_v35 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_cst_13 : Ref sig .tc := ⟨.hbm, 165, rfl⟩
abbrev main_v43 : Ref sig .tc := ⟨.hbm, 166, rfl⟩
abbrev main_c_14 : Ref sig .tc := ⟨.hbm, 167, rfl⟩
abbrev main_v44 : Ref sig .tc := ⟨.hbm, 168, rfl⟩
abbrev main_v45 : Ref sig .tc := ⟨.hbm, 169, rfl⟩
abbrev main_c_15 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_c_16 : Ref sig .tc := ⟨.hbm, 174, rfl⟩
abbrev main_v49 : Ref sig .tc := ⟨.hbm, 175, rfl⟩
abbrev main_v50 : Ref sig .tc := ⟨.hbm, 176, rfl⟩
abbrev main_c_17 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  bcast_S32x3_S32x1x3_0_2 : S32x3.BroadcastsInDim S32x1x3 (![0, 2] : Fin 2 → Fin S32x1x3.rank)
  bcast_S32x1x3_S32x523776x3_0_1_2 : S32x1x3.BroadcastsInDim S32x523776x3 (![0, 1, 2] : Fin 3 → Fin S32x523776x3.rank)
  bcast_S_S32x1024x1024x3 : S_.BroadcastsInDim S32x1024x1024x3 (![] : Fin 0 → Fin S32x1024x1024x3.rank)
  concatenates_S523776x1_S523776x1_S523776x2_d1 : Shape.Concatenates [S523776x1, S523776x1] S523776x2 1
  transposes_S32x1024x1024x3_S32x1024x1024x3_0_2_1_3 : S32x1024x1024x3.Transposes [0, 2, 1, 3] S32x1024x1024x3
  scatter_S523776_S1048576x1_S1048576_n_0_0_1_wf : ScatterDims.WF S523776 S1048576x1 S1048576 [] [0] [0] 1
  gather_S32x1024x3_S523776x1_S32x523776x3_02_1_n_n_1_1_3213_wf : GatherDims.WF S32x1024x3 S523776x1 S32x523776x3 [0, 2] [1] [] [1] [] 1 ![32, 1, 3]
  gather_S32x3x3_S3x2_S32x3_0_12_n_n_12_1_3211_wf : GatherDims.WF S32x3x3 S3x2 S32x3 [0] [1, 2] [] [1, 2] [] 1 ![32, 1, 1]
  scatter_S32x1024x1024x3_S523776x2_S32x523776x3_02_12_12_1_wf : ScatterDims.WF S32x1024x1024x3 S523776x2 S32x523776x3 [0, 2] [1, 2] [1, 2] 1

variable [Facts₀]

def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S32x1024x3_S523776x1_S32x523776x3_02_1_n_n_1_1_3213 : GatherDims S32x1024x3 S523776x1 S32x523776x3 where
  offsetDims := [0, 2]
  collapsedSliceDims := [1]
  operandBatchingDims := []
  startIndicesBatchingDims := []
  startIndexMap := [1]
  indexVectorDim := 1
  sliceSizes := ![32, 1, 3]
  wf := gather_S32x1024x3_S523776x1_S32x523776x3_02_1_n_n_1_1_3213_wf
def gather_S32x3x3_S3x2_S32x3_0_12_n_n_12_1_3211 : GatherDims S32x3x3 S3x2 S32x3 where
  offsetDims := [0]
  collapsedSliceDims := [1, 2]
  operandBatchingDims := []
  startIndicesBatchingDims := []
  startIndexMap := [1, 2]
  indexVectorDim := 1
  sliceSizes := ![32, 1, 1]
  wf := gather_S32x3x3_S3x2_S32x3_0_12_n_n_12_1_3211_wf
def scatter_S32x1024x1024x3_S523776x2_S32x523776x3_02_12_12_1 : ScatterDims S32x1024x1024x3 S523776x2 S32x523776x3 where
  updateWindowDims := [0, 2]
  insertedWindowDims := [1, 2]
  scatterDimsToOperandDims := [1, 2]
  indexVectorDim := 1
  wf := scatter_S32x1024x1024x3_S523776x2_S32x523776x3_02_12_12_1_wf

class Facts : Prop extends Facts₀ where

variable [Facts]
-- ==== Proof.KBody.lean ====
/-
  The kernel body of the one pipeline: the arrays as the region finds them (the three host stretches have run), each
  window's block at a point, what the body leaves in the output window's buffer, the pipeline's proof data — windows 0
  and 1 stage blocks of ONE array and hold its two half shares —, the body's triple and the body obligation.
-/
import proofs.«180452_j36309653520599_1_alg».proof.Proof.Gen.KernelIdeal.Launch
import proofs.«180452_j36309653520599_1_alg».proof.Proof.Gen.KernelIdeal.Skeleton
import proofs.«180452_j36309653520599_1_alg».proof.Proof.Gen.KernelIdeal.Points
import Idealize.ShloMosaic.Lib.Pipeline.FrameBody
import Idealize.ShloMosaic.Lib.Ring
import Idealize.ShloMosaic.Lib.Tactic
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as the host operations' valuation; -/
abbrev V₀ (c : Dev nD) : Valuation τ sig (Elt F) := fun b => m ((c : Dev nD), b)
/-- after the three host stretches before the region (the transpose, the diagonal's gather, the broadcast); -/
abbrev Vpre (c : Dev nD) : Valuation τ sig (Elt F) :=
  StableHlo.after hostOps0_2 (StableHlo.after hostOps0_1 (StableHlo.after hostOps0 (V₀ m c)))
/-- and read at a TensorCore reference: what the region finds. -/
abbrev V (c : Dev nD) (b : Ref sig .tc) : Buf (Elt F) ((c : Thread nD τ).loc b) := Vpre m c b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each staging buffer whole -/

abbrev r0_0 : Rect S1x3x256 := Rect.unit (s := S1x3x256) ![0, 0, 0] S1x3x256.size inb_S1x3x256_S1x3x256_0_0_0
abbrev r0_1 : Rect S1x3x1024 := Rect.unit (s := S1x3x1024) ![0, 0, 0] S1x3x1024.size inb_S1x3x1024_S1x3x1024_0_0_0
abbrev r0_2 : Rect S1x3x1x1 := Rect.unit (s := S1x3x1x1) ![0, 0, 0, 0] S1x3x1x1.size inb_S1x3x1x1_S1x3x1x1_0_0_0_0
abbrev r0_3 : Rect S1x3x256x1024 := Rect.unit (s := S1x3x256x1024) ![0, 0, 0, 0] S1x3x256x1024.size inb_S1x3x256x1024_S1x3x256x1024_0_0_0_0

/-! ## What the body leaves in the output window's buffer -/

/-- Window 3's staging buffer after the body, from the input windows' blocks: its one store as a piece. -/
def out0_3 (x0 : Vec F S1x3x256 .f32) (x1 : Vec F S1x3x1024 .f32) (x2 : Vec F S1x3x1x1 .f32) : Vec F S1x3x256x1024 .f32 :=
  View.canon [⟨r0_3, k0_pay1 (View.ld x0 r0_0) (View.ld x1 r0_1) (View.ld x2 r0_2)⟩]

/-- The store is of the whole buffer, so it covers it. -/
theorem cover0_3 (p0 : Vec F S1x3x256x1024 .f32) (y : S1x3x256x1024.Idx) :
    ∃ pc ∈ ([⟨r0_3, p0⟩] : List (View.Piece (Elt F) S1x3x256x1024 .f32)), y ∈ pc.1.set :=
  View.cover_of_tiled [⟨r0_3, p0⟩] S1x3x256x1024.size (by rfl) y

/-! ## The pipeline's proof data -/

/-- The proof data of the one pipeline on core `c`: the arrays as the region finds them (`V`); after the body at
    point `t` each input's buffer at its block and the output's at `out0_3` of the input blocks; the invariant the
    scoped rest (none); nothing owed; windows 0 and 1, staging one array, at its two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

/-- The proof data's arrays are the region-entry contents: the definition projected, `V` (a fold over the host
    stretches) never unfolded. -/
theorem A_eq (c : Dev nD) (w : Fin cfg0.W) : (dats m 0 c).A w = V m c (Pipeline.arrRef spec0 w) := by
  dsimp only [dats]

/-- What the body leaves, window by window: the proof data's `match`, arm by arm. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's current staging buffer holds its block at every point, fetched there or not: unfetched (windows 1
    and 2 away from the points ≡ 0 mod 4), the block index has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the inputs' at read contents `x0 x1 x2` and the output's at anything
    (the body loads it and drops the value), runs to the continuation holding the inputs' as they were and the
    output's at `out0_3` of the inputs'. -/
theorem sound_kernel (c : Dev nD) (E : Set ℕ) (i : grid0.Coords)
    (arg2 : Memref sig .tc .vmem S1x3x256 .f32) (harg2 : arg2.IsWhole)
    (arg3 : Memref sig .tc .vmem S1x3x1024 .f32) (harg3 : arg3.IsWhole)
    (arg4 : Memref sig .tc .vmem S1x3x1x1 .f32) (harg4 : arg4.IsWhole)
    (arg5 : Memref sig .tc .vmem S1x3x256x1024 .f32) (harg5 : arg5.IsWhole)
    (x0 : Vec F S1x3x256 .f32) (x1 : Vec F S1x3x1024 .f32) (x2 : Vec F S1x3x1x1 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (out0_3 x0 x1 x2)) -∗ K ⟨⟩))
      ⊢ wp frame (wpE (defs₀ (F := F)) Variants.none c none) E
          (cc0__rij_kernel i arg2 harg2 arg3 harg3 arg4 harg4 arg5 harg5) K := by
  simp only [cc0__rij_kernel_eq_skeleton]; unfold cc0__rij_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t` (the body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The run of @main: three host stretches (the transpose of the positions, the diagonal of the cell, its broadcast), the
  one kernel region, one host stretch after it (the transpose of the result). The region's four windows stand on three
  arrays — windows 0 and 1 both read `main_v0` —, so at the region's entry that array's points-to is cut into its two
  half shares, one per window, and at the exit the halves, both still at the contents found (an input array is never
  written back), are joined again. Every buffer that is no window's array passes beside the region unopened. The end
  state is read off the unscoped buffers held after the last stretch.
-/
import proofs.«180452_j36309653520599_1_alg».proof.Proof.KBody
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging cells' rounds algebra is all of the user component. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The unscoped buffers as one held set -/

/-- The device buffers behind the TensorCore references that are not scoped. -/
def ucRefs : Finset (DevRef τ sig) :=
  (Finset.univ.filter fun b : Ref sig .tc => ¬ b.isScoped).map ⟨Proc.devRef (sig := sig) (.tc : Proc τ), Proc.devRef_injective _⟩

omit [FloatOps F] in
/-- Membership, from the reference. -/
theorem mem_ucRefs (b : Ref sig .tc) (h : b.isScoped = false) : (Proc.devRef .tc b : DevRef τ sig) ∈ ucRefs :=
  Finset.mem_map_of_mem _ (Finset.mem_filter.mpr ⟨Finset.mem_univ b, fun h' => Bool.false_ne_true (h.symm.trans h')⟩)

omit [FloatOps F] in
/-- Holding that set at a valuation is holding the core's unscoped buffers at it. -/
theorem unscopedBufs_held (c : Dev nD) (W : Valuation τ sig (Elt F)) :
    (unscopedBufs c (fun b => W b) : sProp 𝕄) = StableHlo.held (c.tc : Thread nD τ) ucRefs W := by
  unfold unscopedBufs StableHlo.held ucRefs
  rw [bigSep_map]
  rfl

omit [FloatOps F] in
/-- A host operation names TensorCore references, none of them scoped: its buffers lie in the set. -/
theorem sub_ucRefs (op : HloOp τ sig (Elt F)) (h : op.bufs ⊆ StableHlo.tcRefs τ sig) : op.bufs ⊆ ucRefs := fun b hb => by
  obtain ⟨r, -, rfl⟩ := Finset.mem_map.mp (h hb)
  exact mem_ucRefs r (op.no_scoped _ hb)

/-! ## The valuations between the segments -/

/-- The buffers once the positions are transposed, -/
abbrev V1 (c : Dev nD) : Valuation τ sig (Elt F) := StableHlo.after hostOps0 (V₀ m c)
/-- and once the cell's diagonal is gathered (`Vpre` is one broadcast further). -/
abbrev V2 (c : Dev nD) : Valuation τ sig (Elt F) := StableHlo.after hostOps0_1 (V1 m c)

/-- The buffers when the region is left: `main_v3` holds what the pipeline wrote back, point after point; no other
    unscoped buffer has changed since the region was entered. -/
def Vout (c : Dev nD) : Valuation τ sig (Elt F) := fun b =>
  if h : b = Proc.devRef .tc main_v3 then h ▸ (dats m 0 c).arrAt 3 cfg0.N else Vpre m c b

theorem Vout_v3 (c : Dev nD) : Vout m c (Proc.devRef .tc main_v3) = (dats m 0 c).arrAt 3 cfg0.N := by
  unfold Vout; rw [dif_pos rfl]

theorem Vout_of_ne (c : Dev nD) {b : DevRef τ sig} (hb : b ≠ Proc.devRef .tc main_v3) : Vout m c b = Vpre m c b := by
  unfold Vout; rw [dif_neg hb]

/-- The result array at the end: the output array's final contents, transposed to [b, i, j, c]. -/
theorem result_eq (c : Dev nD) :
    StableHlo.after hostOps1 (Vout m c) (Proc.devRef .tc main_v4)
      = transpose S32x1024x1024x3 [0, 2, 3, 1] ((dats m 0 c).arrAt 3 cfg0.N) transposes_S32x3x1024x1024_S32x1024x1024x3_0_2_3_1 := by
  after_results
  rw [Vout_v3]

/-- The first argument is no operation's result and no window's array: it ends as launched. -/
theorem final_arg0 (c : Dev nD) :
    StableHlo.after hostOps1 (Vout m c) (Proc.devRef .tc main_arg0) = m ((c.tc : Thread nD τ).loc main_arg0) := by
  after_results
  rw [Vout_of_ne m c (StableHlo.devRef_ne_of_ne (show main_arg0 ≠ main_v3 by decide))]
  after_results

/-- The same of the second. -/
theorem final_arg1 (c : Dev nD) :
    StableHlo.after hostOps1 (Vout m c) (Proc.devRef .tc main_arg1) = m ((c.tc : Thread nD τ).loc main_arg1) := by
  after_results
  rw [Vout_of_ne m c (StableHlo.devRef_ne_of_ne (show main_arg1 ≠ main_v3 by decide))]
  after_results

/-! ## One array under two windows -/

omit [FloatOps F] in
/-- The four windows stand on three buffers: `main_v0` (windows 0 and 1), `main_v2`, `main_v3`. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v2) ↦{fullShare} W main_v2)
          ∗ (((c.tc : Thread nD τ).loc main_v3) ↦{fullShare} W main_v3)) := by
  unfold Pipeline.arrBufs
  exact bigSep_eq_bigSepL_of_eq [main_v0, main_v2, main_v3] (by decide) (by decide) _

/-- The pipeline's arrays at contents `G`, window by window: every array a whole buffer; `main_v0` twice, at the left
    half share for window 0 and the right for window 1; the other two at the full share. -/
theorem arrays_eq4 (c : Dev nD) (G : (w : Fin cfg0.W) → Buf (Elt F) ((cfg0.win w).arr.view.loc (c.tc : Thread nD τ))) :
    ((dats m 0 c).arrays G : sProp 𝕄)
      = iprop((((c.tc : Thread nD τ).loc main_v0) ↦{fullShare.left} G 0) ∗ (((c.tc : Thread nD τ).loc main_v0) ↦{fullShare.right} G 1)
          ∗ (((c.tc : Thread nD τ).loc main_v2) ↦{fullShare} G 2) ∗ (((c.tc : Thread nD τ).loc main_v3) ↦{fullShare} G 3)) := by
  unfold Dat.arrays
  rw [show (bigSep Finset.univ fun w : Fin cfg0.W => ((cfg0.win w).arr.view.loc (c.tc : Thread nD τ) ↦[(cfg0.win w).arr.view.set]{(dats m 0 c).share w} G w : sProp 𝕄))
      = bigSep Finset.univ fun w : Fin 4 => (((c.tc : Thread nD τ).loc (Pipeline.arrRef spec0 w)) ↦{(dats m 0 c).share w} G w : sProp 𝕄) from
        bigSep_congr fun w _ => by rw [(arr_whole0 w).set_eq_univ]]
  rw [bigSep_W0]
  rfl

/-- An input window's array holds at every point what the region found in it. -/
theorem arrAt_in0 (c : Dev nD) (n : Nat) : (dats m 0 c).arrAt 0 n = V m c main_v0 :=
  ((dats m 0 c).arrAt_in 0 rfl n).trans (A_eq m c 0)
theorem arrAt_in1 (c : Dev nD) (n : Nat) : (dats m 0 c).arrAt 1 n = V m c main_v0 :=
  ((dats m 0 c).arrAt_in 1 rfl n).trans (A_eq m c 1)
theorem arrAt_in2 (c : Dev nD) (n : Nat) : (dats m 0 c).arrAt 2 n = V m c main_v2 :=
  ((dats m 0 c).arrAt_in 2 rfl n).trans (A_eq m c 2)
/-- The output window's, before any write-back. -/
theorem arrAt_out0 (c : Dev nD) : (dats m 0 c).arrAt 3 0 = V m c main_v3 := A_eq m c 3

/-- INTO the region: the unscoped buffers as the third stretch left them give the pipeline's arrays at their entry
    contents — `main_v0`'s full share cut in two, a half for each window on it — beside the buffers no window stands on. -/
theorem entry_arrays (c : Dev nD) :
    (StableHlo.held (c.tc : Thread nD τ) ucRefs (Vpre m c) : sProp 𝕄)
      ⊢ iprop((dats m 0 c).arrays ((dats m 0 c).arrAt · 0) ∗ Pipeline.unscopedRest spec0 c (V m c)) := by
  rw [← unscopedBufs_held c (Vpre m c),
    show (unscopedBufs c (fun b => Vpre m c b) : sProp 𝕄) = iprop(Pipeline.arrBufs spec0 c (V m c) ∗ Pipeline.unscopedRest spec0 c (V m c))
      from Pipeline.unscopedBufs_split₀ cfgs 0 winFacts₀0.arr_unscoped c (V m c),
    arrBufs_eq, arrays_eq4, arrAt_in0, arrAt_in1, arrAt_in2, arrAt_out0]
  iintro ⟨⟨H0, H2, H3⟩, Hr⟩
  ihave Hh := (pointsTo_share (PosShare.mem_left_op_right fullShare)).1 $$ H0
  icases Hh with ⟨Hl, Hrt⟩
  isplitr [Hr]
  · isplitl [Hl]; · iexact Hl
    isplitl [Hrt]; · iexact Hrt
    isplitl [H2]; · iexact H2
    iexact H3
  iexact Hr

/-- Off the windows' arrays `Vout` is `Vpre`: the buffers no window stands on are held at the one as at the other. -/
theorem unscopedRest_Vout (c : Dev nD) :
    (Pipeline.unscopedRest spec0 c (fun b => Vout m c b) : sProp 𝕄) = Pipeline.unscopedRest spec0 c (V m c) := by
  unfold Pipeline.unscopedRest
  refine bigSep_congr fun b hb => ?_
  have hne : b ≠ main_v3 := fun h => (Finset.mem_sdiff.mp hb).2 (Finset.mem_image.mpr ⟨3, Finset.mem_univ _, h.symm⟩)
  show ((((c.tc : Thread nD τ).loc b) ↦{fullShare} Vout m c (Proc.devRef .tc b)) : sProp 𝕄) = _
  rw [Vout_of_ne m c (StableHlo.devRef_ne_of_ne hne)]

/-- OUT of the region: the arrays at their final contents — the two halves of `main_v0`, each still at what was found,
    joined into its full share; `main_v3` at what was written back — and the buffers that passed beside the region are
    the unscoped buffers at `Vout`. -/
theorem exit_arrays (c : Dev nD) :
    iprop((dats m 0 c).arrays ((dats m 0 c).arrAt · cfg0.N) ∗ Pipeline.unscopedRest spec0 c (V m c))
      ⊢ (StableHlo.held (c.tc : Thread nD τ) ucRefs (Vout m c) : sProp 𝕄) := by
  rw [← unscopedBufs_held c (Vout m c),
    show (unscopedBufs c (fun b => Vout m c b) : sProp 𝕄)
        = iprop(Pipeline.arrBufs spec0 c (fun b => Vout m c b) ∗ Pipeline.unscopedRest spec0 c (fun b => Vout m c b))
      from Pipeline.unscopedBufs_split₀ cfgs 0 winFacts₀0.arr_unscoped c (fun b => Vout m c b),
    unscopedRest_Vout, arrBufs_eq, arrays_eq4, arrAt_in0, arrAt_in1, arrAt_in2,
    Vout_v3, Vout_of_ne m c (StableHlo.devRef_ne_of_ne (show main_v0 ≠ main_v3 by decide)),
    Vout_of_ne m c (StableHlo.devRef_ne_of_ne (show main_v2 ≠ main_v3 by decide))]
  iintro ⟨⟨Hl, Hrt, H2, H3⟩, Hr⟩
  ihave H0 := (pointsTo_share (PosShare.mem_left_op_right fullShare)).2 $$ [Hl Hrt]
  · isplitl [Hl]; · iexact Hl
    iexact Hrt
  isplitr [Hr]
  · isplitl [H0]; · iexact H0
    isplitl [H2]; · iexact H2
    iexact H3
  iexact Hr

/-! ## @main as five segments -/

abbrev 𝒱₀ : Variants := Variants.none
/-- The cores exchange nothing: no pair of a cell and an index carries a level. -/
abbrev L : GSem nD τ sig → Finset Unit := fun _ => ∅
abbrev lv : GSem nD τ sig → Unit → ℕ := fun _ _ => 0
/-- The pipeline prefetches no table. -/
abbrev adm : (p : Fin 1) → (pcfgs (F := F) p).Adm := fun p => (cfgs p).toPCfg_adm

/-- The launch element: the rounds library's, over the staging cells. -/
def u₀ : UR sig nD τ := initOf (Pipeline.cells cfgs cellOf_inj) (Pipeline.launchToks cfgs cellOf_inj)

/-- Carried unchanged through every segment: the core owes nothing. -/
abbrev R (c : Dev nD) : sProp 𝕄 := iprop(∃ W, owes (c.tc : Thread nD τ) (0 : CellTallies nD τ sig Unit) W)

/-- Segment 0: the positions transposed to [b, c, i]. -/
def seg0 : Pipeline.HostSeg (Name := ℕ) (U := UR sig nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- Segment 1: the diagonal of each cell matrix (twenty operations, a gather the last). -/
def seg1 : Pipeline.HostSeg (Name := ℕ) (U := UR sig nD τ) (pcfgs (F := F)) defs₀ 𝒱₀ L lv :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (V1 m) R

/-- Segment 2: the diagonal broadcast to [b, c, 1, 1]. -/
def seg2 : Pipeline.HostSeg (Name := ℕ) (U := UR sig nD τ) (pcfgs (F := F)) defs₀ 𝒱₀ L lv :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (V2 m) R

/-- Segment 4, behind the region: the output array transposed to [b, i, j, c]. -/
def seg3 : Pipeline.HostSeg (Name := ℕ) (U := UR sig nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro _ h; (repeat (cases h with | head => rfl | tail _ h => ?_)); exact nomatch h) (Vout m) R

-- the record's fields are stated over `pin pcfgs adm 0`, which is `cfg0` only after unfolding definitions inside types
set_option backward.isDefEq.respectTransparency.types false in
/-- Segment 3, the region. Layout: `winFacts₀0` (two windows on one array, so no distinctness of arrays is claimed);
    the kernel has no semaphore of its own. Nothing enters the invariant but the scoped rest, nothing comes out of it
    (`X`, `Y` empty); every unscoped buffer that is no window's array bypasses (`Z`). Entry and exit are
    `entry_arrays` and `exit_arrays`. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c.tc : Thread nD τ) ucRefs (Vpre m c) ∗ R c)
  post c := iprop(StableHlo.held (c.tc : Thread nD τ) ucRefs (Vout m c) ∗ R c)
  X _ := iprop(emp)
  Y _ := iprop(emp)
  Z c := Pipeline.unscopedRest spec0 c (V m c)
  hentry c := by
    iintro ⟨⟨Hh, HO⟩, -, -⟩
    ihave H := (entry_arrays m c) $$ Hh
    icases H with ⟨Ha, Hz⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩
      iexists W
      isplitr; · ipureintro; exact fun _ _ => Or.inl trivial
      iexact HO
    isplitr; · iempintro
    iexact Hz
  hin c := by
    rw [show (dats m 0 c).Φ 0 = Pipeline.scopedRest (Ix := Unit) (Name := ℕ) (U := UR sig nD τ) (Lvl := ℕ) (Val := Elt F) spec0 c from rfl]
    iintro ⟨-, -, Hs⟩
    iexact Hs
  hout c := by
    rw [Pipeline.ownSems0_none,
      show (dats m 0 c).Φ (Fin.last cfg0.N) = Pipeline.scopedRest (Ix := Unit) (Name := ℕ) (U := UR sig nD τ) (Lvl := ℕ) (Val := Elt F) spec0 c from rfl]
    iintro Hs
    isplitr; · iempintro
    isplitr; · iempintro
    iexact Hs
  hexit c := by
    iintro ⟨Ha, HO, -, Hz⟩
    imodintro
    isplitr [HO]
    · iapply (exit_arrays m c)
      isplitl [Ha]; · iexact Ha
      iexact Hz
    · unfold Pipeline.Dat.owesAt Pipeline.owesWithin
      icases HO with ⟨%W, -, HO⟩
      iexists W
      iexact HO

/-- @main, segment by segment. -/
abbrev segs : List (Pipeline.Seg (pcfgs (F := F)) adm (dats m) () defs₀ 𝒱₀ L lv) :=
  [.host (seg0 m), .host (seg1 m), .host (seg2 m), .region (reg0 m), .host (seg3 m)]

/-- Held when the last stretch has run. -/
abbrev Tₙ (c : Dev nD) : sProp 𝕄 := StableHlo.held (c.tc : Thread nD τ) ucRefs (StableHlo.after hostOps1 (Vout m c))

-- the library theorem's conclusion names `Pipeline.defs pcfgs defs₀`; `defs` is that after unfolding inside types
set_option backward.isDefEq.respectTransparency.types false in
/-- From any memory, every semaphore counter zero: every weakly fair execution of @main on the TensorCores terminates,
    and in every final state the result array holds the transpose of the output array's final contents
    (`result_eq`) and the two arguments hold what they held at launch. -/
theorem run_main : θ_run defs (onTc (τ := τ) (main (F := F))) ⟨m, fun _ => 0, ρ⟩ (fun r => ∀ c : Dev nD,
      r.2.mem ((c.tc : Thread nD τ).loc main_v4) = StableHlo.after hostOps1 (Vout m c) (Proc.devRef .tc main_v4)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) ucRefs (V₀ m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c.tc : Thread nD τ).loc b)) = StableHlo.held (c.tc : Thread nD τ) ucRefs (V₀ m c)
        from unscopedBufs_held c (V₀ m c)]
      iintro ⟨⟨Hh, -, HO, -, -, -⟩, -⟩
      imodintro
      isplitl [Hh]; · iexact Hh
      iexists ∅
      iexact HO)
    (QY := fun c s => s.mem ((c.tc : Thread nD τ).loc main_v4) = StableHlo.after hostOps1 (Vout m c) (Proc.devRef .tc main_v4)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      dsimp only [Tₙ]; unfold StableHlo.held
      iintro ⟨Hh, HSI⟩
      ihave Hr := (pointsTo_read_all ucRefs (fun b => ((c.tc : Thread nD τ).1, b)) (fun b => StableHlo.after hostOps1 (Vout m c) b) s') $$ [Hh HSI]
      · isplitl [Hh] <;> iassumption
      icases Hr with ⟨%h, HSI⟩
      imodintro
      isplitr
      · ipureintro
        exact ⟨h _ (mem_ucRefs main_v4 (by decide)), (h _ (mem_ucRefs main_arg0 (by decide))).trans (final_arg0 m c),
          (h _ (mem_ucRefs main_arg1 (by decide))).trans (final_arg1 m c)⟩
      iexact HSI)
    (hQ := fun _ h => h)

/-- info: 'Cert.KernelIdeal.Hand.run_main' depends on axioms: [propext, Classical.choice, Quot.sound] -/
#guard_msgs in #print axioms run_main

/-- The frame claim: @main runs to the end, and the two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.Gathers.lean ====
/- Two readings of `stablehlo.gather` at an index, generic in the element type: the diagonal of a batch of
   3×3 matrices (start index (c, c) in row c), and one row out of a batch of 1024×3 arrays at a start index
   held in a 32-bit word. Each is stated over any record of dimension numbers with the given field values,
   so that a program's own record fits with the field equations closed by `rfl`. Then the start-index array
   of the diagonal gather, as the program builds it, read at an index. -/
import Idealize.ShloMosaic.PureOps
import Idealize.ShloMosaic.Lib.ValueIdx
import Idealize.ShloMosaic.Lib.Pipeline.Value

noncomputable section

namespace Cert.Proof.Gathers

open Idealize.ShloMosaic Idealize.ShloMosaic.ValueIdx

/-- A 32-bit word holding a natural below 2³¹ reads back, signed, as that natural. -/
theorem toInt_toNat_ofNat (n : Nat) (h : n < 2 ^ 31) : (BitVec.ofNat 32 n).toInt.toNat = n := by
  have hm : n % 2 ^ 32 = n := Nat.mod_eq_of_lt (by omega)
  have : (BitVec.ofNat 32 n).toInt = (n : Int) := by
    rw [BitVec.toInt_eq_toNat_cond, BitVec.toNat_ofNat, hm]
    rw [if_pos (by omega)]
  rw [this]; rfl

variable {α : Type}

/-- THE DIAGONAL GATHER at `(b, c)`: offset axis 0 carries `b`; the operand's axes 1 and 2 are collapsed and
    start at the two components of the start index in row `c`, read signed and clamped into `[0, 2]`; with
    both components the word of `c` the element read is the operand's at `(b, c, c)`. -/
theorem gather_diag_apply (d : GatherDims ⟨3, ![32, 3, 3]⟩ ⟨2, ![3, 2]⟩ ⟨2, ![32, 3]⟩)
    (hod : d.offsetDims = [0]) (hcd : d.collapsedSliceDims = [1, 2]) (hob : d.operandBatchingDims = [])
    (hsb : d.startIndicesBatchingDims = []) (hsm : d.startIndexMap = [1, 2]) (hiv : d.indexVectorDim = 1)
    (hss : d.sliceSizes = ![32, 1, 1])
    (x : (⟨3, ![32, 3, 3]⟩ : Shape).Idx → α) (idx : IVec ⟨2, ![3, 2]⟩ 32)
    (h0 : ∀ c : Fin 3, idx (ix2 c 0) = BitVec.ofNat 32 c.val)
    (h1 : ∀ c : Fin 3, idx (ix2 c 1) = BitVec.ofNat 32 c.val)
    (b : Fin 32) (c : Fin 3) :
    Host.gather d x idx (ix2 b c) = x (ix3 b c c) := by
  obtain ⟨od, cd, ob, sb, sm, iv, ss, wf⟩ := d
  simp only at hod hcd hob hsb hsm hiv hss
  subst hod hcd hob hsb hsm hiv hss
  unfold Host.gather
  congr 1
  funext a
  refine Fin.ext ?_
  generalize hD : (GatherDims.mk (s := ⟨3, ![32, 3, 3]⟩) (si := ⟨2, ![3, 2]⟩) (t := ⟨2, ![32, 3]⟩) [0] [1, 2] [] [] [1, 2] 1 ![32, 1, 1] wf) = D
  show D.start (ix2 b c) idx a + D.batchCoord (ix2 b c) a + D.offCoord (ix2 b c) a = _
  have hbc : D.batchCoord (ix2 b c) a = 0 := by
    subst hD; exact GatherDims.batchCoord_eq_zero _ _ _ List.not_mem_nil
  rw [hbc, Nat.add_zero]
  have hc2 : c.val < 2 ^ 31 := by have := c.isLt; omega
  match a with
  | ⟨0, _⟩ =>
    have hs : D.start (ix2 b c) idx ⟨0, by decide⟩ = 0 := by
      subst hD; unfold GatherDims.start
      rw [dif_neg (show (⟨0, by decide⟩ : Fin 3) ∉ ([1, 2] : List (Fin 3)) by decide)]
    have ho : D.offCoord (ix2 b c) ⟨0, by decide⟩ = b.val := by
      subst hD; unfold GatherDims.offCoord
      rw [dif_pos (show (⟨0, by decide⟩ : Fin 3) ∈ (Shape.kept ⟨3, ![32, 3, 3]⟩ ([1, 2] ++ []) : List (Fin 3)) by decide)]; rfl
    rw [hs, ho, Nat.zero_add]
  | ⟨1, _⟩ =>
    have ho : D.offCoord (ix2 b c) ⟨1, by decide⟩ = 0 := by
      subst hD; unfold GatherDims.offCoord
      rw [dif_neg (show (⟨1, by decide⟩ : Fin 3) ∉ (Shape.kept ⟨3, ![32, 3, 3]⟩ ([1, 2] ++ []) : List (Fin 3)) by decide)]
    have hs : D.start (ix2 b c) idx ⟨1, by decide⟩ = c.val := by
      subst hD; unfold GatherDims.start
      rw [dif_pos (show (⟨1, by decide⟩ : Fin 3) ∈ ([1, 2] : List (Fin 3)) by decide)]
      have hsi : ∀ pf, GatherDims.siIdx (GatherDims.mk (s := ⟨3, ![32, 3, 3]⟩) (si := ⟨2, ![3, 2]⟩) (t := ⟨2, ![32, 3]⟩) [0] [1, 2] [] [] [1, 2] 1 ![32, 1, 1] wf) (ix2 b c)
          ⟨List.idxOf (⟨1, by decide⟩ : Fin 3) ([1, 2] : List (Fin 3)), pf⟩ = ix2 c 0 := by
        intro pf; funext e; refine Fin.ext ?_
        match e with
        | ⟨0, _⟩ => rfl
        | ⟨1, _⟩ => rfl
      rw [hsi, h0 c, toInt_toNat_ofNat _ hc2]
      show min c.val (3 - 1) = c.val
      have := c.isLt; omega
    rw [hs, ho, Nat.add_zero]
  | ⟨2, _⟩ =>
    have ho : D.offCoord (ix2 b c) ⟨2, by decide⟩ = 0 := by
      subst hD; unfold GatherDims.offCoord
      rw [dif_neg (show (⟨2, by decide⟩ : Fin 3) ∉ (Shape.kept ⟨3, ![32, 3, 3]⟩ ([1, 2] ++ []) : List (Fin 3)) by decide)]
    have hs : D.start (ix2 b c) idx ⟨2, by decide⟩ = c.val := by
      subst hD; unfold GatherDims.start
      rw [dif_pos (show (⟨2, by decide⟩ : Fin 3) ∈ ([1, 2] : List (Fin 3)) by decide)]
      have hsi : ∀ pf, GatherDims.siIdx (GatherDims.mk (s := ⟨3, ![32, 3, 3]⟩) (si := ⟨2, ![3, 2]⟩) (t := ⟨2, ![32, 3]⟩) [0] [1, 2] [] [] [1, 2] 1 ![32, 1, 1] wf) (ix2 b c)
          ⟨List.idxOf (⟨2, by decide⟩ : Fin 3) ([1, 2] : List (Fin 3)), pf⟩ = ix2 c 1 := by
        intro pf; funext e; refine Fin.ext ?_
        match e with
        | ⟨0, _⟩ => rfl
        | ⟨1, _⟩ => rfl
      rw [hsi, h1 c, toInt_toNat_ofNat _ hc2]
      show min c.val (3 - 1) = c.val
      have := c.isLt; omega
    rw [hs, ho, Nat.add_zero]

/-- THE ROW GATHER at `(b, p, c)`: offset axes 0 and 2 carry `b` and `c`; the operand's axis 1 is collapsed
    and starts at the start index in row `p`, read signed and clamped into `[0, 1023]`; when that word holds
    `r < 1024` the element read is the operand's at `(b, r, c)`. -/
theorem gather_row_apply (d : GatherDims ⟨3, ![32, 1024, 3]⟩ ⟨2, ![523776, 1]⟩ ⟨3, ![32, 523776, 3]⟩)
    (hod : d.offsetDims = [0, 2]) (hcd : d.collapsedSliceDims = [1]) (hob : d.operandBatchingDims = [])
    (hsb : d.startIndicesBatchingDims = []) (hsm : d.startIndexMap = [1]) (hiv : d.indexVectorDim = 1)
    (hss : d.sliceSizes = ![32, 1, 3])
    (x : (⟨3, ![32, 1024, 3]⟩ : Shape).Idx → α) (idx : IVec ⟨2, ![523776, 1]⟩ 32)
    (b : Fin 32) (p : Fin 523776) (c : Fin 3) (r : Nat) (hr : r < 1024)
    (hidx : idx (ix2 p 0) = BitVec.ofNat 32 r) :
    Host.gather d x idx (ix3 b p c) = x (ix3 b ⟨r, hr⟩ c) := by
  obtain ⟨od, cd, ob, sb, sm, iv, ss, wf⟩ := d
  simp only at hod hcd hob hsb hsm hiv hss
  subst hod hcd hob hsb hsm hiv hss
  unfold Host.gather
  congr 1
  funext a
  refine Fin.ext ?_
  generalize hD : (GatherDims.mk (s := ⟨3, ![32, 1024, 3]⟩) (si := ⟨2, ![523776, 1]⟩) (t := ⟨3, ![32, 523776, 3]⟩) [0, 2] [1] [] [] [1] 1 ![32, 1, 3] wf) = D
  show D.start (ix3 b p c) idx a + D.batchCoord (ix3 b p c) a + D.offCoord (ix3 b p c) a = _
  have hbc : D.batchCoord (ix3 b p c) a = 0 := by
    subst hD; exact GatherDims.batchCoord_eq_zero _ _ _ List.not_mem_nil
  rw [hbc, Nat.add_zero]
  match a with
  | ⟨0, _⟩ =>
    have hs : D.start (ix3 b p c) idx ⟨0, by decide⟩ = 0 := by
      subst hD; unfold GatherDims.start
      rw [dif_neg (show (⟨0, by decide⟩ : Fin 3) ∉ ([1] : List (Fin 3)) by decide)]
    have ho : D.offCoord (ix3 b p c) ⟨0, by decide⟩ = b.val := by
      subst hD; unfold GatherDims.offCoord
      rw [dif_pos (show (⟨0, by decide⟩ : Fin 3) ∈ (Shape.kept ⟨3, ![32, 1024, 3]⟩ ([1] ++ []) : List (Fin 3)) by decide)]; rfl
    rw [hs, ho, Nat.zero_add]
  | ⟨1, _⟩ =>
    have ho : D.offCoord (ix3 b p c) ⟨1, by decide⟩ = 0 := by
      subst hD; unfold GatherDims.offCoord
      rw [dif_neg (show (⟨1, by decide⟩ : Fin 3) ∉ (Shape.kept ⟨3, ![32, 1024, 3]⟩ ([1] ++ []) : List (Fin 3)) by decide)]
    have hs : D.start (ix3 b p c) idx ⟨1, by decide⟩ = r := by
      subst hD; unfold GatherDims.start
      rw [dif_pos (show (⟨1, by decide⟩ : Fin 3) ∈ ([1] : List (Fin 3)) by decide)]
      have hsi : ∀ pf, GatherDims.siIdx (GatherDims.mk (s := ⟨3, ![32, 1024, 3]⟩) (si := ⟨2, ![523776, 1]⟩) (t := ⟨3, ![32, 523776, 3]⟩) [0, 2] [1] [] [] [1] 1 ![32, 1, 3] wf) (ix3 b p c)
          ⟨List.idxOf (⟨1, by decide⟩ : Fin 3) ([1] : List (Fin 3)), pf⟩ = ix2 p 0 := by
        intro pf; funext e; refine Fin.ext ?_
        match e with
        | ⟨0, _⟩ => rfl
        | ⟨1, _⟩ => rfl
      rw [hsi, hidx, toInt_toNat_ofNat _ (by omega)]
      show min r (1024 - 1) = r
      omega
    rw [hs, ho, Nat.add_zero]
  | ⟨2, _⟩ =>
    have hs : D.start (ix3 b p c) idx ⟨2, by decide⟩ = 0 := by
      subst hD; unfold GatherDims.start
      rw [dif_neg (show (⟨2, by decide⟩ : Fin 3) ∉ ([1] : List (Fin 3)) by decide)]
    have ho : D.offCoord (ix3 b p c) ⟨2, by decide⟩ = c.val := by
      subst hD; unfold GatherDims.offCoord
      rw [dif_pos (show (⟨2, by decide⟩ : Fin 3) ∈ (Shape.kept ⟨3, ![32, 1024, 3]⟩ ([1] ++ []) : List (Fin 3)) by decide)]; rfl
    rw [hs, ho, Nat.zero_add]

/-! ## The diagonal gather's start indices, as the program builds them -/

/-- One column of the start indices: the coordinate `i` on the one axis, with 3 added where it is negative
    (the wrap of a negative index), `select (i < 0) (i + 3) i`. -/
abbrev diagCol (hb0 : (⟨0, ![]⟩ : Shape).BroadcastsInDim ⟨1, ![3]⟩ (![] : Fin 0 → Fin 1)) : IVec ⟨1, ![3]⟩ 32 :=
  select (cmpi .slt (iotaInDim ⟨1, ![3]⟩ 32 0) (broadcastInDim ⟨1, ![3]⟩ ![] hb0 (constantI ⟨0, ![]⟩ 32 0#32)))
    (addi (iotaInDim ⟨1, ![3]⟩ 32 0) (broadcastInDim ⟨1, ![3]⟩ ![] hb0 (constantI ⟨0, ![]⟩ 32 3#32)))
    (iotaInDim ⟨1, ![3]⟩ 32 0)

/-- No coordinate 0, 1, 2 is negative: the column at `i` is the word of `i`. -/
theorem diagCol_apply (hb0 : (⟨0, ![]⟩ : Shape).BroadcastsInDim ⟨1, ![3]⟩ (![] : Fin 0 → Fin 1))
    (i : (⟨1, ![3]⟩ : Shape).Idx) : diagCol hb0 i = BitVec.ofNat 32 (i 0).val := by
  obtain ⟨a, rfl⟩ : ∃ a : Fin 3, i = ix1 a := ⟨i 0, eq_ix1 i⟩
  show Scalar.select (IntOp.cmpi .slt (BitVec.ofNat 32 a.val) 0#32) (IntOp.addi (BitVec.ofNat 32 a.val) 3#32)
    (BitVec.ofNat 32 a.val) = BitVec.ofNat 32 a.val
  fin_cases a <;> rfl

/-- The start indices: two copies of the column, each as a 3×1 array, side by side. -/
abbrev diagStart (hb0 : (⟨0, ![]⟩ : Shape).BroadcastsInDim ⟨1, ![3]⟩ (![] : Fin 0 → Fin 1))
    (hb1 : (⟨1, ![3]⟩ : Shape).BroadcastsInDim ⟨2, ![3, 1]⟩ (![0] : Fin 1 → Fin 2))
    (hc : Shape.Concatenates [(⟨2, ![3, 1]⟩ : Shape), ⟨2, ![3, 1]⟩] ⟨2, ![3, 2]⟩ 1) : IVec ⟨2, ![3, 2]⟩ 32 :=
  concatenate ⟨2, ![3, 2]⟩ 1
    [⟨⟨2, ![3, 1]⟩, broadcastInDim ⟨2, ![3, 1]⟩ ![0] hb1 (diagCol hb0)⟩,
     ⟨⟨2, ![3, 1]⟩, broadcastInDim ⟨2, ![3, 1]⟩ ![0] hb1 (diagCol hb0)⟩] hc

/-- A 3×1 copy of a column reads the column at the row. -/
theorem bcast_col_apply (hb1 : (⟨1, ![3]⟩ : Shape).BroadcastsInDim ⟨2, ![3, 1]⟩ (![0] : Fin 1 → Fin 2))
    (v : IVec ⟨1, ![3]⟩ 32) (c : Fin 3) (z : Fin 1) :
    broadcastInDim ⟨2, ![3, 1]⟩ ![0] hb1 v (ix2 c z) = v (ix1 c) := by
  refine broadcastInDim_apply _ hb1 v _ (ix1 c) ?_
  intro a
  match a with
  | ⟨0, _⟩ => rfl

/-- Row `c` of the start indices is `(c, c)`: its first component … -/
theorem diagStart_apply0 (hb0 : (⟨0, ![]⟩ : Shape).BroadcastsInDim ⟨1, ![3]⟩ (![] : Fin 0 → Fin 1))
    (hb1 : (⟨1, ![3]⟩ : Shape).BroadcastsInDim ⟨2, ![3, 1]⟩ (![0] : Fin 1 → Fin 2))
    (hc : Shape.Concatenates [(⟨2, ![3, 1]⟩ : Shape), ⟨2, ![3, 1]⟩] ⟨2, ![3, 2]⟩ 1) (c : Fin 3) :
    diagStart hb0 hb1 hc (ix2 c 0) = BitVec.ofNat 32 c.val := by
  rw [show diagStart hb0 hb1 hc (ix2 c 0) = broadcastInDim ⟨2, ![3, 1]⟩ ![0] hb1 (diagCol hb0) (ix2 c 0) from
    concatenate_pair_apply_left _ _ _ hc _ rfl (ix2 c 0) (by
      intro e
      match e with
      | ⟨0, _⟩ => rfl
      | ⟨1, _⟩ => rfl)]
  rw [bcast_col_apply, diagCol_apply]

/-- … and its second. -/
theorem diagStart_apply1 (hb0 : (⟨0, ![]⟩ : Shape).BroadcastsInDim ⟨1, ![3]⟩ (![] : Fin 0 → Fin 1))
    (hb1 : (⟨1, ![3]⟩ : Shape).BroadcastsInDim ⟨2, ![3, 1]⟩ (![0] : Fin 1 → Fin 2))
    (hc : Shape.Concatenates [(⟨2, ![3, 1]⟩ : Shape), ⟨2, ![3, 1]⟩] ⟨2, ![3, 2]⟩ 1) (c : Fin 3) :
    diagStart hb0 hb1 hc (ix2 c 1) = BitVec.ofNat 32 c.val := by
  rw [show diagStart hb0 hb1 hc (ix2 c 1) = broadcastInDim ⟨2, ![3, 1]⟩ ![0] hb1 (diagCol hb0) (ix2 c 0) from
    concatenate_pair_apply_right _ _ _ hc _ rfl rfl (ix2 c 0) (by
      intro e he
      match e, he with
      | ⟨0, _⟩, _ => rfl
      | ⟨1, _⟩, he => exact absurd rfl he) rfl]
  rw [bcast_col_apply, diagCol_apply]

/-- THE DIAGONAL, as the program takes it: the gather at the start indices it builds reads `(b, c, c)`. -/
theorem gather_diagStart_apply (d : GatherDims ⟨3, ![32, 3, 3]⟩ ⟨2, ![3, 2]⟩ ⟨2, ![32, 3]⟩)
    (hod : d.offsetDims = [0]) (hcd : d.collapsedSliceDims = [1, 2]) (hob : d.operandBatchingDims = [])
    (hsb : d.startIndicesBatchingDims = []) (hsm : d.startIndexMap = [1, 2]) (hiv : d.indexVectorDim = 1)
    (hss : d.sliceSizes = ![32, 1, 1])
    (hb0 : (⟨0, ![]⟩ : Shape).BroadcastsInDim ⟨1, ![3]⟩ (![] : Fin 0 → Fin 1))
    (hb1 : (⟨1, ![3]⟩ : Shape).BroadcastsInDim ⟨2, ![3, 1]⟩ (![0] : Fin 1 → Fin 2))
    (hc : Shape.Concatenates [(⟨2, ![3, 1]⟩ : Shape), ⟨2, ![3, 1]⟩] ⟨2, ![3, 2]⟩ 1)
    (x : (⟨3, ![32, 3, 3]⟩ : Shape).Idx → α) (b : Fin 32) (c : Fin 3) :
    Host.gather d x (diagStart hb0 hb1 hc) (ix2 b c) = x (ix3 b c c) :=
  gather_diag_apply d hod hcd hob hsb hsm hiv hss x _ (diagStart_apply0 hb0 hb1 hc) (diagStart_apply1 hb0 hb1 hc) b c

end Cert.Proof.Gathers

end
-- ==== Proof.KPre.lean ====
/-
  The host operations the program runs before its region, read at an index. Three stretches run in order from the
  launch contents V₀: the transpose of the first argument ([32,1024,3] to [32,3,1024], permutation [0,2,1]); the
  diagonal of the second argument (start indices (c, c) in row c built from an iota, then a gather: [32,3,3] to
  [32,3]); and the broadcast of that diagonal to [32,3,1,1] along axes 0 and 1. At an index:
    the transposed array at (b, c, i) is the first argument at (b, i, c);
    the broadcast diagonal at (b, c, ·, ·) is the second argument at (b, c, c);
    no operation writes an argument, so both arguments are as launched.
  Every statement holds at any float instance: the operations only move elements.
-/
import proofs.«180452_j36309653520599_1_alg».proof.Proof.Gen.KernelIdeal.Launch
import proofs.«180452_j36309653520599_1_alg».proof.Proof.Gathers
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- The transposed first argument at `(b, c, i)` is the first argument at `(b, i, c)`: the later two stretches do
    not write it, and the transpose with permutation `[0, 2, 1]` swaps the last two coordinates. -/
theorem pre_v0 (V₀ : Valuation τ sig (Elt F)) (b : Fin 32) (c : Fin 3) (i : Fin 1024) :
    StableHlo.after hostOps0_2 (StableHlo.after hostOps0_1 (StableHlo.after hostOps0 V₀)) (Proc.devRef .tc main_v0) (ix3 b c i)
      = V₀ (Proc.devRef .tc main_arg0) (ix3 b i c) := by
  after_results
  exact transpose_ix3_021_apply _ _ b c i

/-- The broadcast diagonal at `(b, c, z, w)` (the last two axes have one coordinate each) is the second argument at
    `(b, c, c)`: the broadcast along axes 0 and 1 reads the diagonal at `(b, c)`, and the gather at the start indices
    the program builds, `(c, c)` in row `c`, reads the operand at `(b, c, c)`. -/
theorem pre_v2_at (V₀ : Valuation τ sig (Elt F)) (b : Fin 32) (c : Fin 3) (z w : Fin 1) :
    StableHlo.after hostOps0_2 (StableHlo.after hostOps0_1 (StableHlo.after hostOps0 V₀)) (Proc.devRef .tc main_v2) (ix4 b c z w)
      = V₀ (Proc.devRef .tc main_arg1) (ix3 b c c) := by
  after_results
  simp only [StableHlo.TRef.ofBuf, StableHlo.TRef.toBuf, cast_eq]
  refine (broadcastInDim_apply _ _ _ _ (ix2 b c) ?_).trans ?_
  · intro a
    match a with
    | ⟨0, _⟩ => rfl
    | ⟨1, _⟩ => rfl
  · exact Cert.Proof.Gathers.gather_diagStart_apply gather_S32x3x3_S3x2_S32x3_0_12_n_n_12_1_3211 rfl rfl rfl rfl rfl rfl rfl
      bcast_S_S3 bcast_S3_S3x1_0 concatenates_S3x1_S3x1_S3x2_d1 (V₀ (Proc.devRef .tc main_arg1)) b c

/-- The broadcast diagonal at `(b, c, 0, 0)` is the second argument at `(b, c, c)`. -/
theorem pre_v2 (V₀ : Valuation τ sig (Elt F)) (b : Fin 32) (c : Fin 3) :
    StableHlo.after hostOps0_2 (StableHlo.after hostOps0_1 (StableHlo.after hostOps0 V₀)) (Proc.devRef .tc main_v2) (ix4 b c 0 0)
      = V₀ (Proc.devRef .tc main_arg1) (ix3 b c c) :=
  pre_v2_at V₀ b c 0 0

/-- No host operation writes the first argument. -/
theorem pre_arg0 (V₀ : Valuation τ sig (Elt F)) :
    StableHlo.after hostOps0_2 (StableHlo.after hostOps0_1 (StableHlo.after hostOps0 V₀)) (Proc.devRef .tc main_arg0)
      = V₀ (Proc.devRef .tc main_arg0) := by
  after_results

/-- No host operation writes the second argument. -/
theorem pre_arg1 (V₀ : Valuation τ sig (Elt F)) :
    StableHlo.after hostOps0_2 (StableHlo.after hostOps0_1 (StableHlo.after hostOps0 V₀)) (Proc.devRef .tc main_arg1)
      = V₀ (Proc.devRef .tc main_arg1) := by
  after_results

end Cert.KernelIdeal.Hand

end
-- ==== Proof.Spec.lean ====
/- The mathematics shared by the whole certificate: the minimum-image wrap of a displacement, the dense
   displacement matrix both programs compute, and the form in which the reference reaches it (the strict upper
   triangle written first, then antisymmetrized). -/
import Idealize.ShloMosaic.PureOps.Ideal
import Idealize.ShloMosaic.Lib.ValueIdx

noncomputable section

namespace Cert.Proof.Spec

open Idealize.ShloMosaic Idealize.ShloMosaic.ValueIdx

/-- The minimum-image wrap of a displacement `d` along an axis of box edge `bx`:
    `d - round(d / bx) * bx`, the rounding to nearest with ties to even. -/
def wrap (d bx : EReal) : EReal := d - Ideal.liftRound Ideal.roundHalfEven (Ideal.div d bx) * bx

/-- positions: batch × atom × xyz -/
abbrev SPos : Shape := ⟨3, ![32, 1024, 3]⟩
/-- cells: batch × 3 × 3 (only the diagonal is read) -/
abbrev SCell : Shape := ⟨3, ![32, 3, 3]⟩
/-- the result: batch × atom i × atom j × xyz -/
abbrev SOut : Shape := ⟨4, ![32, 1024, 1024, 3]⟩

/-- Entry (b, i, j, c) of the dense minimum-image displacement matrix: the wrap of
    `pos[b,i,c] - pos[b,j,c]` by the box edge `cell[b,c,c]`. -/
def disp (pos : SPos.Idx → EReal) (cell : SCell.Idx → EReal) (b : Fin 32) (i j : Fin 1024) (c : Fin 3) : EReal :=
  wrap (pos (ix3 b i c) - pos (ix3 b j c)) (cell (ix3 b c c))

/-- The dense matrix, as one function of the two argument arrays. -/
def G (pos : SPos.Idx → EReal) (cell : SCell.Idx → EReal) : SOut.Idx → EReal :=
  fun k => disp pos cell (k 0) (k 1) (k 2) (k 3)

/-- The strict upper triangle (i < j) of the matrix, zero elsewhere. -/
def upper (pos : SPos.Idx → EReal) (cell : SCell.Idx → EReal) : SOut.Idx → EReal :=
  fun k => if (k 1).val < (k 2).val then disp pos cell (k 0) (k 1) (k 2) (k 3) else 0

/-- The upper triangle minus its transpose in the two atom axes. -/
def antisym (pos : SPos.Idx → EReal) (cell : SCell.Idx → EReal) : SOut.Idx → EReal :=
  fun k => upper pos cell k - upper pos cell (ix4 (k 0) (k 2) (k 1) (k 3))

end Cert.Proof.Spec

end
-- ==== Proof.LibKeepdims.lean ====
/-
  General lemmas: the layout steps of a sum kept as a unit axis and spread again, read at an index written by its
  coordinates. An `[a, b]` array cast to `[a, b, 1]` or to `[a, 1, b]` holds, at `(i, j, 0)` resp. `(i, 0, j)`, the
  operand at `(i, j)` (the row-major positions agree: a unit axis contributes a factor 1 and an offset 0); an
  `[a, b, 1]` array broadcast to `[a, b, c]` holds at `(i, j, k)` the operand at `(i, j, 0)`, and an `[a, 1, c]` array
  broadcast to `[a, b, c]` holds there the operand at `(i, 0, k)` (a broadcast reads the operand at the same
  coordinate on every axis but the operand's unit axes, where it reads coordinate 0).
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Idealize.ShloMosaic.Keepdims
-- ==== Proof.KValue.lean ====
/-
  The kernel's value: the array the one pipeline leaves, transposed by the last host operation, is the dense
  minimum-image displacement matrix of the launched positions and cells.

  The body's payload at an index: each input block loses its unit axis, the row block is kept as a column and the
  column block as a row, both are spread to 3 × 256 × 1024 and subtracted, the box edge is spread over both atom
  axes, and the difference minus its quotient by the edge, rounded to nearest even, times the edge is the wrap.
  The blocks: point t of the 32 × 4 grid is batch t / 4 and row block t % 4; window 0 reads rows
  256 (t % 4) … of the transposed positions, window 1 all 1024 columns, window 2 the batch's three box edges, and
  the output block is rows 256 (t % 4) … of batch t / 4, all coordinates and all columns. So what point t writes
  back is block t of one whole-array function, the blocks cover the array, and the array ends holding it.
-/
import proofs.«180452_j36309653520599_1_alg».proof.Proof.KBody
import proofs.«180452_j36309653520599_1_alg».proof.Proof.KPre
import proofs.«180452_j36309653520599_1_alg».proof.Proof.Spec
import proofs.«180452_j36309653520599_1_alg».proof.Proof.LibKeepdims
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Hand.Value

open Cert.KernelIdeal Cert.KernelIdeal.Gen Cert.KernelIdeal.Hand
open Idealize.ShloMosaic Idealize.ShloMosaic.ValueIdx Idealize.ShloMosaic.Keepdims
open Idealize.ShloMosaic.TcCoe Idealize.SL.Sem
open Idealize.ShloMosaic.Pipeline (Dat)
open Cert.Proof

/-! ## The payload at an index -/

variable {α : Type}

/-- A `[a, 1, 1]` array broadcast to `[a, b, c]` reads, at `(i, j, k)`, the operand at `(i, 0, 0)`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- The row operand of the difference: the first block, its unit axis dropped, kept as a column and spread along
    the last axis, holds at `(c, i, j)` the block's entry `(0, c, i)`. -/
theorem row_bcast_apply (x0 : Vec Ideal S1x3x256 .f32) (cc : Fin 3) (i : Fin 256) (j : Fin 1024) :
    broadcastTo S3x256x1024 (shapeCast S3x256x1 (shapeCast S3x256 x0 shapeCasts_S1x3x256_S3x256) shapeCasts_S3x256_S3x256x1)
        broadcasts_S3x256x1_S3x256x1024 (ix3 cc i j)
      = x0 (ix3 (0 : Fin 1) cc i) :=
  (broadcastTo_ab1_abc_apply _ _ cc i j).trans
    ((shapeCast_ab_ab1_apply _ _ cc i (0 : Fin 1)).trans (shapeCast_1ab_ab_apply x0 _ cc i))

/-- The column operand: the second block, its unit axis dropped, kept as a row and spread along the middle axis, holds
    at `(c, i, j)` the block's entry `(0, c, j)`. -/
theorem col_bcast_apply (x1 : Vec Ideal S1x3x1024 .f32) (cc : Fin 3) (i : Fin 256) (j : Fin 1024) :
    broadcastTo S3x256x1024 (shapeCast S3x1x1024 (shapeCast S3x1024 x1 shapeCasts_S1x3x1024_S3x1024) shapeCasts_S3x1024_S3x1x1024)
        broadcasts_S3x1x1024_S3x256x1024 (ix3 cc i j)
      = x1 (ix3 (0 : Fin 1) cc j) :=
  (broadcastTo_a1c_abc_apply _ _ cc i j).trans
    ((shapeCast_ab_a1b_apply _ _ cc (0 : Fin 1) j).trans (shapeCast_1ab_ab_apply x1 _ cc j))

/-- The box edge: the third block, its unit axis dropped and spread along both atom axes, holds at `(c, i, j)` the
    block's entry `(0, c, 0, 0)`. -/
theorem edge_bcast_apply (x2 : Vec Ideal S1x3x1x1 .f32) (cc : Fin 3) (i : Fin 256) (j : Fin 1024) :
    broadcastTo S3x256x1024 (shapeCast S3x1x1 x2 shapeCasts_S1x3x1x1_S3x1x1) broadcasts_S3x1x1_S3x256x1024 (ix3 cc i j)
      = x2 (ix4 (0 : Fin 1) cc (0 : Fin 1) (0 : Fin 1)) :=
  (broadcastTo_a11_abc_apply _ _ cc i j).trans (shapeCast_1abc_abc_apply x2 _ cc (0 : Fin 1) (0 : Fin 1))

/-- THE PAYLOAD AT AN INDEX: entry `(0, c, i, j)` of what the body stores is the minimum-image wrap of the first
    block's `(0, c, i)` minus the second's `(0, c, j)` by the third's `(0, c, 0, 0)`. -/
theorem pay_apply (x0 : Vec Ideal S1x3x256 .f32) (x1 : Vec Ideal S1x3x1024 .f32) (x2 : Vec Ideal S1x3x1x1 .f32)
    (cc : Fin 3) (i : Fin 256) (j : Fin 1024) :
    k0_pay1 x0 x1 x2 (ix4 (0 : Fin 1) cc i j)
      = Spec.wrap (x0 (ix3 (0 : Fin 1) cc i) - x1 (ix3 (0 : Fin 1) cc j)) (x2 (ix4 (0 : Fin 1) cc (0 : Fin 1) (0 : Fin 1))) := by
  unfold k0_pay1
  refine (shapeCast_abc_1abc_apply _ _ (0 : Fin 1) cc i j).trans ?_
  show (_ - _ : EReal) - Ideal.liftRound Ideal.roundHalfEven (Ideal.div (_ - _) _) * _ = _
  rw [row_bcast_apply x0 cc i j, col_bcast_apply x1 cc i j, edge_bcast_apply x2 cc i j]
  rfl

/-! ## The arrays the region finds, at an index -/

variable (m : (ℓ : Loc nD τ sig) → Buf (Elt Ideal) ℓ)

/-- The positions as launched, -/
abbrev pos (c : Dev nD) : Spec.SPos.Idx → EReal := m ((c : Thread nD τ).loc main_arg0)
/-- and the cells. -/
abbrev cell (c : Dev nD) : Spec.SCell.Idx → EReal := m ((c : Thread nD τ).loc main_arg1)

/-- The transposed positions the region finds. -/
abbrev posT (c : Dev nD) : S32x3x1024.Idx → EReal := V m c main_v0
/-- The box edges the region finds. -/
abbrev edge (c : Dev nD) : S32x3x1x1.Idx → EReal := V m c main_v2

/-- The transposed positions at `(b, c, i)` are the launched positions at `(b, i, c)`. -/
theorem posT_apply (c : Dev nD) (b : Fin 32) (cc : Fin 3) (i : Fin 1024) :
    posT m c (ix3 b cc i) = pos m c (ix3 b i cc) :=
  pre_v0 (V₀ m c) b cc i
/-- The box edge at `(b, c, 0, 0)` is the launched cell's diagonal entry `(b, c, c)`. -/
theorem edge_apply (c : Dev nD) (b : Fin 32) (cc : Fin 3) :
    edge m c (ix4 b cc (0 : Fin 1) (0 : Fin 1)) = cell m c (ix3 b cc cc) :=
  pre_v2 (V₀ m c) b cc

/-! ## The index maps over the grid -/

/-- The printed index maps, decided over the 128 points: point `t` is batch `t / 4`, row block `t % 4`. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 0
    ∧ win0_2.index t (0 : Fin 4) = t.val / 4 ∧ win0_2.index t (1 : Fin 4) = 0 ∧ win0_2.index t (2 : Fin 4) = 0
    ∧ win0_2.index t (3 : Fin 4) = 0
    ∧ win0_3.index t (0 : Fin 4) = t.val / 4 ∧ win0_3.index t (1 : Fin 4) = 0 ∧ win0_3.index t (2 : Fin 4) = t.val % 4
    ∧ win0_3.index t (3 : Fin 4) = 0 :=
  (by decide +kernel : ∀ t : Fin grid0.N, _)

theorem N_lt (t : Fin cfg0.N) : t.val < 128 := by
  have h := t.isLt
  have hN : cfg0.N = 128 := N_0
  omega

/-! ## The input blocks at an index -/

/-- Window 0's block at point `t`: rows `256 (t % 4) …` of batch `t / 4` of the transposed positions. -/
theorem iblk0_apply (c : Dev nD) (t : Fin cfg0.N) (cc : Fin 3) (i : Fin 256) (b : Fin 32) (r : Fin 1024)
    (hb : b.val = t.val / 4) (hr : r.val = 256 * (t.val % 4) + i.val) :
    (iblk m c 0 t : Vec Ideal S1x3x256 .f32) (ix3 (0 : Fin 1) cc i) = posT m c (ix3 b cc r) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 3 + 1 * cc.val = cc.val; rw [e1]; omega
  | ⟨2, _⟩ => show win0_0.index t (2 : Fin 3) * 256 + 1 * i.val = r.val; rw [e2, hr]; omega

/-- Window 1's block at point `t`: all of batch `t / 4` of the transposed positions. -/
theorem iblk1_apply (c : Dev nD) (t : Fin cfg0.N) (cc : Fin 3) (j : Fin 1024) (b : Fin 32)
    (hb : b.val = t.val / 4) :
    (iblk m c 1 t : Vec Ideal S1x3x1024 .f32) (ix3 (0 : Fin 1) cc j) = posT m c (ix3 b cc j) := by
  obtain ⟨-, -, -, e0, e1, e2, -⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 3 + 1 * cc.val = cc.val; rw [e1]; omega
  | ⟨2, _⟩ => show win0_1.index t (2 : Fin 3) * 1024 + 1 * j.val = j.val; rw [e2]; omega

/-- Window 2's block at point `t`: the three box edges of batch `t / 4`. -/
theorem iblk2_apply (c : Dev nD) (t : Fin cfg0.N) (cc : Fin 3) (b : Fin 32) (hb : b.val = t.val / 4) :
    (iblk m c 2 t : Vec Ideal S1x3x1x1 .f32) (ix4 (0 : Fin 1) cc (0 : Fin 1) (0 : Fin 1))
      = edge m c (ix4 b cc (0 : Fin 1) (0 : Fin 1)) := by
  obtain ⟨-, -, -, -, -, -, e0, e1, e2, e3, -⟩ := idx_facts t
  unfold iblk
  rw [View.read_apply]
  show V m c main_v2 _ = V m c main_v2 _
  congr 1
  funext a
  apply Fin.ext
  match a with
  | ⟨0, _⟩ => show win0_2.index t (0 : Fin 4) * 1 + 1 * 0 = b.val; rw [e0, hb]; omega
  | ⟨1, _⟩ => show win0_2.index t (1 : Fin 4) * 3 + 1 * cc.val = cc.val; rw [e1]; omega
  | ⟨2, _⟩ => show win0_2.index t (2 : Fin 4) * 1 + 1 * 0 = 0; rw [e2]
  | ⟨3, _⟩ => show win0_2.index t (3 : Fin 4) * 1 + 1 * 0 = 0; rw [e3]

/-! ## What a point writes back -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The kernel's result array in its own layout, batch × xyz × atom i × atom j: the dense displacement matrix with
    the coordinate axis second. -/
def outT (c : Dev nD) : S32x3x1024x1024.Idx → EReal :=
  fun k => Spec.disp (pos m c) (cell m c) (k 0) (k 2) (k 3) (k 1)

/-- An index of the output block is `(0, c, i, j)` of its coordinates. -/
theorem blockIdx_eq (y : S1x3x256x1024.Idx) : y = ix4 (0 : Fin 1) (y 1) (y 2) (y 3) := by
  funext d
  match d with
  | ⟨0, _⟩ => exact Fin.ext (by have h : (y 0).val < 1 := (y 0).isLt; show (y 0).val = 0; omega)
  | ⟨1, _⟩ => rfl
  | ⟨2, _⟩ => rfl
  | ⟨3, _⟩ => rfl

/-- ONE ENTRY of what point `t` leaves in the output buffer: entry `(0, c, i, j)` of the payload of the three input
    blocks is the displacement matrix's entry at batch `t / 4`, atoms `256 (t % 4) + i` and `j`, coordinate `c`. -/
theorem pay_blocks_apply (c : Dev nD) (t : Fin cfg0.N) (cc : Fin 3) (i : Fin 256) (j : Fin 1024)
    (b : Fin 32) (r : Fin 1024) (hb : b.val = t.val / 4) (hr : r.val = 256 * (t.val % 4) + i.val) :
    k0_pay1 (iblk m c 0 t) (iblk m c 1 t) (iblk m c 2 t) (ix4 (0 : Fin 1) cc i j)
      = Spec.disp (pos m c) (cell m c) b r j cc := by
  refine (pay_apply (iblk m c 0 t) (iblk m c 1 t) (iblk m c 2 t) cc i j).trans ?_
  rw [iblk0_apply m c t cc i b r hb hr, iblk1_apply m c t cc j b hb, iblk2_apply m c t cc b hb,
    posT_apply, posT_apply, edge_apply]
  rfl

/-- WHAT POINT `t` WRITES BACK is block `t` of the displacement matrix in the kernel's layout. -/
theorem flushed_eq (c : Dev nD) (t : Fin cfg0.N) :
    (dats m 0 c).flushed 3 t = ((cfg0.win 3).blk t).view.read (Elt Ideal) (outT m c) := by
  show (cfg0.win 3).cut (grid0.coords t) ((dats m 0 c).after 3 t) = _
  rw [after0_3]
  unfold out0_3
  rw [View.canon_unit_zero hz4]
  simp only [View.ld_unit_zero (S := S1x3x256) hz3, View.ld_unit_zero (S := S1x3x1024) hz3,
    View.ld_unit_zero (S := S1x3x1x1) hz4]
  obtain ⟨-, -, -, -, -, -, -, -, -, -, e0, e1, e2, e3⟩ := idx_facts t
  have ht := N_lt t
  refine funext fun (y : S1x3x256x1024.Idx) => ?_
  have h1 : (y 1).val < 3 := (y 1).isLt
  have h2 : (y 2).val < 256 := (y 2).isLt
  have h3 : (y 3).val < 1024 := (y 3).isLt
  show k0_pay1 (iblk m c 0 t) (iblk m c 1 t) (iblk m c 2 t) y = outT m c (((cfg0.win 3).blk t).view.emb y)
  have hy := blockIdx_eq y
  refine (congrArg (k0_pay1 (iblk m c 0 t) (iblk m c 1 t) (iblk m c 2 t)) hy).trans ?_
  refine (pay_blocks_apply m c t (y 1) (y 2) (y 3) ⟨t.val / 4, by omega⟩ ⟨256 * (t.val % 4) + (y 2).val, by omega⟩ rfl rfl).trans ?_
  unfold outT
  have hk : ((cfg0.win 3).blk t).view.emb y
      = ix4 (⟨t.val / 4, by omega⟩ : Fin 32) (y 1) (⟨256 * (t.val % 4) + (y 2).val, by omega⟩ : Fin 1024) (y 3) := by
    funext a
    apply Fin.ext
    match a with
    | ⟨0, _⟩ => show win0_3.index t (0 : Fin 4) * 1 + 1 * (y 0).val = t.val / 4
                have h0 : (y 0).val < 1 := (y 0).isLt
                rw [e0]; omega
    | ⟨1, _⟩ => show win0_3.index t (1 : Fin 4) * 3 + 1 * (y 1).val = (y 1).val; rw [e1]; omega
    | ⟨2, _⟩ => show win0_3.index t (2 : Fin 4) * 256 + 1 * (y 2).val = 256 * (t.val % 4) + (y 2).val; rw [e2]; omega
    | ⟨3, _⟩ => show win0_3.index t (3 : Fin 4) * 1024 + 1 * (y 3).val = (y 3).val; rw [e3]; omega
  rw [hk]

/-! ## The blocks cover the array -/

/-- An index of the array is in point `t`'s block iff each coordinate is in the block's range on its axis. -/
theorem mem_blk (t : Fin cfg0.N) (i : S32x3x1024x1024.Idx) :
    i ∈ ((cfg0.win 3).blk t).view.set ↔ ∀ a : Fin 4, win0_3.index t a * S1x3x256x1024.size a ≤ (i a).val
      ∧ (i a).val < win0_3.index t a * S1x3x256x1024.size a + S1x3x256x1024.size a := by
  show i ∈ ((View.whole main_v3).slice (win0_3.rect t)).set ↔ _
  rw [View.set_slice_whole, Rect.mem_set_unit]
  exact Iff.rfl

/-- Every index `(b, c, i, j)` of the array lies in the block of point `4 b + i / 256`. -/
theorem cover (i : S32x3x1024x1024.Idx) :
    ∃ t : Fin cfg0.N, (cfg0.win 3).flush t = true ∧ i ∈ ((cfg0.win 3).blk t).view.set := by
  have h0 : (i 0).val < 32 := (i 0).isLt
  have h1 : (i 1).val < 3 := (i 1).isLt
  have h2 : (i 2).val < 1024 := (i 2).isLt
  have h3 : (i 3).val < 1024 := (i 3).isLt
  have hN : cfg0.N = 128 := N_0
  have hlt : 4 * (i 0).val + (i 2).val / 256 < cfg0.N := by omega
  obtain ⟨-, -, -, -, -, -, -, -, -, -, e0, e1, e2, e3⟩ := idx_facts ⟨4 * (i 0).val + (i 2).val / 256, hlt⟩
  refine ⟨⟨4 * (i 0).val + (i 2).val / 256, hlt⟩, flush0_3 _, ?_⟩
  rw [mem_blk]
  intro a
  match a with
  | ⟨0, _⟩ =>
    show win0_3.index ⟨4 * (i 0).val + (i 2).val / 256, hlt⟩ (0 : Fin 4) * 1 ≤ (i 0).val
      ∧ (i 0).val < win0_3.index ⟨4 * (i 0).val + (i 2).val / 256, hlt⟩ (0 : Fin 4) * 1 + 1
    rw [e0]; show (4 * (i 0).val + (i 2).val / 256) / 4 * 1 ≤ _ ∧ _ < (4 * (i 0).val + (i 2).val / 256) / 4 * 1 + 1; omega
  | ⟨1, _⟩ =>
    show win0_3.index ⟨4 * (i 0).val + (i 2).val / 256, hlt⟩ (1 : Fin 4) * 3 ≤ (i 1).val
      ∧ (i 1).val < win0_3.index ⟨4 * (i 0).val + (i 2).val / 256, hlt⟩ (1 : Fin 4) * 3 + 3
    rw [e1]; omega
  | ⟨2, _⟩ =>
    show win0_3.index ⟨4 * (i 0).val + (i 2).val / 256, hlt⟩ (2 : Fin 4) * 256 ≤ (i 2).val
      ∧ (i 2).val < win0_3.index ⟨4 * (i 0).val + (i 2).val / 256, hlt⟩ (2 : Fin 4) * 256 + 256
    rw [e2]; show (4 * (i 0).val + (i 2).val / 256) % 4 * 256 ≤ _ ∧ _ < (4 * (i 0).val + (i 2).val / 256) % 4 * 256 + 256; omega
  | ⟨3, _⟩ =>
    show win0_3.index ⟨4 * (i 0).val + (i 2).val / 256, hlt⟩ (3 : Fin 4) * 1024 ≤ (i 3).val
      ∧ (i 3).val < win0_3.index ⟨4 * (i 0).val + (i 2).val / 256, hlt⟩ (3 : Fin 4) * 1024 + 1024
    rw [e3]; omega

/-! ## The array after the run, and its transpose -/

/-- THE ARRAY after the run is the displacement matrix in the kernel's layout. -/
theorem final (c : Dev nD) : (dats m 0 c).arrAt 3 cfg0.N = outT m c :=
  (dats m 0 c).arrAt_eq_of_cover 3 (outT m c) (fun t _ => flushed_eq m c t) cover

/-- Transposed to batch × atom i × atom j × xyz, it is the dense minimum-image displacement matrix of the
    launched positions and cells. -/
theorem out_eq (c : Dev nD) :
    transpose S32x1024x1024x3 [0, 2, 3, 1] ((dats (F := Ideal) m 0 c).arrAt 3 cfg0.N)
        transposes_S32x3x1024x1024_S32x1024x1024x3_0_2_3_1
      = Spec.G (pos m c) (cell m c) := by
  rw [final]
  funext k
  refine (transpose_apply [0, 2, 3, 1] (outT m c) _ k (ix4 (k 0) (k 3) (k 1) (k 2)) fun b => ?_).trans rfl
  match b with
  | ⟨0, _⟩ => rfl
  | ⟨1, _⟩ => rfl
  | ⟨2, _⟩ => rfl
  | ⟨3, _⟩ => rfl

end Cert.KernelIdeal.Hand.Value

end
-- ==== Proof.RefOpsABC.lean ====
/-
  The reference program's run, first part: the statements of `main_part0` from `%cst` through the second
  call of @remainder, as three consecutive lists of host operations. A call of a module-local function
  contributes its body's operations in order, over that call's record of buffers (`main_callK`, a nested
  call's `main_callK.call0`) with the call's operands in place of the function's arguments; a statement of
  @main that is one operation contributes it as printed. Concatenated with the two later lists they are
  @main's run (`StableHlo.seq`), and `StableHlo.after` over them is what the buffers hold afterwards.
-/
import proofs.«180452_j36309653520599_1_alg».proof.ReferenceIdeal
import proofs.«180452_j36309653520599_1_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.StableHlo

variable {F : FTy → Type} [FloatOps F]

/-- The reference's operations from `%cst` through the call of @cumsum (19 operations): the constant one broadcast, @triu's nine over `main_call0` (where row ≥ column the select takes zero, elsewhere one), the comparison with zero, and @cumsum's reshape, convert and windowed sum over `main_call1`. Result `main_v4`: the running count of the strict upper triangle in row-major order. -/
abbrev opsA : List (HloOp τ sig (Elt F)) :=
  [ -- %cst = stablehlo.constant dense<1.000000e+00> : tensor<f32>
    StableHlo.nullary main_cst (constant S_ .f32 0x3F800000#32),
    -- %0 = stablehlo.broadcast_in_dim %cst, dims = []
    StableHlo.unary main_cst main_v0 (broadcastInDim S1024x1024 ![] bcast_S_S1024x1024 : (⟨S_, .f32⟩ : BufTy).Contents (Elt F) → (⟨S1024x1024, .f32⟩ : BufTy).Contents (Elt F)),
    -- %1 = func.call @triu(%0)
    StableHlo.TRef.nullary main_call0.v0 (iotaInDim S1024x1024 32 0),
    StableHlo.TRef.nullary main_call0.c (constantI S_ 32 0#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 (.of main_v0 : StableHlo.TRef sig ⟨S1024x1024, .f32⟩) main_call0.v6 select,
    -- %cst_0 = stablehlo.constant dense<0.000000e+00> : tensor<f32>
    StableHlo.nullary main_cst_0 (constant S_ .f32 0x00000000#32),
    -- %2 = stablehlo.broadcast_in_dim %cst_0, dims = []
    StableHlo.unary main_cst_0 main_v2 (broadcastInDim S1024x1024 ![] bcast_S_S1024x1024 : (⟨S_, .f32⟩ : BufTy).Contents (Elt F) → (⟨S1024x1024, .f32⟩ : BufTy).Contents (Elt F)),
    -- %3 = stablehlo.compare NE, %1, %2, FLOAT
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)),
    -- %4 = func.call @cumsum(%3)
    StableHlo.TRef.reshape (.of main_v3 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S1048576, .i32⟩) main_call1.call0.v0 main_call1.call0.v1 (fun x v => Host.reduceWindow IntOp.addi ![1048576] ![1] ![1048575] ![0] x v reduceWindows_S1048576_S1048576_w1048576s1p1048575_0 h_S_) ]
/-- Each operation of `opsA` touches TensorCore references only. -/
theorem opsA_sub : (opsA : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.binary_bufs_sub ..,
    StableHlo.nullary_bufs_sub .., StableHlo.binary_bufs_sub .., StableHlo.nullary_bufs_sub .., StableHlo.unary_bufs_sub .., StableHlo.ternary_bufs_sub .., StableHlo.nullary_bufs_sub ..,
    StableHlo.unary_bufs_sub .., StableHlo.binary_bufs_sub .., StableHlo.reshape_bufs_sub .., StableHlo.unary_bufs_sub .., StableHlo.nullary_bufs_sub .., StableHlo.unary_bufs_sub ..,
    StableHlo.binary_bufs_sub ..⟩

/-- The reference's operations from `%c` through the call of @cumsum_1 (20 operations): the clip at zero, the negative-index normalisation, the scatter-add of ones at the running counts (a bincount) and its windowed sum over `main_call3`. Result `main_v15`: the flat position of the p-th set entry of the mask. -/
abbrev opsB : List (HloOp τ sig (Elt F)) :=
  [ -- %c = stablehlo.constant dense<0> : tensor<i32>
    StableHlo.nullary main_c (constantI S_ 32 0#32),
    -- %5 = stablehlo.broadcast_in_dim %c, dims = []
    StableHlo.unary main_c main_v5 (broadcastInDim S523776 ![] bcast_S_S523776 : (⟨S_, .i32⟩ : BufTy).Contents (Elt F) → (⟨S523776, .i32⟩ : BufTy).Contents (Elt F)),
    -- %c_1 = stablehlo.constant dense<0> : tensor<i32>
    StableHlo.nullary main_c_1 (constantI S_ 32 0#32),
    -- %6 = func.call @clip(%4, %c_1)
    StableHlo.TRef.unary (.of main_c_1 : StableHlo.TRef sig ⟨S_, .i32⟩) main_call2.v0 id,
    StableHlo.TRef.unary main_call2.v0 main_call2.v1 (broadcastInDim S1048576 ![] bcast_S_S1048576),
    StableHlo.TRef.binary main_call2.v1 (.of main_v4 : StableHlo.TRef sig ⟨S1048576, .i32⟩) main_call2.v2 maxsi,
    -- %c_2 = stablehlo.constant dense<0> : tensor<i32>
    StableHlo.nullary main_c_2 (constantI S_ 32 0#32),
    -- %7 = stablehlo.broadcast_in_dim %c_2, dims = []
    StableHlo.unary main_c_2 main_v7 (broadcastInDim S1048576 ![] bcast_S_S1048576 : (⟨S_, .i32⟩ : BufTy).Contents (Elt F) → (⟨S1048576, .i32⟩ : BufTy).Contents (Elt F)),
    -- %8 = stablehlo.compare LT, %6, %7, SIGNED
    StableHlo.binary main_v6 main_v7 main_v8 (cmpi .slt : (⟨S1048576, .i32⟩ : BufTy).Contents (Elt F) → (⟨S1048576, .i32⟩ : BufTy).Contents (Elt F) → (⟨S1048576, .i1⟩ : BufTy).Contents (Elt F)),
    -- %c_3 = stablehlo.constant dense<523776> : tensor<i32>
    StableHlo.nullary main_c_3 (constantI S_ 32 523776#32),
    -- %9 = stablehlo.broadcast_in_dim %c_3, dims = []
    StableHlo.unary main_c_3 main_v9 (broadcastInDim S1048576 ![] bcast_S_S1048576 : (⟨S_, .i32⟩ : BufTy).Contents (Elt F) → (⟨S1048576, .i32⟩ : BufTy).Contents (Elt F)),
    -- %10 = stablehlo.add %6, %9 : tensor<1048576xi32>
    StableHlo.binary main_v6 main_v9 main_v10 (addi : (⟨S1048576, .i32⟩ : BufTy).Contents (Elt F) → (⟨S1048576, .i32⟩ : BufTy).Contents (Elt F) → (⟨S1048576, .i32⟩ : BufTy).Contents (Elt F)),
    -- %11 = stablehlo.select %8, %10, %6 : tensor<1048576xi1>, tensor<1048576xi32>
    StableHlo.ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    -- %12 = stablehlo.broadcast_in_dim %11, dims = [0]
    StableHlo.unary main_v11 main_v12 (broadcastInDim S1048576x1 ![0] bcast_S1048576_S1048576x1_0 : (⟨S1048576, .i32⟩ : BufTy).Contents (Elt F) → (⟨S1048576x1, .i32⟩ : BufTy).Contents (Elt F)),
    -- %c_4 = stablehlo.constant dense<1> : tensor<i32>
    StableHlo.nullary main_c_4 (constantI S_ 32 1#32),
    -- %13 = stablehlo.broadcast_in_dim %c_4, dims = []
    StableHlo.unary main_c_4 main_v13 (broadcastInDim S1048576 ![] bcast_S_S1048576 : (⟨S_, .i32⟩ : BufTy).Contents (Elt F) → (⟨S1048576, .i32⟩ : BufTy).Contents (Elt F)),
    -- %14 = "stablehlo.scatter"(%5, %12, %13)
    StableHlo.ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)),
    -- %15 = func.call @cumsum_1(%14)
    StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S523776, .i32⟩) main_call3.call0.v0 main_call3.call0.v1 (fun x v => Host.reduceWindow IntOp.addi ![523776] ![1] ![523775] ![0] x v reduceWindows_S523776_S523776_w523776s1p523775_0 h_S_) ]
/-- Each operation of `opsB` touches TensorCore references only. -/
theorem opsB_sub : (opsB : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.nullary_bufs_sub .., StableHlo.unary_bufs_sub .., StableHlo.ternary_bufs_sub .., StableHlo.nullary_bufs_sub ..,
    StableHlo.unary_bufs_sub .., StableHlo.binary_bufs_sub ..⟩

/-- The reference's operations from `%c_5` through the second call of @remainder (78 operations): floor-division by 1024 then remainder by 1024 (`main_v17`, the rows), floor-division by 1 then remainder by 1024 (`main_v19`, the columns), each call's body over its own record. -/
abbrev opsC : List (HloOp τ sig (Elt F)) :=
  [ -- %c_5 = stablehlo.constant dense<1024> : tensor<i32>
    StableHlo.nullary main_c_5 (constantI S_ 32 1024#32),
    -- %16 = func.call @floor_divide(%15, %c_5)
    StableHlo.TRef.unary (.of main_c_5 : StableHlo.TRef sig ⟨S_, .i32⟩) main_call4.v0 (broadcastInDim S523776 ![] bcast_S_S523776),
    StableHlo.TRef.binary (.of main_v15 : StableHlo.TRef sig ⟨S523776, .i32⟩) main_call4.v0 main_call4.v1 Host.divsi,
    StableHlo.TRef.unary (.of main_v15 : StableHlo.TRef sig ⟨S523776, .i32⟩) main_call4.v2 signi,
    StableHlo.TRef.unary (.of main_c_5 : StableHlo.TRef sig ⟨S_, .i32⟩) main_call4.v3 signi,
    StableHlo.TRef.unary main_call4.v3 main_call4.v4 (broadcastInDim S523776 ![] bcast_S_S523776),
    StableHlo.TRef.binary main_call4.v2 main_call4.v4 main_call4.v5 (cmpi .ne),
    StableHlo.TRef.unary (.of main_c_5 : StableHlo.TRef sig ⟨S_, .i32⟩) main_call4.v6 (broadcastInDim S523776 ![] bcast_S_S523776),
    StableHlo.TRef.binary (.of main_v15 : StableHlo.TRef sig ⟨S523776, .i32⟩) main_call4.v6 main_call4.v7 Host.remsi,
    StableHlo.TRef.nullary main_call4.c (constantI S_ 32 0#32),
    StableHlo.TRef.unary main_call4.c main_call4.v8 (broadcastInDim S523776 ![] bcast_S_S523776),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S523776 ![] bcast_S_S523776),
    StableHlo.TRef.binary main_call4.v1 main_call4.v11 main_call4.v12 subi,
    StableHlo.TRef.ternary (main_call4.v10 : StableHlo.TRef sig ⟨S523776, .i1⟩) (main_call4.v12 : StableHlo.TRef sig ⟨S523776, .i32⟩) (main_call4.v1 : StableHlo.TRef sig ⟨S523776, .i32⟩) main_call4.call0.v0 select,
    -- %c_6 = stablehlo.constant dense<1024> : tensor<i32>
    StableHlo.nullary main_c_6 (constantI S_ 32 1024#32),
    -- %17 = func.call @remainder(%16, %c_6)
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary (main_call5.v1 : StableHlo.TRef sig ⟨S_, .i1⟩) (main_call5.c_0 : StableHlo.TRef sig ⟨S_, .i32⟩) (main_call5.v0 : StableHlo.TRef sig ⟨S_, .i32⟩) main_call5.call0.v0 select,
    StableHlo.TRef.unary main_call5.call0.v0 main_call5.v3 (broadcastInDim S523776 ![] bcast_S_S523776),
    StableHlo.TRef.binary (.of main_v16 : StableHlo.TRef sig ⟨S523776, .i32⟩) main_call5.v3 main_call5.v4 Host.remsi,
    StableHlo.TRef.nullary main_call5.c_1 (constantI S_ 32 0#32),
    StableHlo.TRef.unary main_call5.c_1 main_call5.v5 (broadcastInDim S523776 ![] bcast_S_S523776),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S523776 ![] bcast_S_S523776),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S523776 ![] bcast_S_S523776),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S523776 ![] bcast_S_S523776),
    StableHlo.TRef.binary main_call5.v4 main_call5.v13 main_call5.v14 addi,
    StableHlo.TRef.ternary main_call5.v12 main_call5.v14 main_call5.v4 main_call5.v15 select,
    -- %c_7 = stablehlo.constant dense<1> : tensor<i32>
    StableHlo.nullary main_c_7 (constantI S_ 32 1#32),
    -- %18 = func.call @floor_divide(%15, %c_7)
    StableHlo.TRef.unary (.of main_c_7 : StableHlo.TRef sig ⟨S_, .i32⟩) main_call6.v0 (broadcastInDim S523776 ![] bcast_S_S523776),
    StableHlo.TRef.binary (.of main_v15 : StableHlo.TRef sig ⟨S523776, .i32⟩) main_call6.v0 main_call6.v1 Host.divsi,
    StableHlo.TRef.unary (.of main_v15 : StableHlo.TRef sig ⟨S523776, .i32⟩) main_call6.v2 signi,
    StableHlo.TRef.unary (.of main_c_7 : StableHlo.TRef sig ⟨S_, .i32⟩) main_call6.v3 signi,
    StableHlo.TRef.unary main_call6.v3 main_call6.v4 (broadcastInDim S523776 ![] bcast_S_S523776),
    StableHlo.TRef.binary main_call6.v2 main_call6.v4 main_call6.v5 (cmpi .ne),
    StableHlo.TRef.unary (.of main_c_7 : StableHlo.TRef sig ⟨S_, .i32⟩) main_call6.v6 (broadcastInDim S523776 ![] bcast_S_S523776),
    StableHlo.TRef.binary (.of main_v15 : StableHlo.TRef sig ⟨S523776, .i32⟩) main_call6.v6 main_call6.v7 Host.remsi,
    StableHlo.TRef.nullary main_call6.c (constantI S_ 32 0#32),
    StableHlo.TRef.unary main_call6.c main_call6.v8 (broadcastInDim S523776 ![] bcast_S_S523776),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S523776 ![] bcast_S_S523776),
    StableHlo.TRef.binary main_call6.v1 main_call6.v11 main_call6.v12 subi,
    StableHlo.TRef.ternary (main_call6.v10 : StableHlo.TRef sig ⟨S523776, .i1⟩) (main_call6.v12 : StableHlo.TRef sig ⟨S523776, .i32⟩) (main_call6.v1 : StableHlo.TRef sig ⟨S523776, .i32⟩) main_call6.call0.v0 select,
    -- %c_8 = stablehlo.constant dense<1024> : tensor<i32>
    StableHlo.nullary main_c_8 (constantI S_ 32 1024#32),
    -- %19 = func.call @remainder(%18, %c_8)
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary (main_call7.v1 : StableHlo.TRef sig ⟨S_, .i1⟩) (main_call7.c_0 : StableHlo.TRef sig ⟨S_, .i32⟩) (main_call7.v0 : StableHlo.TRef sig ⟨S_, .i32⟩) main_call7.call0.v0 select,
    StableHlo.TRef.unary main_call7.call0.v0 main_call7.v3 (broadcastInDim S523776 ![] bcast_S_S523776),
    StableHlo.TRef.binary (.of main_v18 : StableHlo.TRef sig ⟨S523776, .i32⟩) main_call7.v3 main_call7.v4 Host.remsi,
    StableHlo.TRef.nullary main_call7.c_1 (constantI S_ 32 0#32),
    StableHlo.TRef.unary main_call7.c_1 main_call7.v5 (broadcastInDim S523776 ![] bcast_S_S523776),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S523776 ![] bcast_S_S523776),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S523776 ![] bcast_S_S523776),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S523776 ![] bcast_S_S523776),
    StableHlo.TRef.binary main_call7.v4 main_call7.v13 main_call7.v14 addi,
    StableHlo.TRef.ternary main_call7.v12 main_call7.v14 main_call7.v4 main_call7.v15 select ]
/-- Each operation of `opsC` touches TensorCore references only. -/
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub .., StableHlo.unary_bufs_sub .., StableHlo.binary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.nullary_bufs_sub .., StableHlo.binary_bufs_sub .., StableHlo.nullary_bufs_sub .., StableHlo.ternary_bufs_sub .., StableHlo.unary_bufs_sub ..,
    StableHlo.binary_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub .., StableHlo.binary_bufs_sub .., StableHlo.binary_bufs_sub ..,
    StableHlo.unary_bufs_sub .., StableHlo.binary_bufs_sub .., StableHlo.ternary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.nullary_bufs_sub .., StableHlo.binary_bufs_sub ..,
    StableHlo.nullary_bufs_sub .., StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub .., StableHlo.binary_bufs_sub ..,
    StableHlo.unary_bufs_sub .., StableHlo.binary_bufs_sub .., StableHlo.binary_bufs_sub .., StableHlo.unary_bufs_sub .., StableHlo.binary_bufs_sub .., StableHlo.ternary_bufs_sub ..⟩

end Cert.ReferenceIdeal.Hand

end
-- ==== Proof.RefOpsDE.lean ====
/- The last two stretches of the reference program's @main, as literal lists of its StableHLO operations:
   the displacement of every listed atom pair and its minimum-image wrap (the first list), then the scatter
   of the wrapped displacements into a zero array at the pairs' positions and the subtraction of its
   transpose in the two atom axes (the second).  A function the program calls is listed at its call site,
   its operations in order over the call's own buffers. -/
import proofs.«180452_j36309653520599_1_alg».proof.ReferenceIdeal
import proofs.«180452_j36309653520599_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.StableHlo

variable {F : FTy → Type} [FloatOps F]

/-- From the constant `%c_9` through `%43`: both index tables normalised and broadcast to a column, the two
    row gathers of the positions and their difference (`%34`), the diagonal of the cell (the 20 operations of
    @diagonal over its call's buffers, result `%35`), the quotient, its rounding to nearest-even (@rint's one
    operation, result `%39`), the product and the wrapped difference `%42`, and the zero array `%43`. -/
abbrev opsD : List (HloOp τ sig (Elt F)) :=
  [ StableHlo.nullary main_c_9 (constantI S_ 32 0#32),
    StableHlo.unary main_c_9 main_v20 (broadcastInDim S523776 ![] bcast_S_S523776 : (⟨S_, .i32⟩ : BufTy).Contents (Elt F) → (⟨S523776, .i32⟩ : BufTy).Contents (Elt F)),
    StableHlo.binary main_v17 main_v20 main_v21 (cmpi .slt : (⟨S523776, .i32⟩ : BufTy).Contents (Elt F) → (⟨S523776, .i32⟩ : BufTy).Contents (Elt F) → (⟨S523776, .i1⟩ : BufTy).Contents (Elt F)),
    StableHlo.nullary main_c_10 (constantI S_ 32 1024#32),
    StableHlo.unary main_c_10 main_v22 (broadcastInDim S523776 ![] bcast_S_S523776 : (⟨S_, .i32⟩ : BufTy).Contents (Elt F) → (⟨S523776, .i32⟩ : BufTy).Contents (Elt F)),
    StableHlo.binary main_v17 main_v22 main_v23 (addi : (⟨S523776, .i32⟩ : BufTy).Contents (Elt F) → (⟨S523776, .i32⟩ : BufTy).Contents (Elt F) → (⟨S523776, .i32⟩ : BufTy).Contents (Elt F)),
    StableHlo.ternary main_v21 main_v23 main_v17 main_v24 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v24 main_v25 (broadcastInDim S523776x1 ![0] bcast_S523776_S523776x1_0 : (⟨S523776, .i32⟩ : BufTy).Contents (Elt F) → (⟨S523776x1, .i32⟩ : BufTy).Contents (Elt F)),
    StableHlo.binary main_arg0 main_v25 main_v26 ((fun x i => Host.gather gather_S32x1024x3_S523776x1_S32x523776x3_02_1_n_n_1_1_3213 x i) : (⟨S32x1024x3, .f32⟩ : BufTy).Contents (Elt F) → (⟨S523776x1, .i32⟩ : BufTy).Contents (Elt F) → (⟨S32x523776x3, .f32⟩ : BufTy).Contents (Elt F)),
    StableHlo.nullary main_c_11 (constantI S_ 32 0#32),
    StableHlo.unary main_c_11 main_v27 (broadcastInDim S523776 ![] bcast_S_S523776 : (⟨S_, .i32⟩ : BufTy).Contents (Elt F) → (⟨S523776, .i32⟩ : BufTy).Contents (Elt F)),
    StableHlo.binary main_v19 main_v27 main_v28 (cmpi .slt : (⟨S523776, .i32⟩ : BufTy).Contents (Elt F) → (⟨S523776, .i32⟩ : BufTy).Contents (Elt F) → (⟨S523776, .i1⟩ : BufTy).Contents (Elt F)),
    StableHlo.nullary main_c_12 (constantI S_ 32 1024#32),
    StableHlo.unary main_c_12 main_v29 (broadcastInDim S523776 ![] bcast_S_S523776 : (⟨S_, .i32⟩ : BufTy).Contents (Elt F) → (⟨S523776, .i32⟩ : BufTy).Contents (Elt F)),
    StableHlo.binary main_v19 main_v29 main_v30 (addi : (⟨S523776, .i32⟩ : BufTy).Contents (Elt F) → (⟨S523776, .i32⟩ : BufTy).Contents (Elt F) → (⟨S523776, .i32⟩ : BufTy).Contents (Elt F)),
    StableHlo.ternary main_v28 main_v30 main_v19 main_v31 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v31 main_v32 (broadcastInDim S523776x1 ![0] bcast_S523776_S523776x1_0 : (⟨S523776, .i32⟩ : BufTy).Contents (Elt F) → (⟨S523776x1, .i32⟩ : BufTy).Contents (Elt F)),
    StableHlo.binary main_arg0 main_v32 main_v33 ((fun x i => Host.gather gather_S32x1024x3_S523776x1_S32x523776x3_02_1_n_n_1_1_3213 x i) : (⟨S32x1024x3, .f32⟩ : BufTy).Contents (Elt F) → (⟨S523776x1, .i32⟩ : BufTy).Contents (Elt F) → (⟨S32x523776x3, .f32⟩ : BufTy).Contents (Elt F)),
    StableHlo.binary main_v26 main_v33 main_v34 (subf : (⟨S32x523776x3, .f32⟩ : BufTy).Contents (Elt F) → (⟨S32x523776x3, .f32⟩ : BufTy).Contents (Elt F) → (⟨S32x523776x3, .f32⟩ : BufTy).Contents (Elt F)),
    StableHlo.TRef.nullary (.of main_call8_v0 : StableHlo.TRef sig ⟨S3, .i32⟩) (iotaInDim S3 32 0),
    StableHlo.TRef.nullary (.of main_call8_v1 : StableHlo.TRef sig ⟨S3, .i32⟩) (iotaInDim S3 32 0),
    StableHlo.TRef.nullary (.of main_call8_c : StableHlo.TRef sig ⟨S_, .i32⟩) (constantI S_ 32 0#32),
    StableHlo.TRef.unary (.of main_call8_c : StableHlo.TRef sig ⟨S_, .i32⟩) (.of main_call8_v2 : StableHlo.TRef sig ⟨S3, .i32⟩) (broadcastInDim S3 ![] bcast_S_S3),
    StableHlo.TRef.binary (.of main_call8_v0 : StableHlo.TRef sig ⟨S3, .i32⟩) (.of main_call8_v2 : StableHlo.TRef sig ⟨S3, .i32⟩) (.of main_call8_v3 : StableHlo.TRef sig ⟨S3, .i1⟩) (cmpi .slt),
    StableHlo.TRef.nullary (.of main_call8_c_0 : StableHlo.TRef sig ⟨S_, .i32⟩) (constantI S_ 32 3#32),
    StableHlo.TRef.unary (.of main_call8_c_0 : StableHlo.TRef sig ⟨S_, .i32⟩) (.of main_call8_v4 : StableHlo.TRef sig ⟨S3, .i32⟩) (broadcastInDim S3 ![] bcast_S_S3),
    StableHlo.TRef.binary (.of main_call8_v0 : StableHlo.TRef sig ⟨S3, .i32⟩) (.of main_call8_v4 : StableHlo.TRef sig ⟨S3, .i32⟩) (.of main_call8_v5 : StableHlo.TRef sig ⟨S3, .i32⟩) addi,
    StableHlo.TRef.ternary (.of main_call8_v3 : StableHlo.TRef sig ⟨S3, .i1⟩) (.of main_call8_v5 : StableHlo.TRef sig ⟨S3, .i32⟩) (.of main_call8_v0 : StableHlo.TRef sig ⟨S3, .i32⟩) (.of main_call8_v6 : StableHlo.TRef sig ⟨S3, .i32⟩) select,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v7 : StableHlo.TRef sig ⟨S3, .i32⟩) (broadcastInDim S3 ![] bcast_S_S3),
    StableHlo.TRef.binary (.of main_call8_v1 : StableHlo.TRef sig ⟨S3, .i32⟩) (.of main_call8_v7 : StableHlo.TRef sig ⟨S3, .i32⟩) (.of main_call8_v8 : StableHlo.TRef sig ⟨S3, .i1⟩) (cmpi .slt),
    StableHlo.TRef.nullary (.of main_call8_c_2 : StableHlo.TRef sig ⟨S_, .i32⟩) (constantI S_ 32 3#32),
    StableHlo.TRef.unary (.of main_call8_c_2 : StableHlo.TRef sig ⟨S_, .i32⟩) (.of main_call8_v9 : StableHlo.TRef sig ⟨S3, .i32⟩) (broadcastInDim S3 ![] bcast_S_S3),
    StableHlo.TRef.binary (.of main_call8_v1 : StableHlo.TRef sig ⟨S3, .i32⟩) (.of main_call8_v9 : StableHlo.TRef sig ⟨S3, .i32⟩) (.of main_call8_v10 : StableHlo.TRef sig ⟨S3, .i32⟩) addi,
    StableHlo.TRef.ternary (.of main_call8_v8 : StableHlo.TRef sig ⟨S3, .i1⟩) (.of main_call8_v10 : StableHlo.TRef sig ⟨S3, .i32⟩) (.of main_call8_v1 : StableHlo.TRef sig ⟨S3, .i32⟩) (.of main_call8_v11 : StableHlo.TRef sig ⟨S3, .i32⟩) select,
    StableHlo.TRef.unary (.of main_call8_v6 : StableHlo.TRef sig ⟨S3, .i32⟩) (.of main_call8_v12 : StableHlo.TRef sig ⟨S3x1, .i32⟩) (broadcastInDim S3x1 ![0] bcast_S3_S3x1_0),
    StableHlo.TRef.unary (.of main_call8_v11 : StableHlo.TRef sig ⟨S3, .i32⟩) (.of main_call8_v13 : StableHlo.TRef sig ⟨S3x1, .i32⟩) (broadcastInDim S3x1 ![0] bcast_S3_S3x1_0),
    StableHlo.TRef.binary (.of main_call8_v12 : StableHlo.TRef sig ⟨S3x1, .i32⟩) (.of main_call8_v13 : StableHlo.TRef sig ⟨S3x1, .i32⟩) (.of main_call8_v14 : StableHlo.TRef sig ⟨S3x2, .i32⟩) (fun a b => concatenate S3x2 1 [⟨S3x1, a⟩, ⟨S3x1, b⟩] concatenates_S3x1_S3x1_S3x2_d1),
    StableHlo.TRef.binary (.of main_arg1 : StableHlo.TRef sig ⟨S32x3x3, .f32⟩) (.of main_call8_v14 : StableHlo.TRef sig ⟨S3x2, .i32⟩) (.of main_v35 : StableHlo.TRef sig ⟨S32x3, .f32⟩) (fun x i => Host.gather gather_S32x3x3_S3x2_S32x3_0_12_n_n_12_1_3211 x i),
    StableHlo.unary main_v35 main_v36 (broadcastInDim S32x1x3 ![0, 2] bcast_S32x3_S32x1x3_0_2 : (⟨S32x3, .f32⟩ : BufTy).Contents (Elt F) → (⟨S32x1x3, .f32⟩ : BufTy).Contents (Elt F)),
    StableHlo.unary main_v36 main_v37 (broadcastInDim S32x523776x3 ![0, 1, 2] bcast_S32x1x3_S32x523776x3_0_1_2 : (⟨S32x1x3, .f32⟩ : BufTy).Contents (Elt F) → (⟨S32x523776x3, .f32⟩ : BufTy).Contents (Elt F)),
    StableHlo.binary main_v34 main_v37 main_v38 (Host.divf : (⟨S32x523776x3, .f32⟩ : BufTy).Contents (Elt F) → (⟨S32x523776x3, .f32⟩ : BufTy).Contents (Elt F) → (⟨S32x523776x3, .f32⟩ : BufTy).Contents (Elt F)),
    StableHlo.TRef.unary (.of main_v38 : StableHlo.TRef sig ⟨S32x523776x3, .f32⟩) (.of main_v39 : StableHlo.TRef sig ⟨S32x523776x3, .f32⟩) Host.roundeven,
    StableHlo.unary main_v36 main_v40 (broadcastInDim S32x523776x3 ![0, 1, 2] bcast_S32x1x3_S32x523776x3_0_1_2 : (⟨S32x1x3, .f32⟩ : BufTy).Contents (Elt F) → (⟨S32x523776x3, .f32⟩ : BufTy).Contents (Elt F)),
    StableHlo.binary main_v39 main_v40 main_v41 (mulf : (⟨S32x523776x3, .f32⟩ : BufTy).Contents (Elt F) → (⟨S32x523776x3, .f32⟩ : BufTy).Contents (Elt F) → (⟨S32x523776x3, .f32⟩ : BufTy).Contents (Elt F)),
    StableHlo.binary main_v34 main_v41 main_v42 (subf : (⟨S32x523776x3, .f32⟩ : BufTy).Contents (Elt F) → (⟨S32x523776x3, .f32⟩ : BufTy).Contents (Elt F) → (⟨S32x523776x3, .f32⟩ : BufTy).Contents (Elt F)),
    StableHlo.nullary main_cst_13 (constant S_ .f32 0x00000000#32),
    StableHlo.unary main_cst_13 main_v43 (broadcastInDim S32x1024x1024x3 ![] bcast_S_S32x1024x1024x3 : (⟨S_, .f32⟩ : BufTy).Contents (Elt F) → (⟨S32x1024x1024x3, .f32⟩ : BufTy).Contents (Elt F)) ]

/-- Every operation of the first list touches TensorCore references only. -/
theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub ..⟩

/-- All of the second window of @main: the two index tables normalised again, broadcast to columns and
    concatenated into the pair table `%56`, the scatter `%57` of the wrapped differences into the zero array,
    its transpose `%58` in the two atom axes, and the difference `%59`, the program's result. -/
abbrev opsE : List (HloOp τ sig (Elt F)) :=
  [ StableHlo.nullary main_c_14 (constantI S_ 32 0#32),
    StableHlo.unary main_c_14 main_v44 (broadcastInDim S523776 ![] bcast_S_S523776 : (⟨S_, .i32⟩ : BufTy).Contents (Elt F) → (⟨S523776, .i32⟩ : BufTy).Contents (Elt F)),
    StableHlo.binary main_v17 main_v44 main_v45 (cmpi .slt : (⟨S523776, .i32⟩ : BufTy).Contents (Elt F) → (⟨S523776, .i32⟩ : BufTy).Contents (Elt F) → (⟨S523776, .i1⟩ : BufTy).Contents (Elt F)),
    StableHlo.nullary main_c_15 (constantI S_ 32 1024#32),
    StableHlo.unary main_c_15 main_v46 (broadcastInDim S523776 ![] bcast_S_S523776 : (⟨S_, .i32⟩ : BufTy).Contents (Elt F) → (⟨S523776, .i32⟩ : BufTy).Contents (Elt F)),
    StableHlo.binary main_v17 main_v46 main_v47 (addi : (⟨S523776, .i32⟩ : BufTy).Contents (Elt F) → (⟨S523776, .i32⟩ : BufTy).Contents (Elt F) → (⟨S523776, .i32⟩ : BufTy).Contents (Elt F)),
    StableHlo.ternary main_v45 main_v47 main_v17 main_v48 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_16 (constantI S_ 32 0#32),
    StableHlo.unary main_c_16 main_v49 (broadcastInDim S523776 ![] bcast_S_S523776 : (⟨S_, .i32⟩ : BufTy).Contents (Elt F) → (⟨S523776, .i32⟩ : BufTy).Contents (Elt F)),
    StableHlo.binary main_v19 main_v49 main_v50 (cmpi .slt : (⟨S523776, .i32⟩ : BufTy).Contents (Elt F) → (⟨S523776, .i32⟩ : BufTy).Contents (Elt F) → (⟨S523776, .i1⟩ : BufTy).Contents (Elt F)),
    StableHlo.nullary main_c_17 (constantI S_ 32 1024#32),
    StableHlo.unary main_c_17 main_v51 (broadcastInDim S523776 ![] bcast_S_S523776 : (⟨S_, .i32⟩ : BufTy).Contents (Elt F) → (⟨S523776, .i32⟩ : BufTy).Contents (Elt F)),
    StableHlo.binary main_v19 main_v51 main_v52 (addi : (⟨S523776, .i32⟩ : BufTy).Contents (Elt F) → (⟨S523776, .i32⟩ : BufTy).Contents (Elt F) → (⟨S523776, .i32⟩ : BufTy).Contents (Elt F)),
    StableHlo.ternary main_v50 main_v52 main_v19 main_v53 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v48 main_v54 (broadcastInDim S523776x1 ![0] bcast_S523776_S523776x1_0 : (⟨S523776, .i32⟩ : BufTy).Contents (Elt F) → (⟨S523776x1, .i32⟩ : BufTy).Contents (Elt F)),
    StableHlo.unary main_v53 main_v55 (broadcastInDim S523776x1 ![0] bcast_S523776_S523776x1_0 : (⟨S523776, .i32⟩ : BufTy).Contents (Elt F) → (⟨S523776x1, .i32⟩ : BufTy).Contents (Elt F)),
    StableHlo.binary main_v54 main_v55 main_v56 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.ternary main_v43 main_v56 main_v42 main_v57 ((fun x i u => Host.scatter scatter_S32x1024x1024x3_S523776x2_S32x523776x3_02_12_12_1 (fun _ b => b) x i u) : (⟨S32x1024x1024x3, .f32⟩ : BufTy).Contents (Elt F) → (⟨S523776x2, .i32⟩ : BufTy).Contents (Elt F) → (⟨S32x523776x3, .f32⟩ : BufTy).Contents (Elt F) → (⟨S32x1024x1024x3, .f32⟩ : BufTy).Contents (Elt F)),
    StableHlo.unary main_v57 main_v58 ((transpose S32x1024x1024x3 [0, 2, 1, 3] · transposes_S32x1024x1024x3_S32x1024x1024x3_0_2_1_3) : (⟨S32x1024x1024x3, .f32⟩ : BufTy).Contents (Elt F) → (⟨S32x1024x1024x3, .f32⟩ : BufTy).Contents (Elt F)),
    StableHlo.binary main_v57 main_v58 main_v59 (subf : (⟨S32x1024x1024x3, .f32⟩ : BufTy).Contents (Elt F) → (⟨S32x1024x1024x3, .f32⟩ : BufTy).Contents (Elt F) → (⟨S32x1024x1024x3, .f32⟩ : BufTy).Contents (Elt F)) ]

/-- Every operation of the second list touches TensorCore references only. -/
theorem opsE_sub : (opsE : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.binary_bufs_sub ..⟩

end Cert.ReferenceIdeal.Hand

end
-- ==== Proof.RefRun.lean ====
/-
  The reference program's run. Its @main is a straight line of 185 StableHLO operations — the module-local
  functions it calls unfolded at their calls, each over that call's own buffers — listed in five consecutive
  stretches; here they are concatenated, @main is shown equal to the line they make, and the line is run: every
  weakly fair execution terminates, each buffer ends at the fold of the operations' results over the launch
  contents, and the two arguments, which no operation writes, end as they began.
-/
import proofs.«180452_j36309653520599_1_alg».proof.Proof.RefOpsABC
import proofs.«180452_j36309653520599_1_alg».proof.Proof.RefOpsDE
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The whole program: the five stretches in order, associated to the right. -/
abbrev ops : List (HloOp τ sig (Elt F)) := opsA ++ (opsB ++ (opsC ++ (opsD ++ opsE)))

set_option maxRecDepth 100000 in
/-- @main is that straight line: the calls unfolded at their records, the two windows one after the other. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, opsE_sub⟩⟩⟩⟩

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- Every operation determines its result: none allocates a buffer at contents not chosen. -/
theorem ops_fresh : ∀ op ∈ (ops : List (HloOp τ sig (Elt F))), op.fresh = ∅ :=
  List.forall_iff_forall_mem.mp (List.forall_append.mpr ⟨opsA_fresh, List.forall_append.mpr ⟨opsB_fresh,
    List.forall_append.mpr ⟨opsC_fresh, List.forall_append.mpr ⟨opsD_fresh, opsE_fresh⟩⟩⟩⟩)

/-- On every device, for any float values, from any memory with zero counters: every weakly fair execution of
    @main terminates, and every final state has each TensorCore buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- A singleton of a listed reference lies in the listed references. -/
theorem single_sub_list {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

/-- The references the operations of `opsA` write, in order. -/
abbrev WA : List (Ref sig .tc) :=
  [main_cst, main_v0, main_call0.v0.ref, main_call0.c.ref, main_call0.v1.ref, main_call0.v2.ref, main_call0.v3.ref, main_call0.v4.ref, main_call0.cst.ref, main_call0.v5.ref, main_call0.v6.ref, main_cst_0, main_v2, main_v3, main_call1.v0.ref, main_call1.v1.ref, main_call1.call0.c.ref, main_call1.call0.v0.ref, main_call1.call0.v1.ref]

theorem opsA_writes : (opsA : List (HloOp τ sig (Elt F))).Forall fun op => op.writes ⊆ ((WA).map (Proc.devRef (τ := τ) .tc)).toFinset :=
  ⟨single_sub_list main_cst (by decide),
   single_sub_list main_v0 (by decide),
   single_sub_list main_call0.v0.ref (by decide),
   single_sub_list main_call0.c.ref (by decide),
   single_sub_list main_call0.v1.ref (by decide),
   single_sub_list main_call0.v2.ref (by decide),
   single_sub_list main_call0.v3.ref (by decide),
   single_sub_list main_call0.v4.ref (by decide),
   single_sub_list main_call0.cst.ref (by decide),
   single_sub_list main_call0.v5.ref (by decide),
   single_sub_list main_call0.v6.ref (by decide),
   single_sub_list main_cst_0 (by decide),
   single_sub_list main_v2 (by decide),
   single_sub_list main_v3 (by decide),
   single_sub_list main_call1.v0.ref (by decide),
   single_sub_list main_call1.v1.ref (by decide),
   single_sub_list main_call1.call0.c.ref (by decide),
   single_sub_list main_call1.call0.v0.ref (by decide),
   single_sub_list main_call1.call0.v1.ref (by decide)⟩

theorem opsA_keeps {r : Ref sig .tc} (hr : r ∉ WA) (V : Valuation τ sig (Elt F)) :
    after opsA V (Proc.devRef .tc r) = V (Proc.devRef .tc r) :=
  after_of_writes_sub opsA V opsA_writes hr

/-- The references the operations of `opsB` write, in order. -/
abbrev WB : List (Ref sig .tc) :=
  [main_c, main_v5, main_c_1, main_call2.v0.ref, main_call2.v1.ref, main_call2.v2.ref, main_c_2, main_v7, main_v8, main_c_3, main_v9, main_v10, main_v11, main_v12, main_c_4, main_v13, main_v14, main_call3.call0.c.ref, main_call3.call0.v0.ref, main_call3.call0.v1.ref]

theorem opsB_writes : (opsB : List (HloOp τ sig (Elt F))).Forall fun op => op.writes ⊆ ((WB).map (Proc.devRef (τ := τ) .tc)).toFinset :=
  ⟨single_sub_list main_c (by decide),
   single_sub_list main_v5 (by decide),
   single_sub_list main_c_1 (by decide),
   single_sub_list main_call2.v0.ref (by decide),
   single_sub_list main_call2.v1.ref (by decide),
   single_sub_list main_call2.v2.ref (by decide),
   single_sub_list main_c_2 (by decide),
   single_sub_list main_v7 (by decide),
   single_sub_list main_v8 (by decide),
   single_sub_list main_c_3 (by decide),
   single_sub_list main_v9 (by decide),
   single_sub_list main_v10 (by decide),
   single_sub_list main_v11 (by decide),
   single_sub_list main_v12 (by decide),
   single_sub_list main_c_4 (by decide),
   single_sub_list main_v13 (by decide),
   single_sub_list main_v14 (by decide),
   single_sub_list main_call3.call0.c.ref (by decide),
   single_sub_list main_call3.call0.v0.ref (by decide),
   single_sub_list main_call3.call0.v1.ref (by decide)⟩

theorem opsB_keeps {r : Ref sig .tc} (hr : r ∉ WB) (V : Valuation τ sig (Elt F)) :
    after opsB V (Proc.devRef .tc r) = V (Proc.devRef .tc r) :=
  after_of_writes_sub opsB V opsB_writes hr

/-- The references the operations of `opsC` write, in order. -/
abbrev WC : List (Ref sig .tc) :=
  [main_c_5, main_call4.v0.ref, main_call4.v1.ref, main_call4.v2.ref, main_call4.v3.ref, main_call4.v4.ref, main_call4.v5.ref, main_call4.v6.ref, main_call4.v7.ref, main_call4.c.ref, main_call4.v8.ref, main_call4.v9.ref, main_call4.v10.ref, main_call4.c_0.ref, main_call4.v11.ref, main_call4.v12.ref, main_call4.call0.v0.ref, main_c_6, main_call5.v0.ref, main_call5.c.ref, main_call5.v1.ref, main_call5.c_0.ref, main_call5.call0.v0.ref, main_call5.v3.ref, main_call5.v4.ref, main_call5.c_1.ref, main_call5.v5.ref, main_call5.v6.ref, main_call5.c_2.ref, main_call5.v7.ref, main_call5.v8.ref, main_call5.c_3.ref, main_call5.v9.ref, main_call5.v10.ref, main_call5.v11.ref, main_call5.v12.ref, main_call5.v13.ref, main_call5.v14.ref, main_call5.v15.ref, main_c_7, main_call6.v0.ref, main_call6.v1.ref, main_call6.v2.ref, main_call6.v3.ref, main_call6.v4.ref, main_call6.v5.ref, main_call6.v6.ref, main_call6.v7.ref, main_call6.c.ref, main_call6.v8.ref, main_call6.v9.ref, main_call6.v10.ref, main_call6.c_0.ref, main_call6.v11.ref, main_call6.v12.ref, main_call6.call0.v0.ref, main_c_8, main_call7.v0.ref, main_call7.c.ref, main_call7.v1.ref, main_call7.c_0.ref, main_call7.call0.v0.ref, main_call7.v3.ref, main_call7.v4.ref, main_call7.c_1.ref, main_call7.v5.ref, main_call7.v6.ref, main_call7.c_2.ref, main_call7.v7.ref, main_call7.v8.ref, main_call7.c_3.ref, main_call7.v9.ref, main_call7.v10.ref, main_call7.v11.ref, main_call7.v12.ref, main_call7.v13.ref, main_call7.v14.ref, main_call7.v15.ref]

theorem opsC_writes : (opsC : List (HloOp τ sig (Elt F))).Forall fun op => op.writes ⊆ ((WC).map (Proc.devRef (τ := τ) .tc)).toFinset :=
  ⟨single_sub_list main_c_5 (by decide),
   single_sub_list main_call4.v0.ref (by decide),
   single_sub_list main_call4.v1.ref (by decide),
   single_sub_list main_call4.v2.ref (by decide),
   single_sub_list main_call4.v3.ref (by decide),
   single_sub_list main_call4.v4.ref (by decide),
   single_sub_list main_call4.v5.ref (by decide),
   single_sub_list main_call4.v6.ref (by decide),
   single_sub_list main_call4.v7.ref (by decide),
   single_sub_list main_call4.c.ref (by decide),
   single_sub_list main_call4.v8.ref (by decide),
   single_sub_list main_call4.v9.ref (by decide),
   single_sub_list main_call4.v10.ref (by decide),
   single_sub_list main_call4.c_0.ref (by decide),
   single_sub_list main_call4.v11.ref (by decide),
   single_sub_list main_call4.v12.ref (by decide),
   single_sub_list main_call4.call0.v0.ref (by decide),
   single_sub_list main_c_6 (by decide),
   single_sub_list main_call5.v0.ref (by decide),
   single_sub_list main_call5.c.ref (by decide),
   single_sub_list main_call5.v1.ref (by decide),
   single_sub_list main_call5.c_0.ref (by decide),
   single_sub_list main_call5.call0.v0.ref (by decide),
   single_sub_list main_call5.v3.ref (by decide),
   single_sub_list main_call5.v4.ref (by decide),
   single_sub_list main_call5.c_1.ref (by decide),
   single_sub_list main_call5.v5.ref (by decide),
   single_sub_list main_call5.v6.ref (by decide),
   single_sub_list main_call5.c_2.ref (by decide),
   single_sub_list main_call5.v7.ref (by decide),
   single_sub_list main_call5.v8.ref (by decide),
   single_sub_list main_call5.c_3.ref (by decide),
   single_sub_list main_call5.v9.ref (by decide),
   single_sub_list main_call5.v10.ref (by decide),
   single_sub_list main_call5.v11.ref (by decide),
   single_sub_list main_call5.v12.ref (by decide),
   single_sub_list main_call5.v13.ref (by decide),
   single_sub_list main_call5.v14.ref (by decide),
   single_sub_list main_call5.v15.ref (by decide),
   single_sub_list main_c_7 (by decide),
   single_sub_list main_call6.v0.ref (by decide),
   single_sub_list main_call6.v1.ref (by decide),
   single_sub_list main_call6.v2.ref (by decide),
   single_sub_list main_call6.v3.ref (by decide),
   single_sub_list main_call6.v4.ref (by decide),
   single_sub_list main_call6.v5.ref (by decide),
   single_sub_list main_call6.v6.ref (by decide),
   single_sub_list main_call6.v7.ref (by decide),
   single_sub_list main_call6.c.ref (by decide),
   single_sub_list main_call6.v8.ref (by decide),
   single_sub_list main_call6.v9.ref (by decide),
   single_sub_list main_call6.v10.ref (by decide),
   single_sub_list main_call6.c_0.ref (by decide),
   single_sub_list main_call6.v11.ref (by decide),
   single_sub_list main_call6.v12.ref (by decide),
   single_sub_list main_call6.call0.v0.ref (by decide),
   single_sub_list main_c_8 (by decide),
   single_sub_list main_call7.v0.ref (by decide),
   single_sub_list main_call7.c.ref (by decide),
   single_sub_list main_call7.v1.ref (by decide),
   single_sub_list main_call7.c_0.ref (by decide),
   single_sub_list main_call7.call0.v0.ref (by decide),
   single_sub_list main_call7.v3.ref (by decide),
   single_sub_list main_call7.v4.ref (by decide),
   single_sub_list main_call7.c_1.ref (by decide),
   single_sub_list main_call7.v5.ref (by decide),
   single_sub_list main_call7.v6.ref (by decide),
   single_sub_list main_call7.c_2.ref (by decide),
   single_sub_list main_call7.v7.ref (by decide),
   single_sub_list main_call7.v8.ref (by decide),
   single_sub_list main_call7.c_3.ref (by decide),
   single_sub_list main_call7.v9.ref (by decide),
   single_sub_list main_call7.v10.ref (by decide),
   single_sub_list main_call7.v11.ref (by decide),
   single_sub_list main_call7.v12.ref (by decide),
   single_sub_list main_call7.v13.ref (by decide),
   single_sub_list main_call7.v14.ref (by decide),
   single_sub_list main_call7.v15.ref (by decide)⟩

theorem opsC_keeps {r : Ref sig .tc} (hr : r ∉ WC) (V : Valuation τ sig (Elt F)) :
    after opsC V (Proc.devRef .tc r) = V (Proc.devRef .tc r) :=
  after_of_writes_sub opsC V opsC_writes hr

/-- The references the operations of `opsD` write, in order. -/
abbrev WD : List (Ref sig .tc) :=
  [main_c_9, main_v20, main_v21, main_c_10, main_v22, main_v23, main_v24, main_v25, main_v26, main_c_11, main_v27, main_v28, main_c_12, main_v29, main_v30, main_v31, main_v32, main_v33, main_v34, main_call8.v0.ref, main_call8.v1.ref, main_call8.c.ref, main_call8.v2.ref, main_call8.v3.ref, main_call8.c_0.ref, main_call8.v4.ref, main_call8.v5.ref, main_call8.v6.ref, main_call8.c_1.ref, main_call8.v7.ref, main_call8.v8.ref, main_call8.c_2.ref, main_call8.v9.ref, main_call8.v10.ref, main_call8.v11.ref, main_call8.v12.ref, main_call8.v13.ref, main_call8.v14.ref, main_call8.v15.ref, main_v36, main_v37, main_v38, main_call9.v0.ref, main_v40, main_v41, main_v42, main_cst_13, main_v43]

theorem opsD_writes : (opsD : List (HloOp τ sig (Elt F))).Forall fun op => op.writes ⊆ ((WD).map (Proc.devRef (τ := τ) .tc)).toFinset :=
  ⟨single_sub_list main_c_9 (by decide),
   single_sub_list main_v20 (by decide),
   single_sub_list main_v21 (by decide),
   single_sub_list main_c_10 (by decide),
   single_sub_list main_v22 (by decide),
   single_sub_list main_v23 (by decide),
   single_sub_list main_v24 (by decide),
   single_sub_list main_v25 (by decide),
   single_sub_list main_v26 (by decide),
   single_sub_list main_c_11 (by decide),
   single_sub_list main_v27 (by decide),
   single_sub_list main_v28 (by decide),
   single_sub_list main_c_12 (by decide),
   single_sub_list main_v29 (by decide),
   single_sub_list main_v30 (by decide),
   single_sub_list main_v31 (by decide),
   single_sub_list main_v32 (by decide),
   single_sub_list main_v33 (by decide),
   single_sub_list main_v34 (by decide),
   single_sub_list main_call8.v0.ref (by decide),
   single_sub_list main_call8.v1.ref (by decide),
   single_sub_list main_call8.c.ref (by decide),
   single_sub_list main_call8.v2.ref (by decide),
   single_sub_list main_call8.v3.ref (by decide),
   single_sub_list main_call8.c_0.ref (by decide),
   single_sub_list main_call8.v4.ref (by decide),
   single_sub_list main_call8.v5.ref (by decide),
   single_sub_list main_call8.v6.ref (by decide),
   single_sub_list main_call8.c_1.ref (by decide),
   single_sub_list main_call8.v7.ref (by decide),
   single_sub_list main_call8.v8.ref (by decide),
   single_sub_list main_call8.c_2.ref (by decide),
   single_sub_list main_call8.v9.ref (by decide),
   single_sub_list main_call8.v10.ref (by decide),
   single_sub_list main_call8.v11.ref (by decide),
   single_sub_list main_call8.v12.ref (by decide),
   single_sub_list main_call8.v13.ref (by decide),
   single_sub_list main_call8.v14.ref (by decide),
   single_sub_list main_call8.v15.ref (by decide),
   single_sub_list main_v36 (by decide),
   single_sub_list main_v37 (by decide),
   single_sub_list main_v38 (by decide),
   single_sub_list main_call9.v0.ref (by decide),
   single_sub_list main_v40 (by decide),
   single_sub_list main_v41 (by decide),
   single_sub_list main_v42 (by decide),
   single_sub_list main_cst_13 (by decide),
   single_sub_list main_v43 (by decide)⟩

theorem opsD_keeps {r : Ref sig .tc} (hr : r ∉ WD) (V : Valuation τ sig (Elt F)) :
    after opsD V (Proc.devRef .tc r) = V (Proc.devRef .tc r) :=
  after_of_writes_sub opsD V opsD_writes hr

/-- The references the operations of `opsE` write, in order. -/
abbrev WE : List (Ref sig .tc) :=
  [main_c_14, main_v44, main_v45, main_c_15, main_v46, main_v47, main_v48, main_c_16, main_v49, main_v50, main_c_17, main_v51, main_v52, main_v53, main_v54, main_v55, main_v56, main_v57, main_v58, main_v59]

theorem opsE_writes : (opsE : List (HloOp τ sig (Elt F))).Forall fun op => op.writes ⊆ ((WE).map (Proc.devRef (τ := τ) .tc)).toFinset :=
  ⟨single_sub_list main_c_14 (by decide),
   single_sub_list main_v44 (by decide),
   single_sub_list main_v45 (by decide),
   single_sub_list main_c_15 (by decide),
   single_sub_list main_v46 (by decide),
   single_sub_list main_v47 (by decide),
   single_sub_list main_v48 (by decide),
   single_sub_list main_c_16 (by decide),
   single_sub_list main_v49 (by decide),
   single_sub_list main_v50 (by decide),
   single_sub_list main_c_17 (by decide),
   single_sub_list main_v51 (by decide),
   single_sub_list main_v52 (by decide),
   single_sub_list main_v53 (by decide),
   single_sub_list main_v54 (by decide),
   single_sub_list main_v55 (by decide),
   single_sub_list main_v56 (by decide),
   single_sub_list main_v57 (by decide),
   single_sub_list main_v58 (by decide),
   single_sub_list main_v59 (by decide)⟩

theorem opsE_keeps {r : Ref sig .tc} (hr : r ∉ WE) (V : Valuation τ sig (Elt F)) :
    after opsE V (Proc.devRef .tc r) = V (Proc.devRef .tc r) :=
  after_of_writes_sub opsE V opsE_writes hr

/-- A reference no stretch writes keeps its contents through the whole program. -/
theorem ops_keeps {r : Ref sig .tc} (hA : r ∉ WA) (hB : r ∉ WB) (hC : r ∉ WC) (hD : r ∉ WD) (hE : r ∉ WE)
    (V : Valuation τ sig (Elt F)) : after ops V (Proc.devRef .tc r) = V (Proc.devRef .tc r) := by
  rw [after_append, after_append, after_append, after_append, opsE_keeps hE, opsD_keeps hD, opsC_keeps hC,
    opsB_keeps hB, opsA_keeps hA]

/-- The fold over the whole program, stretch by stretch. -/
theorem after_ops (V : Valuation τ sig (Elt F)) :
    after ops V = after opsE (after opsD (after opsC (after opsB (after opsA V)))) := by
  rw [after_append, after_append, after_append, after_append]

/-- No operation writes the first argument. -/
theorem arg0_kept (V : Valuation τ sig (Elt F)) :
    after ops V (Proc.devRef .tc main_arg0) = V (Proc.devRef .tc main_arg0) :=
  ops_keeps (by decide) (by decide) (by decide) (by decide) (by decide) V

/-- No operation writes the second argument. -/
theorem arg1_kept (V : Valuation τ sig (Elt F)) :
    after ops V (Proc.devRef .tc main_arg1) = V (Proc.devRef .tc main_arg1) :=
  ops_keeps (by decide) (by decide) (by decide) (by decide) (by decide) V

/-- The reference's frame: every weakly fair execution terminates with both arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (arg0_kept _), (h c main_arg1).trans (arg1_kept _)⟩)
    (run m ρ)

end Cert.ReferenceIdeal.Hand

end
-- ==== Proof.Count.lean ====
/- The p-th set position of a Boolean mask, computed as a count.  For a mask `m` on ℕ, `cnt m k` is the
   inclusive running count of set positions up to `k`, and `sel m M p` counts the positions `k < M` whose
   running count is at most `p`.  Because the running count is monotone with steps 0 or 1, that set of
   positions is an initial segment, and its length is the position of the (p+1)-th set element.  The last
   part instantiates this at the strict upper triangle of a 1024 × 1024 mask, flattened row-major. -/
import Mathlib.Data.Finset.Card
import Mathlib.Algebra.BigOperators.Group.Finset.Basic
import Mathlib.Order.Interval.Finset.Nat
import Mathlib.Tactic

namespace Cert.Proof.Count

/-- inclusive running count of the set positions of `m` among `0, …, k` -/
def cnt (m : ℕ → Bool) (k : ℕ) : ℕ := ((Finset.range (k + 1)).filter fun k' => m k' = true).card

/-- the number of positions `k < M` whose running count is at most `p` -/
def sel (m : ℕ → Bool) (M p : ℕ) : ℕ := ((Finset.range M).filter fun k => cnt m k ≤ p).card

theorem cnt_mono (m : ℕ → Bool) {k k' : ℕ} (h : k ≤ k') : cnt m k ≤ cnt m k' := by
  unfold cnt
  apply Finset.card_le_card
  apply Finset.filter_subset_filter
  exact Finset.range_mono (by omega)

theorem cnt_succ (m : ℕ → Bool) (k : ℕ) :
    cnt m (k + 1) = cnt m k + (if m (k + 1) = true then 1 else 0) := by
  unfold cnt
  rw [Finset.range_add_one, Finset.filter_insert]
  split_ifs with h
  · rw [Finset.card_insert_of_notMem]
    simp
  · simp

theorem cnt_zero (m : ℕ → Bool) : cnt m 0 = if m 0 = true then 1 else 0 := by
  unfold cnt
  rw [Finset.range_one, Finset.filter_singleton]
  split_ifs <;> simp

theorem cnt_le (m : ℕ → Bool) (k : ℕ) : cnt m k ≤ k + 1 := by
  unfold cnt
  calc _ ≤ (Finset.range (k + 1)).card := Finset.card_filter_le _ _
    _ = k + 1 := Finset.card_range _

theorem sel_le (m : ℕ → Bool) (M p : ℕ) : sel m M p ≤ M := by
  unfold sel
  calc _ ≤ (Finset.range M).card := Finset.card_filter_le _ _
    _ = M := Finset.card_range _

theorem cnt_pos_of_set {m : ℕ → Bool} {k : ℕ} (hm : m k = true) : 0 < cnt m k := by
  cases k with
  | zero => rw [cnt_zero, if_pos hm]; exact Nat.one_pos
  | succ k => rw [cnt_succ, if_pos hm]; omega

/-- If the running count first exceeds `p` at `k < M`, then the positions below `M` with running count
    at most `p` are exactly `0, …, k - 1`, so `sel m M p = k`. -/
theorem sel_eq_of_first {m : ℕ → Bool} {M p k : ℕ} (hk : k < M) (h1 : p < cnt m k)
    (h2 : ∀ k', k' < k → cnt m k' ≤ p) : sel m M p = k := by
  unfold sel
  have : ((Finset.range M).filter fun x => cnt m x ≤ p) = Finset.range k := by
    ext x
    simp only [Finset.mem_filter, Finset.mem_range]
    constructor
    · rintro ⟨_, hx⟩
      by_contra hc
      have := cnt_mono m (Nat.le_of_not_lt hc)
      omega
    · intro hx
      exact ⟨by omega, h2 x hx⟩
  rw [this, Finset.card_range]

/-- Below the total count, there is a first position where the running count exceeds `p`; `sel` is that
    position, it lies below `M`, it is set, and the running count there is exactly `p + 1`. -/
theorem sel_spec {m : ℕ → Bool} {M p : ℕ} (hM : 0 < M) (hp : p < cnt m (M - 1)) :
    sel m M p < M ∧ m (sel m M p) = true ∧ cnt m (sel m M p) = p + 1 := by
  have hex : ∃ k, p < cnt m k := ⟨M - 1, hp⟩
  have hF1 : p < cnt m (Nat.find hex) := Nat.find_spec hex
  have hF2 : ∀ k', k' < Nat.find hex → cnt m k' ≤ p := fun k' hk' =>
    Nat.le_of_not_lt (Nat.find_min hex hk')
  have hFM : Nat.find hex < M := by
    have := Nat.find_min' hex hp
    omega
  have hsel : sel m M p = Nat.find hex := sel_eq_of_first hFM hF1 hF2
  rw [hsel]
  refine ⟨hFM, ?_⟩
  generalize Nat.find hex = F at hF1 hF2
  cases F with
  | zero =>
    rw [cnt_zero] at hF1
    split_ifs at hF1 with h0
    · refine ⟨h0, ?_⟩
      rw [cnt_zero, if_pos h0]; omega
    · omega
  | succ F =>
    have hF := hF2 F (Nat.lt_succ_self F)
    rw [cnt_succ] at hF1
    split_ifs at hF1 with h0
    · refine ⟨h0, ?_⟩
      rw [cnt_succ, if_pos h0]; omega
    · omega

theorem sel_lt {m : ℕ → Bool} {M p : ℕ} (hM : 0 < M) (hp : p < cnt m (M - 1)) : sel m M p < M :=
  (sel_spec hM hp).1

theorem sel_set {m : ℕ → Bool} {M p : ℕ} (hM : 0 < M) (hp : p < cnt m (M - 1)) :
    m (sel m M p) = true :=
  (sel_spec hM hp).2.1

theorem cnt_sel {m : ℕ → Bool} {M p : ℕ} (hM : 0 < M) (hp : p < cnt m (M - 1)) :
    cnt m (sel m M p) = p + 1 :=
  (sel_spec hM hp).2.2

theorem sel_cnt {m : ℕ → Bool} {M k : ℕ} (hk : k < M) (hm : m k = true) :
    sel m M (cnt m k - 1) = k := by
  have hpos := cnt_pos_of_set hm
  apply sel_eq_of_first hk (by omega)
  intro k' hk'
  cases k with
  | zero => omega
  | succ k =>
    have h1 := cnt_mono m (show k' ≤ k by omega)
    rw [cnt_succ, if_pos hm]
    omega

/-- the strict upper triangle of a 1024 × 1024 mask, at flat index `k = 1024 * i + j`: set iff `i < j` -/
def tri (k : ℕ) : Bool := decide (k / 1024 < k % 1024)

/-- In row `n` of the triangle, the set columns are `n + 1, …, 1023`. -/
theorem tri_row (n : ℕ) (hn : n < 1024) :
    ((Finset.range 1024).filter fun x => n < x).card = 1023 - n := by
  have : ((Finset.range 1024).filter fun x => n < x) = Finset.Ioo n 1024 := by
    ext x
    simp only [Finset.mem_filter, Finset.mem_range, Finset.mem_Ioo]
    omega
  rw [this, Nat.card_Ioo]
  omega

/-- Counting the triangle row by row (Gauss): the first `n` rows hold `1023 + 1022 + … + (1024 - n)` set
    positions, stated without division as `2 * count + n * n = 2047 * n`. -/
theorem tri_rows (n : ℕ) (hn : n ≤ 1024) :
    2 * ((Finset.range (1024 * n)).filter fun k => tri k = true).card + n * n = 2047 * n := by
  induction n with
  | zero => simp
  | succ n ih =>
    have ih := ih (by omega)
    have hrow : (∑ x ∈ Finset.range 1024, if tri (1024 * n + x) = true then 1 else 0) = 1023 - n := by
      rw [← tri_row n (by omega), Finset.card_filter]
      apply Finset.sum_congr rfl
      intro x hx
      have hx' : x < 1024 := Finset.mem_range.mp hx
      have h1 : (1024 * n + x) / 1024 = n := by omega
      have h2 : (1024 * n + x) % 1024 = x := by omega
      simp only [tri, h1, h2, decide_eq_true_eq]
    have hsplit : ((Finset.range (1024 * (n + 1))).filter fun k => tri k = true).card
        = ((Finset.range (1024 * n)).filter fun k => tri k = true).card + (1023 - n) := by
      rw [Finset.card_filter, Finset.card_filter, show 1024 * (n + 1) = 1024 * n + 1024 by ring,
        Finset.sum_range_add, hrow]
    rw [hsplit]
    have : n * n + 2 * n + 1 = (n + 1) * (n + 1) := by ring
    omega

theorem tri_total : cnt tri (1048576 - 1) = 523776 := by
  have h := tri_rows 1024 (le_refl _)
  unfold cnt
  rw [show (1048576 - 1 + 1 : ℕ) = 1024 * 1024 from rfl]
  generalize ((Finset.range (1024 * 1024)).filter fun k => tri k = true).card = c at h ⊢
  omega

theorem tri_lt {p : ℕ} (hp : p < 523776) :
    sel tri 1048576 p / 1024 < sel tri 1048576 p % 1024 := by
  have h : tri (sel tri 1048576 p) = true :=
    sel_set (m := tri) (M := 1048576) (p := p) (by omega) (by rw [tri_total]; exact hp)
  unfold tri at h
  exact of_decide_eq_true h

theorem tri_sel_lt {p : ℕ} (hp : p < 523776) : sel tri 1048576 p < 1048576 :=
  sel_lt (m := tri) (M := 1048576) (p := p) (by omega) (by rw [tri_total]; exact hp)

theorem tri_surj {i j : ℕ} (hj : j < 1024) (hij : i < j) :
    ∃ p, p < 523776 ∧ sel tri 1048576 p = 1024 * i + j := by
  have hk : 1024 * i + j < 1048576 := by omega
  have hm : tri (1024 * i + j) = true := by
    have h1 : (1024 * i + j) / 1024 = i := by omega
    have h2 : (1024 * i + j) % 1024 = j := by omega
    simp only [tri, h1, h2, decide_eq_true_eq]
    exact hij
  refine ⟨cnt tri (1024 * i + j) - 1, ?_, sel_cnt hk hm⟩
  have hpos := cnt_pos_of_set hm
  have hle := cnt_mono tri (show 1024 * i + j ≤ 1048576 - 1 by omega)
  rw [tri_total] at hle
  omega

end Cert.Proof.Count
-- ==== Proof.Folds.lean ====
/- Three facts about the host model's folds: an integer cumulative sum written as a window reduction, an integer
   scatter-add of ones read as a count, and a scatter that writes agreeing updates. -/
import Idealize.ShloMosaic.Lib.ValueIdx

noncomputable section

open scoped BigOperators

namespace Cert.Proof.Folds

open Idealize.ShloMosaic Idealize.ShloMosaic.ValueIdx

/-! ## A scatter read at one element -/

/-- The fold of the scatter's step over a list of update positions, read at an element no listed update lands on: the
    starting value there. -/
private theorem foldl_miss {α : Type} {s si u : Shape} {w : Nat} (d : ScatterDims s si u) (f : α → α → α)
    (idx : IVec si w) (upd : u.Idx → α) (i : s.Idx) (l : List (Fin u.numel))
    (miss : ∀ n ∈ l, d.resultIdx? (u.rowMajor.symm n) idx ≠ some i) :
    ∀ r : s.Idx → α,
    (l.foldl (fun r n =>
      match d.resultIdx? (u.rowMajor.symm n) idx with
      | some i => fun i' => if i' = i then f (r i) (upd (u.rowMajor.symm n)) else r i'
      | none => r) r) i = r i := by
  induction l with
  | nil => intro r; rfl
  | cons n l ih =>
    intro r
    rw [List.foldl_cons, ih (fun m hm => miss m (List.mem_cons_of_mem _ hm))]
    have hn := miss n (List.mem_cons_self)
    generalize d.resultIdx? (u.rowMajor.symm n) idx = o at hn ⊢
    cases o with
    | none => rfl
    | some i0 =>
      have : i ≠ i0 := fun e => hn (e ▸ rfl)
      show (if i = i0 then _ else r i) = r i
      rw [if_neg this]

open Classical in
/-- The same fold with the body that returns the update, every update carrying the value `g` of the element it lands
    on: `g` where a listed update lands, the starting value elsewhere. -/
private theorem foldl_set {α : Type} {s si u : Shape} {w : Nat} (d : ScatterDims s si u)
    (idx : IVec si w) (upd : u.Idx → α) (g : s.Idx → α)
    (hg : ∀ n i, d.resultIdx? n idx = some i → upd n = g i) (i : s.Idx) (l : List (Fin u.numel)) :
    ∀ r : s.Idx → α,
    (l.foldl (fun r n =>
      match d.resultIdx? (u.rowMajor.symm n) idx with
      | some i => fun i' => if i' = i then (fun _ b => b) (r i) (upd (u.rowMajor.symm n)) else r i'
      | none => r) r) i
      = if ∃ n ∈ l, d.resultIdx? (u.rowMajor.symm n) idx = some i then g i else r i := by
  induction l with
  | nil => intro r; simp
  | cons n l ih =>
    intro r
    rw [List.foldl_cons, ih]
    have hB : (∃ m ∈ n :: l, d.resultIdx? (u.rowMajor.symm m) idx = some i) ↔
        (d.resultIdx? (u.rowMajor.symm n) idx = some i ∨
          ∃ m ∈ l, d.resultIdx? (u.rowMajor.symm m) idx = some i) := by
      simp only [List.mem_cons, exists_eq_or_imp]
    by_cases hA : ∃ m ∈ l, d.resultIdx? (u.rowMajor.symm m) idx = some i
    · rw [if_pos hA, if_pos (hB.2 (Or.inr hA))]
    · rw [if_neg hA]
      cases ho : d.resultIdx? (u.rowMajor.symm n) idx with
      | none =>
        rw [if_neg (fun hb => (hB.1 hb).elim (fun h => by rw [ho] at h; cases h) hA)]
      | some i0 =>
        show (if i = i0 then upd (u.rowMajor.symm n) else r i) = _
        by_cases e : i = i0
        · subst e
          rw [if_pos rfl, if_pos (hB.2 (Or.inl ho)), hg _ _ ho]
        · rw [if_neg e, if_neg (fun hb => (hB.1 hb).elim
            (fun h => e (by rw [ho] at h; exact (Option.some.inj h).symm)) hA)]

/-- A scatter read at an element no update lands on: the operand's value, whatever the body. -/
theorem scatter_of_miss {α : Type} {s si u : Shape} {w : Nat} (d : ScatterDims s si u) (f : α → α → α)
    (x : s.Idx → α) (idx : IVec si w) (upd : u.Idx → α) (i : s.Idx)
    (miss : ∀ n, d.resultIdx? n idx ≠ some i) :
    Host.scatter d f x idx upd i = x i :=
  foldl_miss d f idx upd i _ (fun n _ => miss _) x

/-- A scatter whose body returns the update, every update carrying the value `g` of the element it lands on, read at
    an element some update lands on: `g` there. -/
theorem scatter_set_of_hit {α : Type} {s si u : Shape} {w : Nat} (d : ScatterDims s si u) (x : s.Idx → α)
    (idx : IVec si w) (upd : u.Idx → α) (g : s.Idx → α)
    (hg : ∀ n i, d.resultIdx? n idx = some i → upd n = g i) (i : s.Idx)
    (hit : ∃ n, d.resultIdx? n idx = some i) :
    Host.scatter d (fun _ b => b) x idx upd i = g i := by
  obtain ⟨n, hn⟩ := hit
  have := foldl_set d idx upd g hg i (List.finRange u.numel) x
  rw [if_pos ⟨u.rowMajor n, List.mem_finRange _, by rw [Equiv.symm_apply_apply]; exact hn⟩] at this
  exact this

/-- The same scatter read at an element no update lands on: the operand's value. -/
theorem scatter_set_of_miss {α : Type} {s si u : Shape} {w : Nat} (d : ScatterDims s si u) (x : s.Idx → α)
    (idx : IVec si w) (upd : u.Idx → α) (i : s.Idx)
    (miss : ∀ n, d.resultIdx? n idx ≠ some i) :
    Host.scatter d (fun _ b => b) x idx upd i = x i :=
  scatter_of_miss d _ x idx upd i miss

/-- Both cases in one statement. -/
theorem scatter_set_apply {α : Type} {s si u : Shape} {w : Nat} (d : ScatterDims s si u) (x : s.Idx → α)
    (idx : IVec si w) (upd : u.Idx → α) (g : s.Idx → α)
    (hg : ∀ n i, d.resultIdx? n idx = some i → upd n = g i) (i : s.Idx)
    [Decidable (∃ n, d.resultIdx? n idx = some i)] :
    Host.scatter d (fun _ b => b) x idx upd i = if ∃ n, d.resultIdx? n idx = some i then g i else x i := by
  split_ifs with hit
  · exact scatter_set_of_hit d x idx upd g hg i hit
  · exact scatter_set_of_miss d x idx upd i (fun n hn => hit ⟨n, hn⟩)

/-! ## A cumulative sum written as a window reduction -/

/-- A left fold of 32-bit additions from the word of `a` is the word of `a` plus the sum of the summands' values. -/
theorem foldl_addi {ι : Type} (G : ι → BitVec 32) (l : List ι) :
    ∀ a : ℕ, l.foldl (fun r n => IntOp.addi r (G n)) (BitVec.ofNat 32 a)
      = BitVec.ofNat 32 (a + (l.map fun n => (G n).toNat).sum) := by
  induction l with
  | nil => intro a; simp
  | cons n l ih =>
    intro a
    have e : IntOp.addi (BitVec.ofNat 32 a) (G n) = BitVec.ofNat 32 (a + (G n).toNat) := by
      unfold IntOp.addi
      rw [BitVec.ofNat_add, BitVec.ofNat_toNat, BitVec.setWidth_eq]
    rw [List.foldl_cons, e, ih, List.map_cons, List.sum_cons, Nat.add_assoc]

/-- A rank-1 shape has as many elements as its one extent. -/
theorem numel_one (N : ℕ) : (⟨1, ![N]⟩ : Shape).numel = N := by
  simp [Shape.numel]

/-- The rank-1 index at row-major position `n` has the coordinate `n`. -/
theorem rowMajor_symm_one (N : ℕ) (n : Fin (⟨1, ![N]⟩ : Shape).numel) :
    (((⟨1, ![N]⟩ : Shape).rowMajor.symm n) 0).val = n.val := by
  have := Shape.rowMajor_val_one (d := ![N]) ((⟨1, ![N]⟩ : Shape).rowMajor.symm n)
  rw [Equiv.apply_symm_apply] at this
  exact this.symm

/-- jax's cumulative sum of a 32-bit vector of length `N` — the window reduction by addition from zero over a window of
    `N` positions, padded `N - 1` low — at `j`: the word of the sum of the first `j + 1` elements' values. -/
theorem cumsum_apply (N lo : ℕ) (hlo : lo + 1 = N) (x : (⟨1, ![N]⟩ : Shape).Idx → BitVec 32)
    (init : (⟨0, ![]⟩ : Shape).Idx → BitVec 32) (hinit : init = fun _ => 0#32)
    (h : (⟨1, ![N]⟩ : Shape).ReduceWindows ![N] ![1] ![lo] ![0] ⟨1, ![N]⟩)
    (hu : 0 < (⟨0, ![]⟩ : Shape).numel) (j : (⟨1, ![N]⟩ : Shape).Idx) :
    Host.reduceWindow IntOp.addi ![N] ![1] ![lo] ![0] x init h hu j
      = BitVec.ofNat 32 (∑ k ∈ Finset.range ((j 0).val + 1),
          if hk : k < N then (x (ix1 ⟨k, hk⟩)).toNat else 0) := by
  subst hinit
  obtain ⟨j0, rfl⟩ : ∃ j0, j = ix1 j0 := ⟨j 0, eq_ix1 j⟩
  have hj0 : j0.val < N := j0.isLt
  unfold Host.reduceWindow
  refine (foldl_addi _ _ 0).trans ?_
  congr 1
  rw [Nat.zero_add, ← Fin.sum_univ_def]
  show _ = ∑ k ∈ Finset.range (j0.val + 1), if hk : k < N then (x (ix1 ⟨k, hk⟩)).toNat else 0
  -- the summand as a function of the window position
  let T : ℕ → ℕ := fun m =>
    if hm : lo ≤ j0.val + m ∧ j0.val + m - lo < N then (x (ix1 ⟨j0.val + m - lo, hm.2⟩)).toNat else 0
  trans ∑ n : Fin (⟨1, ![N]⟩ : Shape).numel, T n.val
  · refine Finset.sum_congr rfl (fun n _ => ?_)
    have hm := rowMajor_symm_one N n
    split
    · next hin =>
      have h0 := hin 0
      change lo ≤ j0.val * 1 + (((⟨1, ![N]⟩ : Shape).rowMajor.symm n) 0).val ∧
        j0.val * 1 + (((⟨1, ![N]⟩ : Shape).rowMajor.symm n) 0).val - lo < N at h0
      rw [hm] at h0
      have hc : lo ≤ j0.val + n.val ∧ j0.val + n.val - lo < N := by omega
      show _ = if hm : _ then _ else 0
      rw [dif_pos hc]
      congr 2
      funext a
      match a with
      | ⟨0, _⟩ =>
        apply Fin.ext
        show j0.val * 1 + (((⟨1, ![N]⟩ : Shape).rowMajor.symm n) 0).val - lo = j0.val + n.val - lo
        rw [hm]; omega
    · next hin =>
      have hc : ¬ (lo ≤ j0.val + n.val ∧ j0.val + n.val - lo < N) := by
        intro hc
        apply hin
        intro a
        match a with
        | ⟨0, _⟩ =>
          show lo ≤ j0.val * 1 + (((⟨1, ![N]⟩ : Shape).rowMajor.symm n) 0).val ∧
            j0.val * 1 + (((⟨1, ![N]⟩ : Shape).rowMajor.symm n) 0).val - lo < N
          rw [hm]; omega
      show _ = if hm : _ then _ else 0
      rw [dif_neg hc]
      rfl
  · rw [Fin.sum_univ_eq_sum_range T, numel_one]
    have hsplit := Finset.sum_range_add_sum_Ico T (show lo - j0.val ≤ N by omega)
    rw [← hsplit, Finset.sum_eq_zero, Nat.zero_add, Finset.sum_Ico_eq_sum_range]
    · have e : N - (lo - j0.val) = j0.val + 1 := by omega
      rw [e]
      refine Finset.sum_congr rfl (fun k hk => ?_)
      have hk' : k < j0.val + 1 := Finset.mem_range.1 hk
      have hkN : k < N := by omega
      have hc : lo ≤ j0.val + (lo - j0.val + k) ∧ j0.val + (lo - j0.val + k) - lo < N := by omega
      show (if hm : _ then _ else 0) = _
      rw [dif_pos hc, dif_pos hkN]
      congr 3
      apply Fin.ext
      show j0.val + (lo - j0.val + k) - lo = k
      omega
    · intro m hm
      have hm' : m < lo - j0.val := Finset.mem_range.1 hm
      show (if hm : _ then _ else 0) = 0
      rw [dif_neg (by omega)]

-- the two literal instances
example (x : (⟨1, ![1048576]⟩ : Shape).Idx → BitVec 32) (init : (⟨0, ![]⟩ : Shape).Idx → BitVec 32)
    (hinit : init = fun _ => 0#32)
    (h : (⟨1, ![1048576]⟩ : Shape).ReduceWindows (![1048576] : Fin 1 → Nat) ![1] ![1048575] ![0] ⟨1, ![1048576]⟩)
    (hu : 0 < (⟨0, ![]⟩ : Shape).numel) (j : (⟨1, ![1048576]⟩ : Shape).Idx) :
    Host.reduceWindow IntOp.addi ![1048576] ![1] ![1048575] ![0] x init h hu j
      = BitVec.ofNat 32 (∑ k ∈ Finset.range ((j 0).val + 1),
          if hk : k < 1048576 then (x (ix1 ⟨k, hk⟩)).toNat else 0) :=
  cumsum_apply 1048576 1048575 rfl x init hinit h hu j
example (x : (⟨1, ![523776]⟩ : Shape).Idx → BitVec 32) (init : (⟨0, ![]⟩ : Shape).Idx → BitVec 32)
    (hinit : init = fun _ => 0#32)
    (h : (⟨1, ![523776]⟩ : Shape).ReduceWindows (![523776] : Fin 1 → Nat) ![1] ![523775] ![0] ⟨1, ![523776]⟩)
    (hu : 0 < (⟨0, ![]⟩ : Shape).numel) (j : (⟨1, ![523776]⟩ : Shape).Idx) :
    Host.reduceWindow IntOp.addi ![523776] ![1] ![523775] ![0] x init h hu j
      = BitVec.ofNat 32 (∑ k ∈ Finset.range ((j 0).val + 1),
          if hk : k < 523776 then (x (ix1 ⟨k, hk⟩)).toNat else 0) :=
  cumsum_apply 523776 523775 rfl x init hinit h hu j

/-! ## A scatter-add of ones is a count -/

section Bincount

variable {P M : ℕ} (d : ScatterDims ⟨1, ![P]⟩ ⟨2, ![M, 1]⟩ ⟨1, ![M]⟩)

/-- With one scatter axis and the index vector on axis 1, update `j` reads its start index at `(j, 0)`. -/
theorem siIdx_bincount (hs : d.scatterDimsToOperandDims = [(0 : Fin 1)])
    (hv : d.indexVectorDim = 1) (j : (⟨1, ![M]⟩ : Shape).Idx) (c : Fin d.scatterDimsToOperandDims.length) :
    d.siIdx j c = ix2 (j 0) (0 : Fin 1) := by
  funext b
  match b with
  | ⟨0, hb⟩ =>
    apply Fin.ext
    unfold ScatterDims.siIdx
    rw [dif_neg (by rw [hv]; show ¬ (0 : ℕ) = 1; decide)]
    unfold ScatterDims.siCoord
    exact congrArg (fun t => (j t).val) (Subsingleton.elim _ _)
  | ⟨1, hb⟩ =>
    apply Fin.ext
    unfold ScatterDims.siIdx
    rw [dif_pos (by rw [hv])]
    show c.val = 0
    have h1 : d.scatterDimsToOperandDims.length = 1 := by rw [hs]; rfl
    have := c.isLt
    omega

/-- The start of update `j`'s window on the operand's one axis: the start index read signed. -/
theorem start_bincount (hs : d.scatterDimsToOperandDims = [(0 : Fin 1)])
    (hv : d.indexVectorDim = 1) (idx : IVec ⟨2, ![M, 1]⟩ 32) (j : (⟨1, ![M]⟩ : Shape).Idx) (a : Fin 1) :
    d.start j idx a = (idx (ix2 (j 0) (0 : Fin 1))).toInt := by
  unfold ScatterDims.start
  rw [dif_pos (by rw [hs]; exact List.mem_singleton.2 (Subsingleton.elim _ _))]
  rw [siIdx_bincount d hs hv]
  rfl

/-- The operand's one axis is inserted: the window coordinate on it is 0. -/
theorem window_bincount (hi : d.insertedWindowDims = [(0 : Fin 1)]) (j : (⟨1, ![M]⟩ : Shape).Idx) (a : Fin 1) :
    d.window j a = 0 := by
  unfold ScatterDims.window
  rw [dif_neg]
  intro hmem
  have h2 := (List.mem_filter.1 hmem).2
  rw [hi] at h2
  have ha : a = 0 := Subsingleton.elim _ _
  subst ha
  simp at h2

/-- Update `j` lands on element `i` exactly when its start index, read signed, is `i`. -/
theorem resultIdx_bincount (hi : d.insertedWindowDims = [(0 : Fin 1)])
    (hs : d.scatterDimsToOperandDims = [(0 : Fin 1)]) (hv : d.indexVectorDim = 1)
    (idx : IVec ⟨2, ![M, 1]⟩ 32) (j : (⟨1, ![M]⟩ : Shape).Idx) (i : (⟨1, ![P]⟩ : Shape).Idx) :
    d.resultIdx? j idx = some i ↔ (idx (ix2 (j 0) (0 : Fin 1))).toInt = ((i 0).val : ℤ) := by
  have hst : ∀ a, d.start j idx a + (d.window j a : ℤ) = (idx (ix2 (j 0) (0 : Fin 1))).toInt := by
    intro a
    rw [start_bincount d hs hv, window_bincount d hi]
    simp
  have hi0 : (i 0).val < P := (i 0).isLt
  unfold ScatterDims.resultIdx?
  split
  · next h =>
    have h0 := h 0
    rw [hst] at h0
    constructor
    · intro e
      have e' := congrArg Fin.val (congrFun (Option.some.inj e) 0)
      change (d.start j idx 0 + (d.window j 0 : ℤ)).toNat = (i 0).val at e'
      rw [hst] at e'
      omega
    · intro e
      congr 1
      funext a
      match a with
      | ⟨0, _⟩ =>
        apply Fin.ext
        show (d.start j idx 0 + (d.window j 0 : ℤ)).toNat = (i 0).val
        rw [hst]
        omega
  · next h =>
    constructor
    · intro e
      cases e
    · intro e
      exfalso
      apply h
      intro a
      rw [hst]
      match a with
      | ⟨0, _⟩ =>
        show 0 ≤ _ ∧ _ < ((P : ℕ) : ℤ)
        omega

end Bincount

open Classical in
/-- The fold of the scatter's step with the body an addition and every update `1`, read at one element: the starting
    value there plus the number of listed updates landing on it. -/
private theorem foldl_count {s si u : Shape} {w : ℕ} (d : ScatterDims s si u) (idx : IVec si w)
    (upd : u.Idx → BitVec 32) (hupd : ∀ n, upd n = 1#32) (i : s.Idx) (l : List (Fin u.numel)) :
    ∀ r : s.Idx → BitVec 32,
    (l.foldl (fun r n =>
      match d.resultIdx? (u.rowMajor.symm n) idx with
      | some i => fun i' => if i' = i then IntOp.addi (r i) (upd (u.rowMajor.symm n)) else r i'
      | none => r) r) i
      = r i + BitVec.ofNat 32
          ((l.map fun n => if d.resultIdx? (u.rowMajor.symm n) idx = some i then 1 else 0).sum) := by
  induction l with
  | nil => intro r; simp
  | cons n l ih =>
    intro r
    rw [List.foldl_cons, ih, List.map_cons, List.sum_cons]
    cases ho : d.resultIdx? (u.rowMajor.symm n) idx with
    | none =>
      rw [if_neg (by simp), Nat.zero_add]
    | some i0 =>
      show (if i = i0 then IntOp.addi (r i0) (upd (u.rowMajor.symm n)) else r i) + _ = _
      by_cases e : i = i0
      · subst e
        rw [if_pos rfl, if_pos rfl, hupd, BitVec.ofNat_add, ← BitVec.add_assoc]
        rfl
      · rw [if_neg e, if_neg (fun h => e (Option.some.inj h).symm), Nat.zero_add]

/-- An integer scatter-add of ones into zeros, one scatter axis, the operand's one axis inserted: element `i` holds the
    word of the number of updates whose start index, read signed, is `i`. -/
theorem bincount_apply {P M : ℕ} (d : ScatterDims ⟨1, ![P]⟩ ⟨2, ![M, 1]⟩ ⟨1, ![M]⟩)
    (hu : d.updateWindowDims = []) (hi : d.insertedWindowDims = [(0 : Fin 1)])
    (hs : d.scatterDimsToOperandDims = [(0 : Fin 1)]) (hv : d.indexVectorDim = 1)
    (idx : IVec ⟨2, ![M, 1]⟩ 32) (i : (⟨1, ![P]⟩ : Shape).Idx) :
    Host.scatter d IntOp.addi (fun _ => 0#32) idx (fun _ => 1#32) i
      = BitVec.ofNat 32 ((Finset.univ.filter fun n : Fin M =>
          (idx (ix2 n (0 : Fin 1))).toInt = ((i 0).val : ℤ)).card) := by
  have key := foldl_count d idx (fun _ => 1#32) (fun _ => rfl) i (List.finRange _) (fun _ => 0#32)
  unfold Host.scatter
  refine key.trans ?_
  show 0#32 + _ = _
  rw [BitVec.zero_add]
  congr 1
  rw [← Fin.sum_univ_def, ← Finset.card_filter]
  refine Finset.card_equiv (finCongr (numel_one M)) (fun n => ?_)
  rw [Finset.mem_filter, Finset.mem_filter, resultIdx_bincount d hi hs hv]
  have e : ((⟨1, ![M]⟩ : Shape).rowMajor.symm n) 0 = finCongr (numel_one M) n :=
    Fin.ext (rowMajor_symm_one M n)
  rw [e]
  simp only [Finset.mem_univ, true_and]

-- the literal instance: a record with these four fields
example (wf : ScatterDims.WF ⟨1, ![523776]⟩ ⟨2, ![1048576, 1]⟩ ⟨1, ![1048576]⟩ [] [0] [0] 1)
    (idx : IVec ⟨2, ![1048576, 1]⟩ 32) (i : (⟨1, ![523776]⟩ : Shape).Idx) :
    Host.scatter (⟨[], [0], [0], 1, wf⟩ : ScatterDims ⟨1, ![523776]⟩ ⟨2, ![1048576, 1]⟩ ⟨1, ![1048576]⟩)
        IntOp.addi (fun _ => 0#32) idx (fun _ => 1#32) i
      = BitVec.ofNat 32 ((Finset.univ.filter fun n : Fin 1048576 =>
          (idx (ix2 n (0 : Fin 1))).toInt = ((i 0).val : ℤ)).card) :=
  bincount_apply _ rfl rfl rfl rfl idx i

end Cert.Proof.Folds
-- ==== Proof.RefIdxA.lean ====
/-
  The running count of the strict upper triangle. The first stretch of the reference builds the
  1024 × 1024 mask "row < column" (an iota along each axis, a signed comparison, a select between 0.0 and
  1.0, a float comparison with 0.0), flattens it row-major, widens each bit to a 32-bit word and takes the
  inclusive cumulative sum. At the ideal float values the result at flat position k is the number of
  positions k' ≤ k with k' / 1024 < k' % 1024, as a 32-bit word.
-/
import proofs.«180452_j36309653520599_1_alg».proof.Proof.RefOpsABC
import proofs.«180452_j36309653520599_1_alg».proof.Proof.Count
import proofs.«180452_j36309653520599_1_alg».proof.Proof.Folds
import Idealize.ShloMosaic.Lib.IdealHost
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.Hand

open Cert.ReferenceIdeal Cert.ReferenceIdeal.Facts₀ Cert.ReferenceIdeal.Facts
open Idealize.ShloMosaic Idealize.ShloMosaic.StableHlo Idealize.ShloMosaic.ValueIdx
open Cert.Proof.Count

/-! ## The arguments are kept -/

/-- The first stretch leaves the first argument as it found it. -/
theorem opsA_arg0 {F : FTy → Type} [FloatOps F] (W : Valuation τ sig (Elt F)) :
    after opsA W (Proc.devRef .tc main_arg0) = W (Proc.devRef .tc main_arg0) := by
  after_results

/-- The first stretch leaves the second argument as it found it. -/
theorem opsA_arg1 {F : FTy → Type} [FloatOps F] (W : Valuation τ sig (Elt F)) :
    after opsA W (Proc.devRef .tc main_arg1) = W (Proc.devRef .tc main_arg1) := by
  after_results

/-! ## The mask at an index -/

/-- A number below 1024 is the value of its 32-bit word, and that value is below `2 ^ 31`. -/
private theorem toNat_small (n : ℕ) (h : n < 1024) : (BitVec.ofNat 32 n).toNat = n := by
  rw [BitVec.toNat_ofNat]; exact Nat.mod_eq_of_lt (by omega)

/-- The signed comparison "row + 0 ≥ column" of the two iotas at `(i, j)`: the bit of `j ≤ i`. -/
private theorem ge_apply (i j : Fin 1024) :
    cmpi .sge (addi (iotaInDim S1024x1024 32 0)
        (broadcastInDim S1024x1024 ![] bcast_S_S1024x1024 (constantI S_ 32 0#32)))
      (iotaInDim S1024x1024 32 1) (ix2 i j)
      = BitVec.ofBool (decide (j.val ≤ i.val)) := by
  show IntOp.cmpi .sge (IntOp.addi (BitVec.ofNat 32 i.val)
      (broadcastInDim S1024x1024 ![] bcast_S_S1024x1024 (constantI S_ 32 0#32) (ix2 i j))) (BitVec.ofNat 32 j.val) = _
  rw [broadcastInDim_scalar_apply]
  show IntOp.cmpi .sge (IntOp.addi (BitVec.ofNat 32 i.val) 0#32) (BitVec.ofNat 32 j.val) = _
  have h0 : IntOp.addi (BitVec.ofNat 32 i.val) 0#32 = BitVec.ofNat 32 i.val := by
    unfold IntOp.addi; exact BitVec.add_zero _
  rw [h0]
  have ha : (BitVec.ofNat 32 i.val).toNat < 2 ^ 31 := by rw [toNat_small _ i.isLt]; have := i.isLt; omega
  have hb : (BitVec.ofNat 32 j.val).toNat < 2 ^ 31 := by rw [toNat_small _ j.isLt]; have := j.isLt; omega
  by_cases hji : j.val ≤ i.val
  · rw [decide_eq_true hji]
    exact (Predicate.sge_iff_toNat ha hb).mpr (by rw [toNat_small _ i.isLt, toNat_small _ j.isLt]; exact hji)
  · rw [decide_eq_false hji]
    refine eq_zero_of_ne_one fun h => hji ?_
    have := (Predicate.sge_iff_toNat ha hb).mp h
    rwa [toNat_small _ i.isLt, toNat_small _ j.isLt] at this

/-- The mask the reference computes, at the ideal float values: where row ≥ column the select takes 0.0, elsewhere 1.0,
    and the comparison with 0.0 turns that into the bit of "row < column". -/
private theorem mask_apply (i j : Fin 1024) :
    cmpf (F := Ideal) .une
      (select (cmpi .sge (addi (iotaInDim S1024x1024 32 0)
            (broadcastInDim S1024x1024 ![] bcast_S_S1024x1024 (constantI S_ 32 0#32)))
          (iotaInDim S1024x1024 32 1))
        (broadcastInDim S1024x1024 ![] bcast_S_S1024x1024 (constant (F := Ideal) S_ .f32 0x00000000#32))
        (broadcastInDim S1024x1024 ![] bcast_S_S1024x1024 (constant (F := Ideal) S_ .f32 0x3F800000#32)))
      (broadcastInDim S1024x1024 ![] bcast_S_S1024x1024 (constant (F := Ideal) S_ .f32 0x00000000#32)) (ix2 i j)
      = BitVec.ofBool (decide (i.val < j.val)) := by
  rw [cmpf_apply, select_apply, ge_apply, broadcastInDim_scalar_apply, broadcastInDim_scalar_apply, Ideal.cmpf_def]
  show Ideal.cmp .une (Scalar.select (BitVec.ofBool (decide (j.val ≤ i.val)))
      (Ideal.ofBits .f32 0x00000000#32) (Ideal.ofBits .f32 0x3F800000#32)) (Ideal.ofBits .f32 0x00000000#32) = _
  rw [Ideal.ofBits_zero_f32, Ideal.ofBits_one_f32]
  by_cases hji : j.val ≤ i.val
  · have hlt : ¬ i.val < j.val := by omega
    rw [decide_eq_true hji, decide_eq_false hlt]
    show Ideal.cmp .une (Scalar.select 1#1 (0 : EReal) 1) 0 = _
    rw [select_one]
    simp [Ideal.cmp]
  · have hlt : i.val < j.val := by omega
    rw [decide_eq_false hji, decide_eq_true hlt]
    show Ideal.cmp .une (Scalar.select 0#1 (0 : EReal) 1) 0 = _
    rw [select_zero]
    simp [Ideal.cmp]

/-! ## Flattened and widened -/

/-- A 1024 × 1024 array of bits whose entry at `(i, j)` is the bit of `i < j`, flattened row-major and each bit widened
    to a 32-bit word: at flat position `k` the word is 1 where `k / 1024 < k % 1024` and 0 elsewhere. -/
private theorem flat_word (m : S1024x1024.Idx → BitVec 1)
    (hm : ∀ i j : Fin 1024, m (ix2 i j) = BitVec.ofBool (decide (i.val < j.val)))
    (h : S1024x1024.ShapeCasts S1048576) (hw : 1 < 32) (k : ℕ) (hk : k < 1048576) :
    (extui 32 (fun i => shapeCast S1048576 m h i) hw (ix1 ⟨k, hk⟩)).toNat = if tri k = true then 1 else 0 := by
  have hq : k / 1024 < 1024 := by omega
  have hr : k % 1024 < 1024 := Nat.mod_lt _ (by omega)
  rw [extui_apply]
  have hcast : shapeCast S1048576 m h (ix1 ⟨k, hk⟩) = m (ix2 ⟨k / 1024, hq⟩ ⟨k % 1024, hr⟩) :=
    shapeCast_apply m h (ix1 ⟨k, hk⟩) (ix2 ⟨k / 1024, hq⟩ ⟨k % 1024, hr⟩) (by
      rw [Shape.rowMajor_val_two, Shape.rowMajor_val_one]
      show k / 1024 * 1024 + k % 1024 = k
      omega)
  rw [hcast, hm]
  unfold tri
  by_cases hlt : k / 1024 < k % 1024
  · simp [hlt]
  · simp [hlt]

/-! ## The stretch in three pieces

The stretch is read in three consecutive pieces, each over any incoming contents, which keeps every fold short: the operations up to @triu's result `main_v1`, the comparison
with zero (`main_v3`), and @cumsum's five (`main_v4`). -/

section Pieces

variable {F : FTy → Type} [FloatOps F]

/-- The constant one, its broadcast, and @triu's nine operations: result `main_v1`. -/
private abbrev opsA1 : List (HloOp τ sig (Elt F)) :=
  [ StableHlo.nullary main_cst (constant S_ .f32 0x3F800000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 (iotaInDim S1024x1024 32 0),
    StableHlo.TRef.nullary main_call0.c (constantI S_ 32 0#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 main_call0.v5 (.of main_v0 : StableHlo.TRef sig ⟨S1024x1024, .f32⟩) main_call0.v6 select ]

/-- The constant zero, its broadcast, and the float comparison: result `main_v3`. -/
private abbrev opsA2 : List (HloOp τ sig (Elt F)) :=
  [ StableHlo.nullary main_cst_0 (constant S_ .f32 0x00000000#32),
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)) ]

/-- @cumsum's reshape and convert and @cumsum_0's three operations: result `main_v4`. -/
private abbrev opsA3 : List (HloOp τ sig (Elt F)) :=
  [ StableHlo.TRef.reshape (.of main_v3 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (main_call1.v1 : StableHlo.TRef sig ⟨S1048576, .i32⟩) main_call1.call0.v0 main_call1.call0.v1 (fun x v => Host.reduceWindow IntOp.addi ![1048576] ![1] ![1048575] ![0] x v reduceWindows_S1048576_S1048576_w1048576s1p1048575_0 h_S_) ]

private theorem opsA_split : (opsA : List (HloOp τ sig (Elt F))) = opsA1 ++ (opsA2 ++ opsA3) := rfl

/-- Two lists of operations run one after the other leave what the second leaves from what the first left. -/
private theorem after_split {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-- After the first piece `main_v1` holds the select between 0.0 and 1.0 on "row + 0 ≥ column". -/
private theorem v1_term (V : Valuation τ sig (Elt F)) :
    after opsA1 V (Proc.devRef .tc main_v1)
      = select (cmpi .sge (addi (iotaInDim S1024x1024 32 0)
            (broadcastInDim S1024x1024 ![] bcast_S_S1024x1024 (constantI S_ 32 0#32)))
          (iotaInDim S1024x1024 32 1))
        (broadcastInDim S1024x1024 ![] bcast_S_S1024x1024 (constant (F := F) S_ .f32 0x00000000#32))
        (broadcastInDim S1024x1024 ![] bcast_S_S1024x1024 (constant (F := F) S_ .f32 0x3F800000#32)) := by
  after_results
  all_goals (try simp only [TRef.ofBuf, TRef.toBuf, cast_eq])
  all_goals (try rfl)

/-- After the second piece `main_v3` holds the comparison of `main_v1`'s contents with 0.0. -/
private theorem v3_term (V : Valuation τ sig (Elt F)) :
    after opsA2 V (Proc.devRef .tc main_v3)
      = (cmpf .une : (⟨S1024x1024, .f32⟩ : BufTy).Contents (Elt F) → (⟨S1024x1024, .f32⟩ : BufTy).Contents (Elt F) → (⟨S1024x1024, .i1⟩ : BufTy).Contents (Elt F))
          (V (Proc.devRef .tc main_v1))
          (broadcastInDim S1024x1024 ![] bcast_S_S1024x1024 (constant (F := F) S_ .f32 0x00000000#32)) := by
  after_results
  all_goals (try simp only [TRef.ofBuf, TRef.toBuf, cast_eq])
  all_goals (try rfl)

/-- After the third piece `main_v4` holds the cumulative sum of `main_v3`'s contents, flattened and widened. -/
private theorem v4_term (V : Valuation τ sig (Elt F)) :
    after opsA3 V (Proc.devRef .tc main_v4)
      = Host.reduceWindow IntOp.addi ![1048576] ![1] ![1048575] ![0]
          (extui 32 (fun i => shapeCast S1048576 (V (Proc.devRef .tc main_v3) : S1024x1024.Idx → BitVec 1)
            shapeCasts_S1024x1024_S1048576 i) natLt_1_32)
          (broadcastInDim S_ ![] bcast_S_S_ (constantI S_ 32 0#32))
          reduceWindows_S1048576_S1048576_w1048576s1p1048575_0 h_S_ := by
  after_results
  all_goals (try simp only [TRef.ofBuf, TRef.toBuf, cast_eq])
  all_goals (try rfl)

end Pieces

/-! ## The running count -/

/-- After the first stretch, from any contents, `main_v4` holds at flat position `k` the running count of
    the strict upper triangle up to `k`. -/
theorem v4_eq (W : Valuation τ sig (Elt Ideal)) :
    after opsA W (Proc.devRef .tc main_v4)
      = fun k : S1048576.Idx => BitVec.ofNat 32 (cnt tri (k 0).val) := by
  rw [opsA_split, after_split, after_split, v4_term, v3_term, v1_term]
  funext j
  have hinit : broadcastInDim S_ ![] bcast_S_S_ (constantI S_ 32 0#32) = fun _ => 0#32 := by
    funext a; rw [broadcastInDim_scalar_apply]; rfl
  refine (Cert.Proof.Folds.cumsum_apply 1048576 1048575 rfl _ _ hinit _ _ j).trans ?_
  congr 1
  unfold cnt
  rw [Finset.card_filter]
  refine Finset.sum_congr rfl fun k hk => ?_
  have hj : (j 0).val < 1048576 := (j 0).isLt
  have hk' : k < 1048576 := by have := Finset.mem_range.mp hk; omega
  rw [dif_pos hk']
  exact flat_word _ mask_apply _ _ k hk'

end Cert.ReferenceIdeal.Hand

end
-- ==== Proof.IntArith.lean ====
/-
  Scalar facts about 32-bit words that hold small non-negative numbers, under the
  integer operations of the model: floored division and the non-negative remainder as
  jax computes them from the truncating division, the normalisation of a non-negative
  index, the clip at zero, and the reading of a small word as an integer.
-/
import Idealize.ShloMosaic.PureOps

namespace Cert.Proof.IntArith
open Idealize.ShloMosaic

/-- A number below `2^32` is the value of its word. -/
theorem toNat_ofNat_small (n : Nat) (h : n < 2 ^ 32) : (BitVec.ofNat 32 n).toNat = n := by
  rw [BitVec.toNat_ofNat]; exact Nat.mod_eq_of_lt h

/-- A word whose value is below `2^31` has a clear top bit. -/
theorem msb_false_small (x : BitVec 32) (h : x.toNat < 2 ^ 31) : x.msb = false := by
  rw [BitVec.msb_eq_false_iff_two_mul_lt]; omega

/-- The signed value of a word with a clear top bit is its unsigned value. -/
theorem toInt_eq_toNat_small (x : BitVec 32) (h : x.toNat < 2 ^ 31) : x.toInt = (x.toNat : Int) :=
  BitVec.toInt_eq_toNat_of_msb (msb_false_small x h)

/-- A number below `2^31` is the signed value of its word. -/
theorem toInt_ofNat_small (n : Nat) (h : n < 2 ^ 31) : (BitVec.ofNat 32 n).toInt = (n : Int) := by
  have h1 : (BitVec.ofNat 32 n).toNat = n := toNat_ofNat_small n (by omega)
  rw [toInt_eq_toNat_small _ (by rw [h1]; exact h), h1]

/-- A non-negative word is not below zero in the signed order. -/
theorem slt_zero_small (x : BitVec 32) (h : x.toNat < 2 ^ 31) : x.slt 0#32 = false := by
  rw [BitVec.slt_eq_decide, toInt_eq_toNat_small x h, BitVec.toInt_zero]
  exact decide_eq_false (by omega)

/-- A positive divisor and a non-negative dividend are not at the corner of the signed division. -/
theorem not_corner_small (v k : BitVec 32) (hv : v.toNat < 2 ^ 31) (hk0 : 0 < k.toNat) :
    ¬ IntOp.SDivCorner v k := by
  rintro (h | ⟨h, _⟩)
  · rw [h] at hk0; simp at hk0
  · rw [h, BitVec.toNat_intMin] at hv; omega

/-- The host's truncating division of two small non-negative words is the division of their values. -/
theorem divsi_host_small (v k : BitVec 32) (hv : v.toNat < 2 ^ 31) (hk0 : 0 < k.toNat) (hk : k.toNat < 2 ^ 31) :
    IntOp.divsi .host v k = BitVec.ofNat 32 (v.toNat / k.toNat) := by
  unfold IntOp.divsi
  rw [if_neg (not_corner_small v k hv hk0), BitVec.sdiv_eq, msb_false_small v hv, msb_false_small k hk]
  exact BitVec.udiv_def

/-- The host's truncating remainder of two small non-negative words is the remainder of their values. -/
theorem remsi_host_small (v k : BitVec 32) (hv : v.toNat < 2 ^ 31) (hk0 : 0 < k.toNat) (hk : k.toNat < 2 ^ 31) :
    IntOp.remsi .host v k = BitVec.ofNat 32 (v.toNat % k.toNat) := by
  unfold IntOp.remsi
  rw [if_neg (not_corner_small v k hv hk0), BitVec.srem_eq, msb_false_small v hv, msb_false_small k hk]
  apply BitVec.eq_of_toNat_eq
  have hlt : v.toNat % k.toNat < k.toNat := Nat.mod_lt _ hk0
  rw [toNat_ofNat_small _ (by omega)]
  exact BitVec.toNat_umod

/-- jax's `floor_divide` chain on small non-negative words: the quotient of the values. -/
theorem floor_divide_small (v k : BitVec 32) (hv : v.toNat < 2 ^ 30) (hk0 : 0 < k.toNat) (hk : k.toNat < 2 ^ 30) :
    Scalar.select
      (IntOp.andi
        (IntOp.cmpi .ne (if v = 0 then 0 else if v.msb then -1 else 1 : BitVec 32)
                        (if k = 0 then 0 else if k.msb then -1 else 1 : BitVec 32))
        (IntOp.cmpi .ne (IntOp.remsi .host v k) 0#32))
      (IntOp.subi (IntOp.divsi .host v k) 1#32)
      (IntOp.divsi .host v k)
    = BitVec.ofNat 32 (v.toNat / k.toNat) := by
  have hv' : v.toNat < 2 ^ 31 := by omega
  have hk' : k.toNat < 2 ^ 31 := by omega
  have hkne : k ≠ 0 := by rintro rfl; simp at hk0
  rw [remsi_host_small v k hv' hk0 hk', divsi_host_small v k hv' hk0 hk',
    msb_false_small v hv', msb_false_small k hk', if_neg hkne]
  by_cases hv0 : v = 0
  · subst hv0
    simp [IntOp.cmpi, IntOp.andi, Scalar.select]
  · rw [if_neg hv0]
    simp [IntOp.cmpi, IntOp.andi, Scalar.select]

/-- jax's guard of the divisor in `remainder`: a non-zero divisor is kept. -/
theorem remainder_guard (k : BitVec 32) (hk0 : 0 < k.toNat) :
    Scalar.select (IntOp.cmpi .eq k 0#32) 1#32 k = k := by
  have hkne : k ≠ 0#32 := by rintro rfl; simp at hk0
  have hb : (k == 0#32) = false := beq_eq_false_iff_ne.mpr hkne
  simp [IntOp.cmpi, Scalar.select, hb]

/-- jax's `remainder` chain on small non-negative words, the divisor already guarded: the
    remainder of the values. -/
theorem remainder_small' (v k : BitVec 32) (hv : v.toNat < 2 ^ 30) (hk0 : 0 < k.toNat) (hk : k.toNat < 2 ^ 30) :
    Scalar.select
      (IntOp.andi
        (IntOp.cmpi .ne (IntOp.cmpi .slt (IntOp.remsi .host v k) 0#32) (IntOp.cmpi .slt k 0#32))
        (IntOp.cmpi .ne (IntOp.remsi .host v k) 0#32))
      (IntOp.addi (IntOp.remsi .host v k) k)
      (IntOp.remsi .host v k)
    = BitVec.ofNat 32 (v.toNat % k.toNat) := by
  have hv' : v.toNat < 2 ^ 31 := by omega
  have hk' : k.toNat < 2 ^ 31 := by omega
  have hlt : v.toNat % k.toNat < k.toNat := Nat.mod_lt _ hk0
  have hr : (BitVec.ofNat 32 (v.toNat % k.toNat)).toNat < 2 ^ 31 := by
    rw [toNat_ofNat_small _ (by omega)]; omega
  rw [remsi_host_small v k hv' hk0 hk']
  simp [IntOp.cmpi, IntOp.andi, Scalar.select, slt_zero_small _ hr, slt_zero_small k hk']

/-- jax's `remainder` chain on small non-negative words, with the guard of the divisor in place. -/
theorem remainder_small (v k : BitVec 32) (hv : v.toNat < 2 ^ 30) (hk0 : 0 < k.toNat) (hk : k.toNat < 2 ^ 30) :
    Scalar.select
      (IntOp.andi
        (IntOp.cmpi .ne
          (IntOp.cmpi .slt (IntOp.remsi .host v (Scalar.select (IntOp.cmpi .eq k 0#32) 1#32 k)) 0#32)
          (IntOp.cmpi .slt (Scalar.select (IntOp.cmpi .eq k 0#32) 1#32 k) 0#32))
        (IntOp.cmpi .ne (IntOp.remsi .host v (Scalar.select (IntOp.cmpi .eq k 0#32) 1#32 k)) 0#32))
      (IntOp.addi (IntOp.remsi .host v (Scalar.select (IntOp.cmpi .eq k 0#32) 1#32 k))
        (Scalar.select (IntOp.cmpi .eq k 0#32) 1#32 k))
      (IntOp.remsi .host v (Scalar.select (IntOp.cmpi .eq k 0#32) 1#32 k))
    = BitVec.ofNat 32 (v.toNat % k.toNat) := by
  rw [remainder_guard k hk0]
  exact remainder_small' v k hv hk0 hk

/-- A non-negative index is left as it is by the normalisation of negative indices. -/
theorem index_norm_small (x n : BitVec 32) (hx : x.toNat < 2 ^ 31) :
    Scalar.select (IntOp.cmpi .slt x 0#32) (IntOp.addi x n) x = x := by
  simp [IntOp.cmpi, Scalar.select, slt_zero_small x hx]

/-- The clip at zero leaves a non-negative word as it is. -/
theorem maxsi_zero_small (x : BitVec 32) (hx : x.toNat < 2 ^ 31) : IntOp.maxsi 0#32 x = x := by
  unfold IntOp.maxsi
  rw [slt_zero_small x hx]
  rfl

end Cert.Proof.IntArith
-- ==== Proof.RefIdxB.lean ====
/- The reference's second index chunk: from the running count of the mask to the flat position of the
   p-th set entry.  The clip at zero and the normalisation of negative indices leave the running counts as
   they are; the scatter-add of ones at the running counts is the histogram of the running count; its
   cumulative sum at p is the number of positions whose running count is at most p. -/
import proofs.«180452_j36309653520599_1_alg».proof.Proof.RefOpsABC
import proofs.«180452_j36309653520599_1_alg».proof.Proof.Count
import proofs.«180452_j36309653520599_1_alg».proof.Proof.Folds
import proofs.«180452_j36309653520599_1_alg».proof.Proof.IntArith

noncomputable section

namespace Cert.ReferenceIdeal.Hand

open Cert.ReferenceIdeal Cert.ReferenceIdeal.Facts₀ Cert.ReferenceIdeal.Facts
open Idealize.ShloMosaic Idealize.ShloMosaic.StableHlo Idealize.ShloMosaic.ValueIdx
open Cert.Proof

/-! ## Typed references at literal buffers: the transport along the buffer's type is the identity -/

theorem toBuf_v15 (h1 h2 h3) (v : IVec S523776 32) :
    (TRef.of (T := ⟨S523776, .i32⟩) main_v15 h1 h2 h3).toBuf (Val := Elt Ideal) v = v := rfl
theorem ofBuf_v14 (h1 h2 h3) (v : IVec S523776 32) :
    (TRef.of (T := ⟨S523776, .i32⟩) main_v14 h1 h2 h3).ofBuf (Val := Elt Ideal) v = v := rfl
theorem toBuf_v6 (h1 h2 h3) (v : IVec S1048576 32) :
    (TRef.of (T := ⟨S1048576, .i32⟩) main_v6 h1 h2 h3).toBuf (Val := Elt Ideal) v = v := rfl
theorem ofBuf_v4 (h1 h2 h3) (v : IVec S1048576 32) :
    (TRef.of (T := ⟨S1048576, .i32⟩) main_v4 h1 h2 h3).ofBuf (Val := Elt Ideal) v = v := rfl
theorem ofBuf_c1 (h1 h2 h3) (v : IVec S_ 32) :
    (TRef.of (T := ⟨S_, .i32⟩) main_c_1 h1 h2 h3).ofBuf (Val := Elt Ideal) v = v := rfl
theorem toBuf_c1 (h1 h2 h3) (v : IVec S_ 32) :
    (TRef.of (T := ⟨S_, .i32⟩) main_c_1 h1 h2 h3).toBuf (Val := Elt Ideal) v = v := rfl

/-! ## The chunk's composed term -/

/-- the clip at zero of a vector of words -/
def clipOf (x : IVec S1048576 32) : IVec S1048576 32 :=
  maxsi (broadcastInDim S1048576 ![] bcast_S_S1048576 (constantI S_ 32 0#32)) x

/-- the normalisation of negative indices: add the length where the word is negative -/
def normOf (y : IVec S1048576 32) : IVec S1048576 32 :=
  select (cmpi .slt y (broadcastInDim S1048576 ![] bcast_S_S1048576 (constantI S_ 32 0#32)))
    (addi y (broadcastInDim S1048576 ![] bcast_S_S1048576 (constantI S_ 32 523776#32))) y

/-- the scatter-add of ones at the positions a vector of words names -/
def histOf (z : IVec S1048576 32) : IVec S523776 32 :=
  Host.scatter scatter_S523776_S1048576x1_S1048576_n_0_0_1 IntOp.addi
    (broadcastInDim S523776 ![] bcast_S_S523776 (constantI S_ 32 0#32))
    (broadcastInDim S1048576x1 ![0] bcast_S1048576_S1048576x1_0 z)
    (broadcastInDim S1048576 ![] bcast_S_S1048576 (constantI S_ 32 1#32))

/-- the cumulative sum as the program writes it: a window reduction -/
def cumOf (h : IVec S523776 32) : IVec S523776 32 :=
  Host.reduceWindow IntOp.addi ![523776] ![1] ![523775] ![0] h
    (broadcastInDim S_ ![] bcast_S_S_ (constantI S_ 32 0#32))
    reduceWindows_S523776_S523776_w523776s1p523775_0 h_S_

set_option maxRecDepth 16384 in
/-- What the chunk leaves in `main_v15`, as a term over what it found in `main_v4`. -/
theorem v15_term (W : Valuation τ sig (Elt Ideal)) :
    after (opsB (F := Ideal)) W (Proc.devRef .tc main_v15)
      = cumOf (histOf (normOf (clipOf (W (Proc.devRef .tc main_v4))))) := by
  after_results_simp
  repeat rw [toBuf_v15 rfl (by decide) rfl]
  repeat rw [ofBuf_v14 rfl (by decide) rfl]
  repeat rw [toBuf_v6 rfl (by decide) rfl]
  repeat rw [ofBuf_v4 rfl (by decide) rfl]
  repeat rw [ofBuf_c1 rfl (by decide) rfl]
  repeat rw [toBuf_c1 rfl (by decide) rfl]
  repeat rw [id_eq]
  unfold cumOf histOf normOf clipOf
  rfl

/-! ## The stages, read at an index -/

/-- the running counts of the triangle mask as a vector of words -/
abbrev cntVec : IVec S1048576 32 := fun k => BitVec.ofNat 32 (Count.cnt Count.tri (k 0).val)

/-- A running count over at most 1048576 positions is far below `2^31`. -/
theorem cnt_small (n : ℕ) (hn : n < 1048576) : Count.cnt Count.tri n < 2 ^ 31 := by
  have h := Count.cnt_le Count.tri n
  omega

theorem cntVec_small (k : S1048576.Idx) : (cntVec k).toNat < 2 ^ 31 := by
  have hk : (k 0).val < 1048576 := (k 0).isLt
  have h := cnt_small _ hk
  show (BitVec.ofNat 32 _).toNat < _
  rw [IntArith.toNat_ofNat_small _ (by omega)]
  exact h

/-- The clip at zero leaves the running counts as they are. -/
theorem clipOf_cntVec : clipOf cntVec = cntVec := by
  funext k
  show IntOp.maxsi 0#32 (cntVec k) = cntVec k
  exact IntArith.maxsi_zero_small _ (cntVec_small k)

/-- The normalisation of negative indices leaves the running counts as they are. -/
theorem normOf_cntVec : normOf cntVec = cntVec := by
  funext k
  show Scalar.select (IntOp.cmpi .slt (cntVec k) 0#32) (IntOp.addi (cntVec k) 523776#32) (cntVec k) = cntVec k
  exact IntArith.index_norm_small _ _ (cntVec_small k)

/-- The scatter-add of ones at the running counts is the histogram of the running count. -/
theorem histOf_cntVec (v : S523776.Idx) :
    histOf cntVec v = BitVec.ofNat 32
      ((Finset.univ.filter fun n : Fin 1048576 => Count.cnt Count.tri n.val = (v 0).val).card) := by
  have h0 : broadcastInDim S523776 ![] bcast_S_S523776 (constantI S_ 32 0#32) = fun _ => 0#32 := rfl
  have h1 : broadcastInDim S1048576 ![] bcast_S_S1048576 (constantI S_ 32 1#32) = fun _ => 1#32 := rfl
  unfold histOf
  rw [h0, h1, Folds.bincount_apply _ rfl rfl rfl rfl]
  refine congrArg (BitVec.ofNat 32) (congrArg Finset.card (Finset.filter_congr fun n _ => ?_))
  have hx : broadcastInDim S1048576x1 ![0] bcast_S1048576_S1048576x1_0 cntVec (ix2 n (0 : Fin 1))
      = BitVec.ofNat 32 (Count.cnt Count.tri n.val) := rfl
  rw [hx, IntArith.toInt_ofNat_small _ (cnt_small _ n.isLt)]
  exact Int.ofNat_inj

/-- Summing the histogram of the running count up to `p` counts the positions whose running count is at most `p`. -/
theorem sum_fibers_eq_sel (m : ℕ → Bool) (M p : ℕ) :
    ∑ k ∈ Finset.range (p + 1), (Finset.univ.filter fun n : Fin M => Count.cnt m n.val = k).card
      = Count.sel m M p := by
  unfold Count.sel
  have h1 : ((Finset.range M).filter fun k => Count.cnt m k ≤ p).card
      = (Finset.univ.filter fun n : Fin M => Count.cnt m n.val ≤ p).card := by
    rw [Finset.card_filter, Finset.card_filter,
      ← Fin.sum_univ_eq_sum_range (fun i => if Count.cnt m i ≤ p then 1 else 0) M]
  rw [h1, Finset.card_eq_sum_card_fiberwise (f := fun n : Fin M => Count.cnt m n.val)
    (t := Finset.range (p + 1))]
  · apply Finset.sum_congr rfl
    intro k hk
    have hk' := Finset.mem_range.mp hk
    refine congrArg Finset.card ?_
    rw [Finset.filter_filter]
    apply Finset.filter_congr
    intro n _
    constructor
    · intro h; exact ⟨by omega, h⟩
    · rintro ⟨_, h⟩; exact h
  · intro n hn
    have := (Finset.mem_filter.mp hn).2
    show Count.cnt m n.val ∈ Finset.range (p + 1)
    exact Finset.mem_range.mpr (by omega)

/-- The cumulative sum of the histogram at `p` is the position of the `p`-th set entry. -/
theorem cumOf_hist (p : S523776.Idx) :
    cumOf (histOf cntVec) p = BitVec.ofNat 32 (Count.sel Count.tri 1048576 (p 0).val) := by
  have hp : (p 0).val < 523776 := (p 0).isLt
  unfold cumOf
  rw [Folds.cumsum_apply 523776 523775 rfl (histOf cntVec)
    (broadcastInDim S_ ![] bcast_S_S_ (constantI S_ 32 0#32)) rfl]
  refine congrArg (BitVec.ofNat 32) ?_
  rw [← sum_fibers_eq_sel]
  apply Finset.sum_congr rfl
  intro k hk
  have hk' := Finset.mem_range.mp hk
  have hk2 : k < 523776 := by omega
  rw [dif_pos hk2, histOf_cntVec]
  have hc : (Finset.univ.filter fun n : Fin 1048576 => Count.cnt Count.tri n.val = k).card ≤ 1048576 := by
    calc _ ≤ (Finset.univ : Finset (Fin 1048576)).card := Finset.card_filter_le _ _
      _ = 1048576 := by rw [Finset.card_univ, Fintype.card_fin]
  show (BitVec.ofNat 32
    (Finset.univ.filter fun n : Fin 1048576 => Count.cnt Count.tri n.val = k).card).toNat = _
  exact IntArith.toNat_ofNat_small _ (by omega)

/-! ## The arguments are kept -/

/-- The chunk does not write the first argument. -/
theorem opsB_arg0 (W : Valuation τ sig (Elt Ideal)) :
    after (opsB (F := Ideal)) W (Proc.devRef .tc main_arg0) = W (Proc.devRef .tc main_arg0) := by
  after_results_simp

/-- The chunk does not write the second argument. -/
theorem opsB_arg1 (W : Valuation τ sig (Elt Ideal)) :
    after (opsB (F := Ideal)) W (Proc.devRef .tc main_arg1) = W (Proc.devRef .tc main_arg1) := by
  after_results_simp

/-! ## The chunk's value -/

/-- From the running counts of the triangle mask, the chunk computes the flat position of the p-th set entry. -/
theorem v15_eq (W : Valuation τ sig (Elt Ideal))
    (h4 : W (Proc.devRef .tc main_v4) = fun k => BitVec.ofNat 32 (Count.cnt Count.tri (k 0).val)) :
    after (opsB (F := Ideal)) W (Proc.devRef .tc main_v15)
      = fun p => BitVec.ofNat 32 (Count.sel Count.tri 1048576 (p 0).val) := by
  rw [v15_term, h4]
  show cumOf (histOf (normOf (clipOf cntVec))) = _
  rw [clipOf_cntVec, normOf_cntVec]
  funext p
  exact cumOf_hist p

end Cert.ReferenceIdeal.Hand

end
-- ==== Proof.RefIdxC.lean ====
/-
  The reference's rows and columns: after the floored divisions and remainders of the flat positions by 1024 (and
  by 1), the row index of the p-th set entry of the strict upper triangle is its flat position divided by 1024, and
  its column index the flat position modulo 1024, the flat position lying below 1024 * 1024.
-/
import proofs.«180452_j36309653520599_1_alg».proof.Proof.RefOpsABC
import proofs.«180452_j36309653520599_1_alg».proof.Proof.Count
import proofs.«180452_j36309653520599_1_alg».proof.Proof.IntArith

noncomputable section

namespace Cert.ReferenceIdeal.Hand

open Cert.ReferenceIdeal Cert.ReferenceIdeal.Facts₀ Cert.ReferenceIdeal.Facts
open Idealize.ShloMosaic Idealize.ShloMosaic.StableHlo
open Cert.Proof

variable {F : FTy → Type} [FloatOps F]

/-! ## The two chains on whole vectors, the divisor a broadcast scalar constant -/

/-- jax's `floor_divide` of a vector of small non-negative words by a small positive scalar constant: the quotient
    of the values at each element. -/
theorem floor_divide_vec (h : S_.BroadcastsInDim S523776 (![] : Fin 0 → Fin S523776.rank))
    (x : IVec S523776 32) (k : BitVec 32)
    (hx : ∀ i, (x i).toNat < 2 ^ 30) (hk0 : 0 < k.toNat) (hk : k.toNat < 2 ^ 30) :
    select
      (andi
        (cmpi .ne (signi x) (broadcastInDim S523776 ![] h (signi (constantI S_ 32 k))))
        (cmpi .ne (Host.remsi x (broadcastInDim S523776 ![] h (constantI S_ 32 k)))
          (broadcastInDim S523776 ![] h (constantI S_ 32 0#32))))
      (subi (Host.divsi x (broadcastInDim S523776 ![] h (constantI S_ 32 k)))
        (broadcastInDim S523776 ![] h (constantI S_ 32 1#32)))
      (Host.divsi x (broadcastInDim S523776 ![] h (constantI S_ 32 k)))
    = fun i => BitVec.ofNat 32 ((x i).toNat / k.toNat) := by
  funext i
  simp only [select, andi, cmpi, signi, Host.remsi, Host.divsi, subi, constantI, broadcastInDim]
  exact IntArith.floor_divide_small (x i) k (hx i) hk0 hk

/-- jax's `remainder` of a vector of small non-negative words by a small positive scalar constant, the constant
    guarded against zero as jax guards it: the remainder of the values at each element. -/
theorem remainder_vec (h : S_.BroadcastsInDim S523776 (![] : Fin 0 → Fin S523776.rank))
    (x : IVec S523776 32) (k : BitVec 32)
    (hx : ∀ i, (x i).toNat < 2 ^ 30) (hk0 : 0 < k.toNat) (hk : k.toNat < 2 ^ 30) :
    select
      (andi
        (cmpi .ne
          (cmpi .slt
            (Host.remsi x (broadcastInDim S523776 ![] h
              (select (cmpi .eq (constantI S_ 32 k) (constantI S_ 32 0#32)) (constantI S_ 32 1#32) (constantI S_ 32 k))))
            (broadcastInDim S523776 ![] h (constantI S_ 32 0#32)))
          (broadcastInDim S523776 ![] h
            (cmpi .slt
              (select (cmpi .eq (constantI S_ 32 k) (constantI S_ 32 0#32)) (constantI S_ 32 1#32) (constantI S_ 32 k))
              (constantI S_ 32 0#32))))
        (cmpi .ne
          (Host.remsi x (broadcastInDim S523776 ![] h
            (select (cmpi .eq (constantI S_ 32 k) (constantI S_ 32 0#32)) (constantI S_ 32 1#32) (constantI S_ 32 k))))
          (broadcastInDim S523776 ![] h (constantI S_ 32 0#32))))
      (addi
        (Host.remsi x (broadcastInDim S523776 ![] h
          (select (cmpi .eq (constantI S_ 32 k) (constantI S_ 32 0#32)) (constantI S_ 32 1#32) (constantI S_ 32 k))))
        (broadcastInDim S523776 ![] h
          (select (cmpi .eq (constantI S_ 32 k) (constantI S_ 32 0#32)) (constantI S_ 32 1#32) (constantI S_ 32 k))))
      (Host.remsi x (broadcastInDim S523776 ![] h
        (select (cmpi .eq (constantI S_ 32 k) (constantI S_ 32 0#32)) (constantI S_ 32 1#32) (constantI S_ 32 k))))
    = fun i => BitVec.ofNat 32 ((x i).toNat % k.toNat) := by
  funext i
  simp only [select, andi, cmpi, Host.remsi, addi, constantI, broadcastInDim]
  exact IntArith.remainder_small (x i) k (hx i) hk0 hk

/-! ## The flat positions are small -/

/-- The flat position of the p-th set entry of the triangle, as a word, has its value, below `2^20`. -/
theorem flat_small (p : S523776.Idx) :
    (BitVec.ofNat 32 (Count.sel Count.tri 1048576 (p 0).val)).toNat = Count.sel Count.tri 1048576 (p 0).val
      ∧ Count.sel Count.tri 1048576 (p 0).val < 1048576 := by
  have hlt : Count.sel Count.tri 1048576 (p 0).val < 1048576 := Count.tri_sel_lt (p 0).isLt
  exact ⟨IntArith.toNat_ofNat_small _ (by omega), hlt⟩

/-! ## The rows and the columns -/

/-- The rows: the flat position of the p-th set entry divided by 1024. -/
theorem v17_eq (W : Idealize.ShloMosaic.Valuation τ sig (Elt F))
    (h15 : W (Proc.devRef .tc main_v15) = fun p => BitVec.ofNat 32 (Count.sel Count.tri 1048576 (p 0).val)) :
    after opsC W (Proc.devRef .tc main_v17)
      = fun p => BitVec.ofNat 32 (Count.sel Count.tri 1048576 (p 0).val / 1024) := by
  after_results_simp
  simp only [TRef.ofBuf, TRef.toBuf, cast_eq, id_eq]
  rw [h15]
  rw [floor_divide_vec _ _ 1024#32 (fun i => by rw [(flat_small i).1]; have := (flat_small i).2; omega)
    (by decide) (by decide)]
  rw [remainder_vec _ _ 1024#32
    (fun i => by
      show (BitVec.ofNat 32 (_ / _)).toNat < _
      have h1 := (flat_small i).1
      have h2 := (flat_small i).2
      rw [h1, show (1024#32 : BitVec 32).toNat = 1024 from rfl, IntArith.toNat_ofNat_small _ (by omega)]
      omega)
    (by decide) (by decide)]
  funext p
  have h1 := (flat_small p).1
  have h2 := (flat_small p).2
  show BitVec.ofNat 32 ((BitVec.ofNat 32 (_ / _)).toNat % _) = _
  rw [h1, show (1024#32 : BitVec 32).toNat = 1024 from rfl, IntArith.toNat_ofNat_small _ (by omega),
    Nat.mod_eq_of_lt (by omega)]

/-- The columns: the flat position of the p-th set entry modulo 1024. -/
theorem v19_eq (W : Idealize.ShloMosaic.Valuation τ sig (Elt F))
    (h15 : W (Proc.devRef .tc main_v15) = fun p => BitVec.ofNat 32 (Count.sel Count.tri 1048576 (p 0).val)) :
    after opsC W (Proc.devRef .tc main_v19)
      = fun p => BitVec.ofNat 32 (Count.sel Count.tri 1048576 (p 0).val % 1024) := by
  after_results_simp
  simp only [TRef.ofBuf, TRef.toBuf, cast_eq, id_eq]
  rw [h15]
  rw [floor_divide_vec _ _ 1#32 (fun i => by rw [(flat_small i).1]; have := (flat_small i).2; omega)
    (by decide) (by decide)]
  rw [remainder_vec _ _ 1024#32
    (fun i => by
      show (BitVec.ofNat 32 (_ / _)).toNat < _
      have h1 := (flat_small i).1
      have h2 := (flat_small i).2
      rw [h1, show (1#32 : BitVec 32).toNat = 1 from rfl, Nat.div_one, h1]
      omega)
    (by decide) (by decide)]
  funext p
  have h1 := (flat_small p).1
  show BitVec.ofNat 32 ((BitVec.ofNat 32 (_ / _)).toNat % _) = _
  rw [h1, show (1#32 : BitVec 32).toNat = 1 from rfl, Nat.div_one, h1,
    show (1024#32 : BitVec 32).toNat = 1024 from rfl]

/-! ## The arguments are kept -/

/-- The operations of this stretch leave the first argument as it was. -/
theorem opsC_arg0 (W : Idealize.ShloMosaic.Valuation τ sig (Elt F)) :
    after opsC W (Proc.devRef .tc main_arg0) = W (Proc.devRef .tc main_arg0) := by
  after_results_simp

/-- The operations of this stretch leave the second argument as it was. -/
theorem opsC_arg1 (W : Idealize.ShloMosaic.Valuation τ sig (Elt F)) :
    after opsC W (Proc.devRef .tc main_arg1) = W (Proc.devRef .tc main_arg1) := by
  after_results_simp

end Cert.ReferenceIdeal.Hand

end
-- ==== Proof.RefValD.lean ====
/- The first stretch of the reference's last window, read at an index: with the two index tables holding the
   row and the column of the p-th pair of the strict upper triangle, the wrapped difference `%42` at (b, p, c) is
   the minimum-image wrap of pos[b, row p, c] - pos[b, col p, c] by the box edge cell[b, c, c]; the array `%43` is
   zero; and the stretch leaves the two tables and the two arguments as they were. -/
import proofs.«180452_j36309653520599_1_alg».proof.Proof.RefRun
import proofs.«180452_j36309653520599_1_alg».proof.Proof.Gathers
import proofs.«180452_j36309653520599_1_alg».proof.Proof.IntArith
import proofs.«180452_j36309653520599_1_alg».proof.Proof.Count
import proofs.«180452_j36309653520599_1_alg».proof.Proof.Spec
import Idealize.ShloMosaic.Lib.Pipeline.Value
import Idealize.ShloMosaic.PureOps.Ideal.Laws

noncomputable section

namespace Cert.Proof.RefValD

open Cert.ReferenceIdeal Cert.ReferenceIdeal.Gen Cert.ReferenceIdeal.Hand
open Idealize.ShloMosaic Idealize.ShloMosaic.StableHlo Idealize.ShloMosaic.ValueIdx
open Cert.Proof.Count

/-- The row of the p-th pair of the strict upper triangle of the 1024 × 1024 grid, in row-major order. -/
def rowOf (p : Fin 523776) : Fin 1024 :=
  ⟨sel tri 1048576 p.val / 1024, by have := tri_sel_lt p.isLt; omega⟩

/-- The column of the p-th pair. -/
def colOf (p : Fin 523776) : Fin 1024 :=
  ⟨sel tri 1048576 p.val % 1024, Nat.mod_lt _ (by norm_num)⟩

/-- The positions argument of a valuation of the reference's buffers, as an array of extended reals. -/
abbrev posOf (W : Valuation τ sig (Elt Ideal)) : S32x1024x3.Idx → EReal := W (Proc.devRef .tc main_arg0)
/-- The cell argument of a valuation of the reference's buffers, as an array of extended reals. -/
abbrev cellOf (W : Valuation τ sig (Elt Ideal)) : S32x3x3.Idx → EReal := W (Proc.devRef .tc main_arg1)

/-! ## The stretch's result as one term of its four inputs -/

/-- A table of indices, normalised as the program does it (1024 added where negative) and made a column. -/
abbrev normCol (v : IVec S523776 32) : IVec S523776x1 32 :=
  broadcastInDim S523776x1 ![0] bcast_S523776_S523776x1_0
    (select (cmpi .slt v (broadcastInDim S523776 ![] bcast_S_S523776 (constantI S_ 32 0#32)))
      (addi v (broadcastInDim S523776 ![] bcast_S_S523776 (constantI S_ 32 1024#32))) v)

/-- `%34`: the positions gathered at the row table minus the positions gathered at the column table. -/
abbrev dispD (pos : FVec Ideal S32x1024x3 .f32) (vr vc : IVec S523776 32) : FVec Ideal S32x523776x3 .f32 :=
  subf (Host.gather gather_S32x1024x3_S523776x1_S32x523776x3_02_1_n_n_1_1_3213 pos (normCol vr))
    (Host.gather gather_S32x1024x3_S523776x1_S32x523776x3_02_1_n_n_1_1_3213 pos (normCol vc))

/-- `%37` (and `%40`): the diagonal of the cell, broadcast along the pair axis. -/
abbrev edgeD (cell : FVec Ideal S32x3x3 .f32) : FVec Ideal S32x523776x3 .f32 :=
  broadcastInDim S32x523776x3 ![0, 1, 2] bcast_S32x1x3_S32x523776x3_0_1_2
    (broadcastInDim S32x1x3 ![0, 2] bcast_S32x3_S32x1x3_0_2
      (Host.gather gather_S32x3x3_S3x2_S32x3_0_12_n_n_12_1_3211 cell
        (Gathers.diagStart bcast_S_S3 bcast_S3_S3x1_0 concatenates_S3x1_S3x1_S3x2_d1)))

/-- `%42`: the difference less its quotient by the box edge, rounded to nearest-even, times the edge. -/
abbrev wrapD (pos : FVec Ideal S32x1024x3 .f32) (cell : FVec Ideal S32x3x3 .f32) (vr vc : IVec S523776 32) :
    FVec Ideal S32x523776x3 .f32 :=
  subf (dispD pos vr vc) (mulf (Host.roundeven (Host.divf (dispD pos vr vc) (edgeD cell))) (edgeD cell))

/-- The row and column tables of a valuation, as arrays of words. -/
abbrev rowTab (W : Valuation τ sig (Elt Ideal)) : IVec S523776 32 := W (Proc.devRef .tc main_v17)
abbrev colTab (W : Valuation τ sig (Elt Ideal)) : IVec S523776 32 := W (Proc.devRef .tc main_v19)

/-! ## The term at an index -/

/-- A table holding at `p` the word of a number below 1024: its normalised column holds the same word. -/
theorem normCol_apply (v : IVec S523776 32) (p : Fin 523776) (r : Nat) (hr : r < 1024)
    (hv : v (ix1 p) = BitVec.ofNat 32 r) : normCol v (ix2 p 0) = BitVec.ofNat 32 r := by
  have e : normCol v (ix2 p 0)
      = Scalar.select (IntOp.cmpi .slt (v (ix1 p)) 0#32) (IntOp.addi (v (ix1 p)) 1024#32) (v (ix1 p)) :=
    broadcastInDim_apply _ bcast_S523776_S523776x1_0 _ (ix2 p 0) (ix1 p) (by
      intro a
      match a with
      | ⟨0, _⟩ => rfl)
  rw [e, hv]
  exact IntArith.index_norm_small _ _ (by rw [IntArith.toNat_ofNat_small _ (by omega)]; omega)

/-- The cell's diagonal broadcast along the pair axis, at (b, p, c): the box edge cell[b, c, c]. -/
theorem edgeD_apply (cell : FVec Ideal S32x3x3 .f32) (b : Fin 32) (p : Fin 523776) (c : Fin 3) :
    edgeD cell (ix3 b p c) = cell (ix3 b c c) := by
  have e1 : edgeD cell (ix3 b p c)
      = broadcastInDim S32x1x3 ![0, 2] bcast_S32x3_S32x1x3_0_2
          (Host.gather gather_S32x3x3_S3x2_S32x3_0_12_n_n_12_1_3211 cell
            (Gathers.diagStart bcast_S_S3 bcast_S3_S3x1_0 concatenates_S3x1_S3x1_S3x2_d1)) (ix3 b 0 c) :=
    broadcastInDim_apply _ bcast_S32x1x3_S32x523776x3_0_1_2 _ (ix3 b p c) (ix3 b 0 c) (by
      intro a
      match a with
      | ⟨0, _⟩ => rfl
      | ⟨1, _⟩ => rfl
      | ⟨2, _⟩ => rfl)
  have e2 : broadcastInDim S32x1x3 ![0, 2] bcast_S32x3_S32x1x3_0_2
          (Host.gather gather_S32x3x3_S3x2_S32x3_0_12_n_n_12_1_3211 cell
            (Gathers.diagStart bcast_S_S3 bcast_S3_S3x1_0 concatenates_S3x1_S3x1_S3x2_d1)) (ix3 b 0 c)
      = Host.gather gather_S32x3x3_S3x2_S32x3_0_12_n_n_12_1_3211 cell
            (Gathers.diagStart bcast_S_S3 bcast_S3_S3x1_0 concatenates_S3x1_S3x1_S3x2_d1) (ix2 b c) :=
    broadcastInDim_apply _ bcast_S32x3_S32x1x3_0_2 _ (ix3 b 0 c) (ix2 b c) (by
      intro a
      match a with
      | ⟨0, _⟩ => rfl
      | ⟨1, _⟩ => rfl)
  rw [e1, e2]
  exact Gathers.gather_diagStart_apply _ rfl rfl rfl rfl rfl rfl rfl _ _ _ cell b c

/-- The difference of the two row gathers at (b, p, c), the tables holding the words of `i` and `j` at `p`. -/
theorem dispD_apply (pos : FVec Ideal S32x1024x3 .f32) (vr vc : IVec S523776 32) (b : Fin 32) (p : Fin 523776)
    (c : Fin 3) (i j : Fin 1024) (hr : vr (ix1 p) = BitVec.ofNat 32 i.val) (hc : vc (ix1 p) = BitVec.ofNat 32 j.val) :
    dispD pos vr vc (ix3 b p c) = pos (ix3 b i c) - pos (ix3 b j c) := by
  have e : dispD pos vr vc (ix3 b p c)
      = Host.gather gather_S32x1024x3_S523776x1_S32x523776x3_02_1_n_n_1_1_3213 pos (normCol vr) (ix3 b p c)
        - Host.gather gather_S32x1024x3_S523776x1_S32x523776x3_02_1_n_n_1_1_3213 pos (normCol vc) (ix3 b p c) := rfl
  rw [e, Gathers.gather_row_apply _ rfl rfl rfl rfl rfl rfl rfl pos (normCol vr) b p c i.val i.isLt
      (normCol_apply vr p i.val i.isLt hr),
    Gathers.gather_row_apply _ rfl rfl rfl rfl rfl rfl rfl pos (normCol vc) b p c j.val j.isLt
      (normCol_apply vc p j.val j.isLt hc)]

/-- The whole term at (b, p, c): the minimum-image wrap of the pair's displacement along axis c. -/
theorem wrapD_apply (pos : FVec Ideal S32x1024x3 .f32) (cell : FVec Ideal S32x3x3 .f32) (vr vc : IVec S523776 32)
    (b : Fin 32) (p : Fin 523776) (c : Fin 3) (i j : Fin 1024)
    (hr : vr (ix1 p) = BitVec.ofNat 32 i.val) (hc : vc (ix1 p) = BitVec.ofNat 32 j.val) :
    wrapD pos cell vr vc (ix3 b p c) = Cert.Proof.Spec.wrap (pos (ix3 b i c) - pos (ix3 b j c)) (cell (ix3 b c c)) := by
  have e : wrapD pos cell vr vc (ix3 b p c)
      = Cert.Proof.Spec.wrap (dispD pos vr vc (ix3 b p c)) (edgeD cell (ix3 b p c)) := rfl
  rw [e, dispD_apply pos vr vc b p c i j hr hc, edgeD_apply]

/-! ## The run of the stretch -/

set_option maxHeartbeats 1000000 in
/-- `%42` after the stretch is the one term, at the valuation's arguments and tables. -/
theorem v42_run (W : Valuation τ sig (Elt Ideal)) :
    after (opsD (F := Ideal)) W (Proc.devRef .tc main_v42) = wrapD (posOf W) (cellOf W) (rowTab W) (colTab W) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

/-! ## The statements the certificate uses -/

/-- The stretch writes neither index table and neither argument. -/
theorem v17_kept (W : Valuation τ sig (Elt Ideal)) :
    after (opsD (F := Ideal)) W (Proc.devRef .tc main_v17) = W (Proc.devRef .tc main_v17) :=
  opsD_keeps (r := main_v17) (by decide) W
theorem v19_kept (W : Valuation τ sig (Elt Ideal)) :
    after (opsD (F := Ideal)) W (Proc.devRef .tc main_v19) = W (Proc.devRef .tc main_v19) :=
  opsD_keeps (r := main_v19) (by decide) W
theorem arg0_kept (W : Valuation τ sig (Elt Ideal)) :
    after (opsD (F := Ideal)) W (Proc.devRef .tc main_arg0) = W (Proc.devRef .tc main_arg0) :=
  opsD_keeps (r := main_arg0) (by decide) W
theorem arg1_kept (W : Valuation τ sig (Elt Ideal)) :
    after (opsD (F := Ideal)) W (Proc.devRef .tc main_arg1) = W (Proc.devRef .tc main_arg1) :=
  opsD_keeps (r := main_arg1) (by decide) W

/-- `%43` is the zero array: the broadcast of the constant whose word is the zero pattern. -/
theorem v43_eq (W : Valuation τ sig (Elt Ideal)) :
    after (opsD (F := Ideal)) W (Proc.devRef .tc main_v43) = fun _ => (0 : EReal) := by
  after_results_simp
  funext k
  exact Ideal.ofBits_zero_f32

/-- `%42` at (b, p, c), the two tables holding the row and the column of the p-th pair of the strict upper
    triangle: the wrap of pos[b, row p, c] - pos[b, col p, c] by the box edge cell[b, c, c]. -/
theorem v42_eq (W : Valuation τ sig (Elt Ideal))
    (hr : W (Proc.devRef .tc main_v17) = fun p => BitVec.ofNat 32 (sel tri 1048576 (p 0).val / 1024))
    (hc : W (Proc.devRef .tc main_v19) = fun p => BitVec.ofNat 32 (sel tri 1048576 (p 0).val % 1024)) :
    after (opsD (F := Ideal)) W (Proc.devRef .tc main_v42)
      = fun k => Cert.Proof.Spec.wrap
          (posOf W (ix3 (k 0) (rowOf (k 1)) (k 2)) - posOf W (ix3 (k 0) (colOf (k 1)) (k 2)))
          (cellOf W (ix3 (k 0) (k 2) (k 2))) := by
  rw [v42_run]
  funext k
  obtain ⟨b, p, c, rfl⟩ : ∃ (b : Fin 32) (p : Fin 523776) (c : Fin 3), k = ix3 b p c := ⟨k 0, k 1, k 2, eq_ix3 k⟩
  exact wrapD_apply (posOf W) (cellOf W) (rowTab W) (colTab W) b p c (rowOf p) (colOf p)
    (congrFun hr (ix1 p)) (congrFun hc (ix1 p))

end Cert.Proof.RefValD

end
-- ==== Proof.RefVal.lean ====
/- The value of the reference program's last two stretches: with the row and column tables of the strict upper
   triangle in place, the wrapped displacements of the listed pairs are scattered to the pairs' own positions, which
   writes exactly the strict upper triangle of the dense displacement matrix into the zero array; the result is that
   triangle minus its transpose in the two atom axes. -/
import proofs.«180452_j36309653520599_1_alg».proof.Proof.RefOpsDE
import proofs.«180452_j36309653520599_1_alg».proof.Proof.RefRun
import proofs.«180452_j36309653520599_1_alg».proof.Proof.Spec
import proofs.«180452_j36309653520599_1_alg».proof.Proof.Count
import proofs.«180452_j36309653520599_1_alg».proof.Proof.Folds
import proofs.«180452_j36309653520599_1_alg».proof.Proof.RefValD
import proofs.«180452_j36309653520599_1_alg».proof.Proof.IntArith
import Idealize.ShloMosaic.Lib.ValueIdx
import Idealize.ShloMosaic.Lib.Pipeline.Value
import Idealize.ShloMosaic.PureOps.Ideal

noncomputable section

namespace Cert.Proof.RefVal

open Idealize.ShloMosaic Idealize.ShloMosaic.ValueIdx

/-- THE PAIR SCATTER's landing position: update `(b, p, c)` carries `b` and `c` on the operand's kept axes 0 and 3, and
    the two inserted axes 1 and 2 start at the two components of scatter index `p`, read signed; when those words hold
    `r0, r1 < 1024` the update lands inside the operand, at `(b, r0, r1, c)`. -/
theorem resultIdx_pair (d : ScatterDims ⟨4, ![32, 1024, 1024, 3]⟩ ⟨2, ![523776, 2]⟩ ⟨3, ![32, 523776, 3]⟩)
    (huw : d.updateWindowDims = [0, 2]) (hiw : d.insertedWindowDims = [1, 2])
    (hsd : d.scatterDimsToOperandDims = [1, 2]) (hiv : d.indexVectorDim = 1)
    (idx : IVec ⟨2, ![523776, 2]⟩ 32) (b : Fin 32) (p : Fin 523776) (c : Fin 3) (r0 r1 : Nat)
    (h0 : r0 < 1024) (h1 : r1 < 1024)
    (e0 : idx (ix2 p 0) = BitVec.ofNat 32 r0) (e1 : idx (ix2 p 1) = BitVec.ofNat 32 r1) :
    d.resultIdx? (ix3 b p c) idx = some (ix4 b ⟨r0, h0⟩ ⟨r1, h1⟩ c) := by
  obtain ⟨uw, iw, sd, iv, wf⟩ := d
  simp only at huw hiw hsd hiv
  subst huw hiw hsd hiv
  generalize hD : (ScatterDims.mk (s := ⟨4, ![32, 1024, 1024, 3]⟩) (si := ⟨2, ![523776, 2]⟩) (u := ⟨3, ![32, 523776, 3]⟩) [0, 2] [1, 2] [1, 2] 1 wf) = D
  have hs0 : D.start (ix3 b p c) idx ⟨0, by decide⟩ = 0 := by
    subst hD; unfold ScatterDims.start
    rw [dif_neg (show (⟨0, by decide⟩ : Fin 4) ∉ ([1, 2] : List (Fin 4)) by decide)]
  have hs3 : D.start (ix3 b p c) idx ⟨3, by decide⟩ = 0 := by
    subst hD; unfold ScatterDims.start
    rw [dif_neg (show (⟨3, by decide⟩ : Fin 4) ∉ ([1, 2] : List (Fin 4)) by decide)]
  have hs1 : D.start (ix3 b p c) idx ⟨1, by decide⟩ = (r0 : Int) := by
    subst hD; unfold ScatterDims.start
    rw [dif_pos (show (⟨1, by decide⟩ : Fin 4) ∈ ([1, 2] : List (Fin 4)) by decide)]
    have hsi : ∀ pf, ScatterDims.siIdx (ScatterDims.mk (s := ⟨4, ![32, 1024, 1024, 3]⟩) (si := ⟨2, ![523776, 2]⟩) (u := ⟨3, ![32, 523776, 3]⟩) [0, 2] [1, 2] [1, 2] 1 wf) (ix3 b p c)
        ⟨List.idxOf (⟨1, by decide⟩ : Fin 4) ([1, 2] : List (Fin 4)), pf⟩ = ix2 p 0 := by
      intro pf; funext e; refine Fin.ext ?_
      match e with
      | ⟨0, _⟩ => rfl
      | ⟨1, _⟩ => rfl
    rw [hsi, e0, IntArith.toInt_ofNat_small _ (by omega)]
  have hs2 : D.start (ix3 b p c) idx ⟨2, by decide⟩ = (r1 : Int) := by
    subst hD; unfold ScatterDims.start
    rw [dif_pos (show (⟨2, by decide⟩ : Fin 4) ∈ ([1, 2] : List (Fin 4)) by decide)]
    have hsi : ∀ pf, ScatterDims.siIdx (ScatterDims.mk (s := ⟨4, ![32, 1024, 1024, 3]⟩) (si := ⟨2, ![523776, 2]⟩) (u := ⟨3, ![32, 523776, 3]⟩) [0, 2] [1, 2] [1, 2] 1 wf) (ix3 b p c)
        ⟨List.idxOf (⟨2, by decide⟩ : Fin 4) ([1, 2] : List (Fin 4)), pf⟩ = ix2 p 1 := by
      intro pf; funext e; refine Fin.ext ?_
      match e with
      | ⟨0, _⟩ => rfl
      | ⟨1, _⟩ => rfl
    rw [hsi, e1, IntArith.toInt_ofNat_small _ (by omega)]
  have hw0 : D.window (ix3 b p c) ⟨0, by decide⟩ = b.val := by
    subst hD; unfold ScatterDims.window
    rw [dif_pos (show (⟨0, by decide⟩ : Fin 4) ∈ (Shape.kept ⟨4, ![32, 1024, 1024, 3]⟩ [1, 2] : List (Fin 4)) by decide)]; rfl
  have hw3 : D.window (ix3 b p c) ⟨3, by decide⟩ = c.val := by
    subst hD; unfold ScatterDims.window
    rw [dif_pos (show (⟨3, by decide⟩ : Fin 4) ∈ (Shape.kept ⟨4, ![32, 1024, 1024, 3]⟩ [1, 2] : List (Fin 4)) by decide)]; rfl
  have hw1 : D.window (ix3 b p c) ⟨1, by decide⟩ = 0 := by
    subst hD; unfold ScatterDims.window
    rw [dif_neg (show (⟨1, by decide⟩ : Fin 4) ∉ (Shape.kept ⟨4, ![32, 1024, 1024, 3]⟩ [1, 2] : List (Fin 4)) by decide)]
  have hw2 : D.window (ix3 b p c) ⟨2, by decide⟩ = 0 := by
    subst hD; unfold ScatterDims.window
    rw [dif_neg (show (⟨2, by decide⟩ : Fin 4) ∉ (Shape.kept ⟨4, ![32, 1024, 1024, 3]⟩ [1, 2] : List (Fin 4)) by decide)]
  have hb := b.isLt
  have hc := c.isLt
  have H : ∀ a : Fin 4, 0 ≤ D.start (ix3 b p c) idx a + D.window (ix3 b p c) a ∧
      D.start (ix3 b p c) idx a + D.window (ix3 b p c) a < (⟨4, ![32, 1024, 1024, 3]⟩ : Shape).size a := by
    intro a
    match a with
    | ⟨0, _⟩ => rw [hs0, hw0]; show (0 : Int) ≤ 0 + (b.val : Int) ∧ 0 + (b.val : Int) < ((32 : Nat) : Int); omega
    | ⟨1, _⟩ => rw [hs1, hw1]; show (0 : Int) ≤ (r0 : Int) + ((0 : Nat) : Int) ∧ (r0 : Int) + ((0 : Nat) : Int) < ((1024 : Nat) : Int); omega
    | ⟨2, _⟩ => rw [hs2, hw2]; show (0 : Int) ≤ (r1 : Int) + ((0 : Nat) : Int) ∧ (r1 : Int) + ((0 : Nat) : Int) < ((1024 : Nat) : Int); omega
    | ⟨3, _⟩ => rw [hs3, hw3]; show (0 : Int) ≤ 0 + (c.val : Int) ∧ 0 + (c.val : Int) < ((3 : Nat) : Int); omega
  unfold ScatterDims.resultIdx?
  rw [dif_pos H]
  refine congrArg some (funext fun a => Fin.ext ?_)
  match a with
  | ⟨0, _⟩ => show (D.start (ix3 b p c) idx ⟨0, by decide⟩ + D.window (ix3 b p c) ⟨0, by decide⟩).toNat = b.val; rw [hs0, hw0]; omega
  | ⟨1, _⟩ => show (D.start (ix3 b p c) idx ⟨1, by decide⟩ + D.window (ix3 b p c) ⟨1, by decide⟩).toNat = r0; rw [hs1, hw1]; omega
  | ⟨2, _⟩ => show (D.start (ix3 b p c) idx ⟨2, by decide⟩ + D.window (ix3 b p c) ⟨2, by decide⟩).toNat = r1; rw [hs2, hw2]; omega
  | ⟨3, _⟩ => show (D.start (ix3 b p c) idx ⟨3, by decide⟩ + D.window (ix3 b p c) ⟨3, by decide⟩).toNat = c.val; rw [hs3, hw3]; omega

end Cert.Proof.RefVal

namespace Cert.ReferenceIdeal.Hand

open Cert.ReferenceIdeal Cert.ReferenceIdeal.Gen Idealize.ShloMosaic Idealize.ShloMosaic.StableHlo Idealize.ShloMosaic.ValueIdx
open Cert.Proof Cert.Proof.RefVal
open Cert.Proof.RefValD (rowOf colOf posOf cellOf)

/-- An index table with the normalisation of negative indices applied: `select (x < 0) (x + 1024) x`. -/
def normIdx (R : IVec S523776 32) : IVec S523776 32 :=
  select (cmpi .slt R (broadcastInDim S523776 ![] bcast_S_S523776 (constantI S_ 32 0#32)))
    (addi R (broadcastInDim S523776 ![] bcast_S_S523776 (constantI S_ 32 1024#32))) R

/-- The pair table the scatter reads: the two normalised tables as the two columns of a 523776 × 2 array. -/
def pairIdx (R C : IVec S523776 32) : IVec S523776x2 32 :=
  concatenate S523776x2 1
    [⟨S523776x1, broadcastInDim S523776x1 ![0] bcast_S523776_S523776x1_0 (normIdx R)⟩,
     ⟨S523776x1, broadcastInDim S523776x1 ![0] bcast_S523776_S523776x1_0 (normIdx C)⟩]
    concatenates_S523776x1_S523776x1_S523776x2_d1

/-- A table entry that is a non-negative word is left alone by the normalisation. -/
theorem normIdx_apply (R : IVec S523776 32) (i : S523776.Idx) (hx : (R i).toNat < 2 ^ 31) : normIdx R i = R i :=
  IntArith.index_norm_small (R i) 1024#32 hx

theorem pairIdx_left (R C : IVec S523776 32) (p : Fin 523776) (hx : (R (ix1 p)).toNat < 2 ^ 31) :
    pairIdx R C (ix2 p 0) = R (ix1 p) := by
  unfold pairIdx
  rw [concatenate_pair_apply_left (t := S523776x2) (s₁ := S523776x1) (s₂ := S523776x1) (1 : Fin 2) _ _
    concatenates_S523776x1_S523776x1_S523776x2_d1 (ix2 p (0 : Fin 2)) (Eq.refl 2)
    (ix2 p (0 : Fin 1)) (fun b => match b with | ⟨0, _⟩ => rfl | ⟨1, _⟩ => rfl)]
  rw [broadcastInDim_apply ![0] bcast_S523776_S523776x1_0 (normIdx R) (ix2 p (0 : Fin 1)) (ix1 p)
    (fun a => match a with | ⟨0, _⟩ => by show p.val = if (523776 : ℕ) = 1 then 0 else p.val; rw [if_neg (by decide)])]
  exact normIdx_apply R (ix1 p) hx

theorem pairIdx_right (R C : IVec S523776 32) (p : Fin 523776) (hx : (C (ix1 p)).toNat < 2 ^ 31) :
    pairIdx R C (ix2 p 1) = C (ix1 p) := by
  unfold pairIdx
  rw [concatenate_pair_apply_right (t := S523776x2) (s₁ := S523776x1) (s₂ := S523776x1) (1 : Fin 2) _ _
    concatenates_S523776x1_S523776x1_S523776x2_d1 (ix2 p (1 : Fin 2)) (Eq.refl 2) (Eq.refl 2)
    (ix2 p (0 : Fin 1)) (fun b => match b with | ⟨0, _⟩ => fun _ => rfl | ⟨1, _⟩ => fun h => absurd rfl h) rfl]
  rw [broadcastInDim_apply ![0] bcast_S523776_S523776x1_0 (normIdx C) (ix2 p (0 : Fin 1)) (ix1 p)
    (fun a => match a with | ⟨0, _⟩ => by show p.val = if (523776 : ℕ) = 1 then 0 else p.val; rw [if_neg (by decide)])]
  exact normIdx_apply C (ix1 p) hx

theorem ex_ix3 (n : S32x523776x3.Idx) : ∃ (b : Fin 32) (p : Fin 523776) (c : Fin 3), n = ix3 b p c :=
  ⟨n 0, n 1, n 2, eq_ix3 n⟩

theorem ex_ix4 (i : S32x1024x1024x3.Idx) : ∃ (b : Fin 32) (i1 i2 : Fin 1024) (c : Fin 3), i = ix4 b i1 i2 c :=
  ⟨i 0, i 1, i 2, i 3, eq_ix4 i⟩

/-- Where update `(b, p, c)` of the pair scatter lands when the two tables hold the rows and the columns of the
    triangle's pairs: at `(b, row p, col p, c)`, always inside the array. -/
theorem landing (R C : IVec S523776 32)
    (hR : ∀ p : Fin 523776, R (ix1 p) = BitVec.ofNat 32 (rowOf p).val)
    (hC : ∀ p : Fin 523776, C (ix1 p) = BitVec.ofNat 32 (colOf p).val)
    (b : Fin 32) (p : Fin 523776) (c : Fin 3) :
    scatter_S32x1024x1024x3_S523776x2_S32x523776x3_02_12_12_1.resultIdx? (ix3 b p c) (pairIdx R C)
      = some (ix4 b (rowOf p) (colOf p) c) := by
  have hr := (rowOf p).isLt
  have hc := (colOf p).isLt
  have hx0 : (R (ix1 p)).toNat < 2 ^ 31 := by
    rw [hR, IntArith.toNat_ofNat_small _ (by omega)]; omega
  have hx1 : (C (ix1 p)).toNat < 2 ^ 31 := by
    rw [hC, IntArith.toNat_ofNat_small _ (by omega)]; omega
  exact resultIdx_pair scatter_S32x1024x1024x3_S523776x2_S32x523776x3_02_12_12_1 rfl rfl rfl rfl (pairIdx R C)
    b p c (rowOf p).val (colOf p).val hr hc
    ((pairIdx_left R C p hx0).trans (hR _)) ((pairIdx_right R C p hx1).trans (hC _))

/-- The pair scatter into a zero array, the update of pair `p` the displacement entry of its row and column, writes
    the strict upper triangle of the displacement matrix: an element `(b, i, j, c)` is hit exactly when `i < j` (the
    pair's row is below its column; every such `(i, j)` is some pair's), and every update landing there carries the
    entry. -/
theorem scatter_upper (pos : Spec.SPos.Idx → EReal) (cell : Spec.SCell.Idx → EReal) (R C : IVec S523776 32)
    (hR : ∀ p : Fin 523776, R (ix1 p) = BitVec.ofNat 32 (rowOf p).val)
    (hC : ∀ p : Fin 523776, C (ix1 p) = BitVec.ofNat 32 (colOf p).val)
    (x : S32x1024x1024x3.Idx → EReal) (hx : ∀ i, x i = 0)
    (upd : S32x523776x3.Idx → EReal)
    (hupd : ∀ (b : Fin 32) (p : Fin 523776) (c : Fin 3), upd (ix3 b p c) = Spec.disp pos cell b (rowOf p) (colOf p) c) :
    Host.scatter scatter_S32x1024x1024x3_S523776x2_S32x523776x3_02_12_12_1 (fun _ b => b) x (pairIdx R C) upd
      = Spec.upper pos cell := by
  funext i
  obtain ⟨b, i1, i2, c, rfl⟩ := ex_ix4 i
  have hg : ∀ n j, scatter_S32x1024x1024x3_S523776x2_S32x523776x3_02_12_12_1.resultIdx? n (pairIdx R C) = some j →
      upd n = Spec.G pos cell j := by
    intro n j hn
    obtain ⟨b', p', c', rfl⟩ := ex_ix3 n
    rw [landing R C hR hC] at hn
    obtain rfl := Option.some.inj hn
    rw [hupd]; rfl
  by_cases h : i1.val < i2.val
  · obtain ⟨p, hp, hsel⟩ := Count.tri_surj i2.isLt h
    have h2 := i2.isLt
    have hrow : rowOf ⟨p, hp⟩ = i1 := Fin.ext (by
      show Count.sel Count.tri 1048576 p / 1024 = i1.val
      rw [hsel]; omega)
    have hcol : colOf ⟨p, hp⟩ = i2 := Fin.ext (by
      show Count.sel Count.tri 1048576 p % 1024 = i2.val
      rw [hsel]; omega)
    have hit : ∃ n, scatter_S32x1024x1024x3_S523776x2_S32x523776x3_02_12_12_1.resultIdx? n (pairIdx R C)
        = some (ix4 b i1 i2 c) :=
      ⟨ix3 b ⟨p, hp⟩ c, by rw [landing R C hR hC, hrow, hcol]⟩
    rw [Folds.scatter_set_of_hit _ x (pairIdx R C) upd (Spec.G pos cell) hg _ hit]
    show Spec.disp pos cell b i1 i2 c = if i1.val < i2.val then Spec.disp pos cell b i1 i2 c else 0
    rw [if_pos h]
  · have miss : ∀ n, scatter_S32x1024x1024x3_S523776x2_S32x523776x3_02_12_12_1.resultIdx? n (pairIdx R C)
        ≠ some (ix4 b i1 i2 c) := by
      intro n hn
      obtain ⟨b', p', c', rfl⟩ := ex_ix3 n
      rw [landing R C hR hC] at hn
      have e := Option.some.inj hn
      have e1 : rowOf p' = i1 := congrFun e 1
      have e2 : colOf p' = i2 := congrFun e 2
      rw [← e1, ← e2] at h
      exact h (Count.tri_lt p'.isLt)
    rw [Folds.scatter_set_of_miss _ x (pairIdx R C) upd _ miss, hx]
    show (0 : EReal) = if i1.val < i2.val then Spec.disp pos cell b i1 i2 c else 0
    rw [if_neg h]

/-- The scatter `%57` as a term of the contents the last stretch starts from. -/
def upperOf (W : Valuation τ sig (Elt Ideal)) : S32x1024x1024x3.Idx → EReal :=
  Host.scatter scatter_S32x1024x1024x3_S523776x2_S32x523776x3_02_12_12_1 (fun _ b => b)
    (W (Proc.devRef .tc main_v43))
    (pairIdx (W (Proc.devRef .tc main_v17)) (W (Proc.devRef .tc main_v19)))
    (W (Proc.devRef .tc main_v42))

attribute [local irreducible] Host.scatter concatenate transpose in
set_option maxHeartbeats 1000000 in
/-- The last stretch's result, composed: the scatter minus its transpose in the two atom axes. -/
theorem E_closed (W : Valuation τ sig (Elt Ideal)) :
    after (opsE (F := Ideal)) W (Proc.devRef .tc main_v59)
      = subf (F := Ideal) (φ := .f32) (upperOf W)
          (transpose S32x1024x1024x3 [0, 2, 1, 3] (upperOf W) transposes_S32x1024x1024x3_S32x1024x1024x3_0_2_1_3) := by
  after_results
  rfl

/-- The last stretch from contents whose two tables are the triangle's rows and columns, whose `%42` holds each
    pair's displacement entry and whose `%43` is zero: the strict upper triangle minus its transpose. -/
theorem E_value (W : Valuation τ sig (Elt Ideal)) (pos : Spec.SPos.Idx → EReal) (cell : Spec.SCell.Idx → EReal)
    (h17 : ∀ p : Fin 523776, (W (Proc.devRef .tc main_v17) : IVec S523776 32) (ix1 p) = BitVec.ofNat 32 (rowOf p).val)
    (h19 : ∀ p : Fin 523776, (W (Proc.devRef .tc main_v19) : IVec S523776 32) (ix1 p) = BitVec.ofNat 32 (colOf p).val)
    (h43 : ∀ i, (W (Proc.devRef .tc main_v43) : S32x1024x1024x3.Idx → EReal) i = (0 : EReal))
    (h42 : ∀ (b : Fin 32) (p : Fin 523776) (c : Fin 3),
      (W (Proc.devRef .tc main_v42) : S32x523776x3.Idx → EReal) (ix3 b p c) = Spec.disp pos cell b (rowOf p) (colOf p) c) :
    after (opsE (F := Ideal)) W (Proc.devRef .tc main_v59) = Spec.antisym pos cell := by
  rw [E_closed]
  unfold upperOf
  rw [scatter_upper pos cell _ _ h17 h19 _ h43 _ h42]
  funext k
  rw [subf_apply, transpose_apply [0, 2, 1, 3] (Spec.upper pos cell) transposes_S32x1024x1024x3_S32x1024x1024x3_0_2_1_3 k
    (ix4 (k 0) (k 2) (k 1) (k 3))
    (fun b => match b with | ⟨0, _⟩ => rfl | ⟨1, _⟩ => rfl | ⟨2, _⟩ => rfl | ⟨3, _⟩ => rfl)]
  rfl

/-- THE VALUE of the last two stretches: from any contents whose row and column tables are the triangle's, the
    result buffer ends at the antisymmetrized strict upper triangle of the displacement matrix of the two arguments. -/
theorem out_eq (W : Valuation τ sig (Elt Ideal))
    (hr : W (Proc.devRef .tc main_v17) = fun p => BitVec.ofNat 32 (Count.sel Count.tri 1048576 (p 0).val / 1024))
    (hc : W (Proc.devRef .tc main_v19) = fun p => BitVec.ofNat 32 (Count.sel Count.tri 1048576 (p 0).val % 1024)) :
    after (opsD (F := Ideal) ++ opsE) W (Proc.devRef .tc main_v59)
      = Spec.antisym (W (Proc.devRef .tc main_arg0)) (W (Proc.devRef .tc main_arg1)) := by
  rw [after_append]
  refine E_value (after opsD W) (posOf W) (cellOf W) ?_ ?_ ?_ ?_
  · intro p; rw [RefValD.v17_kept, hr]; rfl
  · intro p; rw [RefValD.v19_kept, hc]; rfl
  · intro i; rw [RefValD.v43_eq]
  · intro b p c; rw [RefValD.v42_eq W hr hc]; rfl

/-- The two stretches leave the two arguments as they were. -/
theorem arg0_keptDE (W : Valuation τ sig (Elt Ideal)) :
    after (opsD (F := Ideal) ++ opsE) W (Proc.devRef .tc main_arg0) = W (Proc.devRef .tc main_arg0) := by
  rw [after_append, opsE_keeps (r := main_arg0) (by decide), opsD_keeps (r := main_arg0) (by decide)]

theorem arg1_keptDE (W : Valuation τ sig (Elt Ideal)) :
    after (opsD (F := Ideal) ++ opsE) W (Proc.devRef .tc main_arg1) = W (Proc.devRef .tc main_arg1) := by
  rw [after_append, opsE_keeps (r := main_arg1) (by decide), opsD_keeps (r := main_arg1) (by decide)]

end Cert.ReferenceIdeal.Hand

end
-- ==== Proof.Wrap.lean ====
/- The minimum-image wrap on real arguments is an odd function of the displacement, so the strict upper
   triangle of the displacement matrix minus its transpose is the whole matrix. -/
import proofs.«180452_j36309653520599_1_alg».proof.Proof.Spec

noncomputable section

namespace Cert.Proof.Spec

open Idealize.ShloMosaic Idealize.ShloMosaic.ValueIdx

/-- Rounding to nearest with ties to even is odd: at an integer both sides are the integer negated; off the
    integers the floor of `-r` is `-⌊r⌋ - 1`, the fractional part `t` becomes `1 - t`, and at the tie
    `t = 1/2` exactly one of `⌊r⌋`, `-⌊r⌋ - 1` is even. -/
theorem roundHalfEven_neg (r : ℝ) : Ideal.roundHalfEven (-r) = -Ideal.roundHalfEven r := by
  have hf : (⌊r⌋ : ℝ) ≤ r := Int.floor_le r
  have hf' : r < ⌊r⌋ + 1 := Int.lt_floor_add_one r
  by_cases hint : (⌊r⌋ : ℝ) = r
  · have h1 : ⌊-r⌋ = -⌊r⌋ := by
      rw [Int.floor_eq_iff]; push_cast; constructor <;> linarith
    unfold Ideal.roundHalfEven
    simp only [h1]
    push_cast
    rw [if_pos (by linarith), if_pos (by linarith)]
  · have hlt : (⌊r⌋ : ℝ) < r := lt_of_le_of_ne hf hint
    have h1 : ⌊-r⌋ = -⌊r⌋ - 1 := by
      rw [Int.floor_eq_iff]; push_cast; constructor <;> linarith
    unfold Ideal.roundHalfEven
    simp only [h1, Int.even_iff]
    push_cast
    split_ifs <;> first | omega | linarith

/-- Zero rounds to zero. -/
theorem roundHalfEven_zero : Ideal.roundHalfEven 0 = 0 := by
  have h := roundHalfEven_neg 0
  rw [neg_zero] at h
  omega

/-- At a zero box edge the wrap is the identity: the quotient is an infinity, which the rounding fixes, and an
    infinity times zero is zero. -/
theorem wrap_coe_zero (d : ℝ) : wrap (d : EReal) 0 = (d : EReal) := by
  unfold wrap Ideal.div
  rw [if_pos rfl]
  split_ifs
  · rw [Ideal.liftRound_top, mul_zero, sub_zero]
  · rw [Ideal.liftRound_bot, mul_zero, sub_zero]

/-- At a nonzero real box edge the wrap of a real displacement is the real number
    `d - round (d / bx) * bx`. -/
theorem wrap_coe_coe (d : ℝ) {bx : ℝ} (h : bx ≠ 0) :
    wrap (d : EReal) (bx : EReal)
      = ((d - (Ideal.roundHalfEven (d * (1 / bx)) : ℝ) * bx : ℝ) : EReal) := by
  unfold wrap
  rw [Ideal.div_coe h, ← EReal.coe_mul, Ideal.liftRound_coe, ← EReal.coe_mul, ← EReal.coe_sub]

/-- The wrap is odd in the displacement, for real displacement and real box edge (zero included). -/
theorem wrap_neg (d bx : ℝ) : wrap ((-d : ℝ) : EReal) (bx : EReal) = -wrap (d : EReal) (bx : EReal) := by
  by_cases h : bx = 0
  · subst h
    rw [EReal.coe_zero, wrap_coe_zero, wrap_coe_zero, EReal.coe_neg]
  · rw [wrap_coe_coe _ h, wrap_coe_coe _ h, ← EReal.coe_neg, neg_mul, roundHalfEven_neg]
    congr 1
    push_cast
    ring

/-- The wrap of a zero displacement is zero, for every real box edge (zero included). -/
theorem wrap_zero (bx : ℝ) : wrap ((0 : ℝ) : EReal) (bx : EReal) = 0 := by
  by_cases h : bx = 0
  · subst h
    have h0 := wrap_coe_zero 0
    rwa [EReal.coe_zero] at h0 ⊢
  · rw [wrap_coe_coe _ h, zero_mul, roundHalfEven_zero]
    norm_num

/-- Exchanging the two atoms negates the displacement entry. -/
theorem disp_swap (pos : SPos.Idx → EReal) (cell : SCell.Idx → EReal)
    (hpos : ∀ i, ∃ r : ℝ, pos i = (r : EReal)) (hcell : ∀ i, ∃ r : ℝ, cell i = (r : EReal))
    (b : Fin 32) (i j : Fin 1024) (c : Fin 3) : disp pos cell b j i c = -disp pos cell b i j c := by
  obtain ⟨x, hx⟩ := hpos (ix3 b i c)
  obtain ⟨y, hy⟩ := hpos (ix3 b j c)
  obtain ⟨z, hz⟩ := hcell (ix3 b c c)
  unfold disp
  rw [hx, hy, hz, ← EReal.coe_sub, ← EReal.coe_sub, ← wrap_neg, neg_sub]

/-- The diagonal of the displacement matrix is zero. -/
theorem disp_self (pos : SPos.Idx → EReal) (cell : SCell.Idx → EReal)
    (hpos : ∀ i, ∃ r : ℝ, pos i = (r : EReal)) (hcell : ∀ i, ∃ r : ℝ, cell i = (r : EReal))
    (b : Fin 32) (i : Fin 1024) (c : Fin 3) : disp pos cell b i i c = 0 := by
  obtain ⟨x, hx⟩ := hpos (ix3 b i c)
  obtain ⟨z, hz⟩ := hcell (ix3 b c c)
  unfold disp
  rw [hx, hz, ← EReal.coe_sub, sub_self, wrap_zero]

/-- One entry: the upper-triangle value at (i, j) minus the upper-triangle value at (j, i) is the dense entry. -/
theorem antisym_entry (pos : SPos.Idx → EReal) (cell : SCell.Idx → EReal)
    (hpos : ∀ i, ∃ r : ℝ, pos i = (r : EReal)) (hcell : ∀ i, ∃ r : ℝ, cell i = (r : EReal))
    (b : Fin 32) (i j : Fin 1024) (c : Fin 3) :
    (if i.val < j.val then disp pos cell b i j c else 0) - (if j.val < i.val then disp pos cell b j i c else 0)
      = disp pos cell b i j c := by
  rcases lt_trichotomy i.val j.val with h | h | h
  · rw [if_pos h, if_neg (by omega), sub_zero]
  · have hij : i = j := Fin.ext h
    subst hij
    rw [if_neg (lt_irrefl _), sub_zero, disp_self pos cell hpos hcell]
  · rw [if_neg (by omega), if_pos h, zero_sub, disp_swap pos cell hpos hcell, neg_neg]

/-- On real inputs the antisymmetrized upper triangle is the dense displacement matrix. -/
theorem antisym_eq_G (pos : SPos.Idx → EReal) (cell : SCell.Idx → EReal)
    (hpos : ∀ i, ∃ r : ℝ, pos i = (r : EReal)) (hcell : ∀ i, ∃ r : ℝ, cell i = (r : EReal)) :
    antisym pos cell = G pos cell := by
  funext k
  exact antisym_entry pos cell hpos hcell (k 0) (k 1) (k 2) (k 3)

end Cert.Proof.Spec

end
-- ==== Proof.RefChain.lean ====
/-
  The reference program's value. The five stretches of its run, read in order: the running count of the strict
  upper triangle; from it the flat position of the p-th pair (i, j) with i < j; from it the pair's row and column;
  from them the wrapped displacement of every listed pair scattered into a zero array, minus the transpose in
  the two atom axes — the antisymmetrized strict upper triangle of the displacement matrix. The arguments pass
  through every stretch untouched. On arguments whose entries are all real numbers the antisymmetrized triangle
  is the dense minimum-image displacement matrix, since the wrap is odd in the displacement.
-/
import proofs.«180452_j36309653520599_1_alg».proof.Proof.RefRun
import proofs.«180452_j36309653520599_1_alg».proof.Proof.RefIdxA
import proofs.«180452_j36309653520599_1_alg».proof.Proof.RefIdxB
import proofs.«180452_j36309653520599_1_alg».proof.Proof.RefIdxC
import proofs.«180452_j36309653520599_1_alg».proof.Proof.RefVal
import proofs.«180452_j36309653520599_1_alg».proof.Proof.Spec
import proofs.«180452_j36309653520599_1_alg».proof.Proof.Wrap

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Proof

/-- After the whole program, from any contents, the result buffer holds the antisymmetrized strict upper
    triangle of the displacement matrix of the two arguments. -/
theorem out_antisym (V : Valuation τ sig (Elt Ideal)) :
    after ops V (Proc.devRef .tc main_v59)
      = Spec.antisym (V (Proc.devRef .tc main_arg0)) (V (Proc.devRef .tc main_arg1)) := by
  have h4 := v4_eq V
  have h15 := v15_eq (after opsA V) h4
  have h17 := v17_eq (after opsB (after opsA V)) h15
  have h19 := v19_eq (after opsB (after opsA V)) h15
  have hout := out_eq (after opsC (after opsB (after opsA V))) h17 h19
  rw [after_ops, ← after_append opsD opsE, hout,
    opsC_keeps (r := main_arg0) (by decide), opsB_keeps (r := main_arg0) (by decide), opsA_keeps (r := main_arg0) (by decide),
    opsC_keeps (r := main_arg1) (by decide), opsB_keeps (r := main_arg1) (by decide), opsA_keeps (r := main_arg1) (by decide)]

/-- On every device, from any memory with zero counters whose two argument arrays hold real numbers only: every
    weakly fair execution of @main terminates with the result buffer at the dense minimum-image displacement
    matrix of the arguments, and the arguments unchanged. -/
theorem value (m : (ℓ : Loc nD τ sig) → Buf (Elt Ideal) ℓ) (ρ : Dev nD → PrngReg)
    (hfin : ∀ c : Dev nD,
      (∀ i, ∃ r : ℝ, m ((c.tc : Thread nD τ).loc main_arg0) i = (r : EReal))
      ∧ (∀ i, ∃ r : ℝ, m ((c.tc : Thread nD τ).loc main_arg1) i = (r : EReal))) :
    θ_run defs (onTc (τ := τ) (main (F := Ideal))) ⟨m, fun _ => 0, ρ⟩ fun r => ∀ c : Dev nD,
      r.2.mem ((c.tc : Thread nD τ).loc main_v59)
        = Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v59).trans ((out_antisym _).trans (Spec.antisym_eq_G _ _ (hfin c).1 (hfin c).2)),
        (h c main_arg0).trans (arg0_kept _), (h c main_arg1).trans (arg1_kept _)⟩)
    (run m ρ)

end Cert.ReferenceIdeal.Hand

end
-- ==== Proof.Finite.lean ====
import proofs.«180452_j36309653520599_1_alg».proof.Pre_finite_inputs
import proofs.«180452_j36309653520599_1_alg».proof.Proof.Gen.Pre_finite_inputs
import Idealize.ShloMosaic.PureOps.Ideal
import Idealize.ShloMosaic.Lib.ReduceAll
import Idealize.ShloMosaic.Lib.ValueIdx

/-!
  The precondition read back. The predicate is the conjunction, over every entry x of both float arrays, of
  |x| < +∞ (an and-reduction of each array of comparisons, the two results and-ed). Over the extended reals
  |x| = max x (-x), and max x (-x) < ⊤ holds exactly when x is neither ⊤ nor ⊥, that is, when x is a real number.
-/

noncomputable section

namespace Cert.Proof.Finite

open Idealize.ShloMosaic

/-- The f32 pattern 0x7F800000 denotes +∞. -/
theorem ofBits_inf : Ideal.ofBits .f32 0x7F800000#32 = (⊤ : EReal) := by
  simp [Ideal.ofBits, Ideal.ieee]

/-- A Boolean as a one-bit word is 1 exactly when it is true. -/
theorem ofBool_eq_one (b : Bool) : BitVec.ofBool b = 1#1 ↔ b = true := by cases b <;> decide

/-- An extended real whose absolute value max x (-x) lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One comparison |x| < +∞ that came out true says x is a real number. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [ofBits_inf] at h'
  exact of_decide_eq_true ((ofBool_eq_one _).1 h')

instance subsingleton_scalar_idx : Subsingleton Cert.Pre_finite_inputs.S_.Idx := ⟨fun a b => funext fun d => d.elim0⟩

/-- The precondition holds only of arrays all of whose entries are real numbers. -/
theorem finite_of_pre [Cert.Pre_finite_inputs.Facts]
    (pos : Cert.Pre_finite_inputs.S32x1024x3.Idx → EReal) (cell : Cert.Pre_finite_inputs.S32x3x3.Idx → EReal)
    (h : Cert.Pre_finite_inputs.fn (F := Ideal) pos cell = fun _ => 1#1) :
    (∀ i, ∃ r : ℝ, pos i = (r : EReal)) ∧ (∀ i, ∃ r : ℝ, cell i = (r : EReal)) := by
  have h0 := congrFun h ValueIdx.ix0
  dsimp only [Cert.Pre_finite_inputs.fn] at h0
  obtain ⟨hp, hc⟩ := IntOp.andi_eq_one.1 h0
  refine ⟨fun i => ?_, fun i => ?_⟩
  · exact real_of_cmp (pos i) (Host.reduce_andi_all _ _ _ _ _ hp i)
  · exact real_of_cmp (cell i) (Host.reduce_andi_all _ _ _ _ _ hc i)

end Cert.Proof.Finite

end
-- ==== Proof.lean ====
/- The certificate's claim assembled. Both programs compute the dense minimum-image displacement matrix
   G[b,i,j,c] = wrap (pos[b,i,c] - pos[b,j,c]) (cell[b,c,c]): the kernel blockwise in the layout [b,c,i,j],
   transposed by the host afterwards; the reference by writing the strict upper triangle i < j at index pairs
   it computes itself, and subtracting the transpose — equal to G because the wrap is an odd function of the
   displacement and vanishes at zero, which is where the inputs' finiteness is used. The three frames are the
   runs with their results dropped; the idealization rewrote nothing. -/
import proofs.«180452_j36309653520599_1_alg».proof.Defs
import proofs.«180452_j36309653520599_1_alg».proof.Proof.KRun
import proofs.«180452_j36309653520599_1_alg».proof.Proof.KRunBits
import proofs.«180452_j36309653520599_1_alg».proof.Proof.KValue
import proofs.«180452_j36309653520599_1_alg».proof.Proof.RefChain
import proofs.«180452_j36309653520599_1_alg».proof.Proof.Finite
import Idealize.ShloMosaic.Adequacy
import Idealize.ShloMosaic.Init

noncomputable section

namespace Cert.Proof

open Idealize.ShloMosaic Idealize.SL.Sem

/-- The precondition of the idealized kernel's memory says every entry of both arguments is a real number. -/
theorem finite_of_pre (m : (ℓ : Loc Cert.KernelIdeal.nD Cert.KernelIdeal.τ Cert.KernelIdeal.sig) → Buf (Elt Idealize.ShloMosaic.Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
  Cert.Proof.Finite.finite_of_pre _ _ (h c)

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  fun m ρ m' ρ' hpre hagree =>
    ⟨fun c => Cert.Proof.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run (Cert.KernelIdeal.defs (F := Idealize.ShloMosaic.Ideal)) _ _).mono
        (fun _ h c => ⟨(h c).1.trans ((Cert.KernelIdeal.Hand.result_eq m c).trans (Cert.KernelIdeal.Hand.Value.out_eq m c)), (h c).2.1, (h c).2.2⟩)
        (Cert.KernelIdeal.Hand.run_main m ρ),
      (θ_run (Cert.ReferenceIdeal.defs (F := Idealize.ShloMosaic.Ideal)) _ _).mono
        (fun _ h c => ⟨by rw [(h c).1, (hagree c).1, (hagree c).2], (h c).2.1, (h c).2.2⟩)
        (Cert.ReferenceIdeal.Hand.value m' ρ' (fun c => by
          have hf := finite_of_pre m hpre c
          rw [(hagree c).1, (hagree c).2]; exact hf))⟩⟩

end Cert.Proof

end
